-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_15" .f32 0x3D888889#32 ((1 / 15 : ℝ) : EReal)
  ∧ IdealRules.named_const.Statement Cert.KernelIdeal.κ "c_2_15" .f32 0x3E088889#32 ((2 / 15 : ℝ) : EReal)
  ∧ IdealRules.named_const.Statement Cert.KernelIdeal.κ "inv_5" .f32 0x3E4CCCCD#32 ((1 / 5 : ℝ) : EReal)
  ∧ IdealRules.named_const.Statement Cert.KernelIdeal.κ "c_4_15" .f32 0x3E888889#32 ((4 / 15 : ℝ) : EReal)
  ∧ IdealRules.named_const.Statement Cert.KernelIdeal.κ "inv_3" .f32 0x3EAAAAAB#32 ((1 / 3 : ℝ) : EReal)
  ∧ IdealRules.named_const.Statement Cert.KernelIdeal.κ "c_2_5" .f32 0x3ECCCCCD#32 ((2 / 5 : ℝ) : EReal)
  ∧ IdealRules.named_const.Statement Cert.KernelIdeal.κ "c_7_15" .f32 0x3EEEEEEF#32 ((7 / 15 : ℝ) : EReal)
  ∧ IdealRules.named_const.Statement Cert.KernelIdeal.κ "c_8_15" .f32 0x3F088889#32 ((8 / 15 : ℝ) : EReal)
  ∧ IdealRules.named_const.Statement Cert.KernelIdeal.κ "c_3_5" .f32 0x3F19999A#32 ((3 / 5 : ℝ) : EReal)
  ∧ IdealRules.named_const.Statement Cert.KernelIdeal.κ "c_2_3" .f32 0x3F2AAAAB#32 ((2 / 3 : ℝ) : EReal)
  ∧ IdealRules.named_const.Statement Cert.KernelIdeal.κ "c_11_15" .f32 0x3F3BBBBC#32 ((11 / 15 : ℝ) : EReal)
  ∧ IdealRules.named_const.Statement Cert.KernelIdeal.κ "c_4_5" .f32 0x3F4CCCCD#32 ((4 / 5 : ℝ) : EReal)
  ∧ IdealRules.named_const.Statement Cert.KernelIdeal.κ "c_13_15" .f32 0x3F5DDDDE#32 ((13 / 15 : ℝ) : EReal)
  ∧ IdealRules.named_const.Statement Cert.KernelIdeal.κ "c_14_15" .f32 0x3F6EEEEF#32 ((14 / 15 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x100 : Shape := ⟨2, ![500000, 100]⟩
abbrev S500000 : Shape := ⟨1, ![500000]⟩
abbrev S_ : Shape := ⟨0, ![]⟩

class Facts : Prop where
  bcast_S_S500000x100 : S_.BroadcastsInDim S500000x100 (![] : Fin 0 → Fin S500000x100.rank)
  reducesTo_S500000x100_S_d0_1 : S500000x100.ReducesTo [0, 1] S_
  h_S_ : 0 < S_.numel

variable [Facts]

def fn {F : FTy → Type} [FloatOps F] (main_arg0 : FVec F S500000x100 .f32) (main_arg1 : IVec S500000 32) : IVec S_ 1 :=
  let main_v0 : FVec F S500000x100 .f32 := Host.absf main_arg0
  let main_cst : FVec F S_ .f32 := constant S_ .f32 0x7F800000#32
  let main_v1 : FVec F S500000x100 .f32 := broadcastInDim S500000x100 ![] bcast_S_S500000x100 main_cst
  let main_v2 : IVec S500000x100 1 := cmpf .olt main_v0 main_v1
  let main_c : IVec S_ 1 := constantI S_ 1 1#1
  let main_v3 : IVec S_ 1 := (fun x v => Host.reduce IntOp.andi x v reducesTo_S500000x100_S_d0_1 h_S_) main_v2 main_c
  main_v3
-- ==== Kernel.lean ====
abbrev S500000x100 : Shape := ⟨2, ![500000, 100]⟩
abbrev S500000 : Shape := ⟨1, ![500000]⟩
abbrev S500000x1 : Shape := ⟨2, ![500000, 1]⟩
abbrev S2x15x100 : Shape := ⟨3, ![2, 15, 100]⟩
abbrev S2000x100 : Shape := ⟨2, ![2000, 100]⟩
abbrev S2000x1 : Shape := ⟨2, ![2000, 1]⟩
abbrev S1x15x100 : Shape := ⟨3, ![1, 15, 100]⟩
abbrev S15x100 : Shape := ⟨2, ![15, 100]⟩
abbrev S2000 : Shape := ⟨1, ![2000]⟩
abbrev S8x2000 : Shape := ⟨2, ![8, 2000]⟩
abbrev S8x100 : Shape := ⟨2, ![8, 100]⟩
abbrev S1x1x100 : Shape := ⟨3, ![1, 1, 100]⟩
abbrev S100 : Shape := ⟨1, ![100]⟩
abbrev S1x100 : Shape := ⟨2, ![1, 100]⟩
abbrev S_ : Shape := ⟨0, ![]⟩
abbrev S16x100 : Shape := ⟨2, ![16, 100]⟩

abbrev nBuf : Space → Nat
  | .hbm => 50
  | .vmem => 10
  | .smem => 0
  | _ => 0

abbrev bufTy : (tb : Table) → Fin (tcTables nBuf tb) → BufTy
  | .hbm, ⟨0, _⟩ => ⟨S500000x100, .f32⟩
  | .hbm, ⟨1, _⟩ => ⟨S500000, .i32⟩
  | .hbm, ⟨2, _⟩ => ⟨S500000x1, .i32⟩
  | .hbm, ⟨3, _⟩ => ⟨S2x15x100, .f32⟩
  | .hbm, ⟨4, _⟩ => ⟨S2x15x100, .f32⟩
  | .hbm, ⟨5, _⟩ => ⟨S2x15x100, .f32⟩
  | .hbm, ⟨6, _⟩ => ⟨S_, .f32⟩
  | .hbm, ⟨7, _⟩ => ⟨S15x100, .f32⟩
  | .hbm, ⟨8, _⟩ => ⟨S_, .f32⟩
  | .hbm, ⟨9, _⟩ => ⟨S15x100, .f32⟩
  | .hbm, ⟨10, _⟩ => ⟨S_, .f32⟩
  | .hbm, ⟨11, _⟩ => ⟨S15x100, .f32⟩
  | .hbm, ⟨12, _⟩ => ⟨S_, .f32⟩
  | .hbm, ⟨13, _⟩ => ⟨S1x100, .f32⟩
  | .hbm, ⟨14, _⟩ => ⟨S16x100, .f32⟩
  | .hbm, ⟨15, _⟩ => ⟨S15x100, .f32⟩
  | .hbm, ⟨16, _⟩ => ⟨S15x100, .f32⟩
  | .hbm, ⟨17, _⟩ => ⟨S15x100, .f32⟩
  | .hbm, ⟨18, _⟩ => ⟨S16x100, .f32⟩
  | .hbm, ⟨19, _⟩ => ⟨S15x100, .f32⟩
  | .hbm, ⟨20, _⟩ => ⟨S15x100, .f32⟩
  | .hbm, ⟨21, _⟩ => ⟨S15x100, .f32⟩
  | .hbm, ⟨22, _⟩ => ⟨S16x100, .f32⟩
  | .hbm, ⟨23, _⟩ => ⟨S15x100, .f32⟩
  | .hbm, ⟨24, _⟩ => ⟨S15x100, .f32⟩
  | .hbm, ⟨25, _⟩ => ⟨S15x100, .f32⟩
  | .hbm, ⟨26, _⟩ => ⟨S_, .f32⟩
  | .hbm, ⟨27, _⟩ => ⟨S15x100, .f32⟩
  | .hbm, ⟨28, _⟩ => ⟨S15x100, .f32⟩
  | .hbm, ⟨29, _⟩ => ⟨S15x100, .f32⟩
  | .hbm, ⟨30, _⟩ => ⟨S15x100, .f32⟩
  | .hbm, ⟨31, _⟩ => ⟨S15x100, .f32⟩
  | .hbm, ⟨32, _⟩ => ⟨S15x100, .f32⟩
  | .hbm, ⟨33, _⟩ => ⟨S_, .f32⟩
  | .hbm, ⟨34, _⟩ => ⟨S15x100, .f32⟩
  | .hbm, ⟨35, _⟩ => ⟨S15x100, .f32⟩
  | .hbm, ⟨36, _⟩ => ⟨S_, .f32⟩
  | .hbm, ⟨37, _⟩ => ⟨S15x100, .f32⟩
  | .hbm, ⟨38, _⟩ => ⟨S15x100, .i1⟩
  | .hbm, ⟨39, _⟩ => ⟨S15x100, .f32⟩
  | .hbm, ⟨40, _⟩ => ⟨S_, .f32⟩
  | .hbm, ⟨41, _⟩ => ⟨S_, .f32⟩
  | .hbm, ⟨42, _⟩ => ⟨S15x100, .f32⟩
  | .hbm, ⟨43, _⟩ => ⟨S15x100, .f32⟩
  | .hbm, ⟨44, _⟩ => ⟨S_, .f32⟩
  | .hbm, ⟨45, _⟩ => ⟨S100, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .local _ .vmem, ⟨0, _⟩ => ⟨S2000x100, .f32⟩
  | .local _ .vmem, ⟨1, _⟩ => ⟨S2000x100, .f32⟩
  | .local _ .vmem, ⟨2, _⟩ => ⟨S2000x1, .i32⟩
  | .local _ .vmem, ⟨3, _⟩ => ⟨S2000x1, .i32⟩
  | .local _ .vmem, ⟨4, _⟩ => ⟨S1x15x100, .f32⟩
  | .local _ .vmem, ⟨5, _⟩ => ⟨S1x15x100, .f32⟩
  | .local _ .vmem, ⟨6, _⟩ => ⟨S1x15x100, .f32⟩
  | .local _ .vmem, ⟨7, _⟩ => ⟨S1x15x100, .f32⟩
  | .local _ .vmem, ⟨8, _⟩ => ⟨S1x15x100, .f32⟩
  | .local _ .vmem, ⟨9, _⟩ => ⟨S1x15x100, .f32⟩
  | _, _ => ⟨S500000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v6 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_v7 : Ref sig .tc := ⟨.hbm, 21, rfl⟩
abbrev main_call2_v0 : Ref sig .tc := ⟨.hbm, 22, rfl⟩
abbrev main_call2_v1 : Ref sig .tc := ⟨.hbm, 23, rfl⟩
abbrev main_call2_v2 : Ref sig .tc := ⟨.hbm, 24, rfl⟩
abbrev main_v8 : Ref sig .tc := ⟨.hbm, 25, rfl⟩
abbrev main_cst_3 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_4 : Ref sig .tc := ⟨.hbm, 33, rfl⟩
abbrev main_v15 : Ref sig .tc := ⟨.hbm, 34, rfl⟩
abbrev main_v16 : Ref sig .tc := ⟨.hbm, 35, rfl⟩
abbrev main_cst_5 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_6 : Ref sig .tc := ⟨.hbm, 40, rfl⟩
abbrev main_call3_v0 : Ref sig .tc := ⟨.hbm, 41, rfl⟩
abbrev main_call3_v1 : Ref sig .tc := ⟨.hbm, 42, rfl⟩
abbrev main_v20 : Ref sig .tc := ⟨.hbm, 43, rfl⟩
abbrev main_cst_7 : Ref sig .tc := ⟨.hbm, 44, rfl⟩
abbrev main_v21 : Ref sig .tc := ⟨.hbm, 45, rfl⟩
abbrev main_cst_8 : Ref sig .tc := ⟨.hbm, 46, rfl⟩
abbrev main_v22 : Ref sig .tc := ⟨.hbm, 47, rfl⟩
abbrev main_cst_9 : Ref sig .tc := ⟨.hbm, 48, rfl⟩
abbrev main_v23 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 125], ![false, false]⟩

def cc0_transform_0 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x15x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x15x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x15x100 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S500000_S500000x1 : S500000.ShapeCasts S500000x1
  inb_S1x15x100_S1x15x100_0_0_0 : ∀ a, (![0, 0, 0] : Fin 3 → Nat) a + S1x15x100.size a ≤ S1x15x100.size a
  h_S1x15x100 : 0 < S1x15x100.numel
  shapeCasts_S1x15x100_S15x100 : S1x15x100.ShapeCasts S15x100
  shapeCasts_S15x100_S1x15x100 : S15x100.ShapeCasts S1x15x100
  inb_S2000x100_S2000x100_0_0 : ∀ a, (![0, 0] : Fin 2 → Nat) a + S2000x100.size a ≤ S2000x100.size a
  h_S2000x100 : 0 < S2000x100.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  reduces_S2000x100_S2000 : S2000x100.Reduces [1] S2000
  shapeCasts_S2000_S2000x1 : S2000.ShapeCasts S2000x1
  broadcasts_S2000x1_S2000x100 : S2000x1.Broadcasts S2000x100
  iota_S2000x100_d1_w32 : S2000x100.Iotas .tc 32 [1]
  natLt_1_32 : 1 < 32
  bitsLt_bf16_f32 : FTy.bits .bf16 < FTy.bits .f32
  inb_S1x15x100_S1x1x100_0_0_0 : ∀ a, (![0, 0, 0] : Fin 3 → Nat) a + S1x1x100.size a ≤ S1x15x100.size a
  h_S1x1x100 : 0 < S1x1x100.numel
  shapeCasts_S1x1x100_S100 : S1x1x100.ShapeCasts S100
  slices_S8x100_o0_0_S1x100 : S8x100.Slices ![0, 0] S1x100
  shapeCasts_S1x100_S100 : S1x100.ShapeCasts S100
  shapeCasts_S100_S1x1x100 : S100.ShapeCasts S1x1x100
  reduces_S2000x100_S100 : S2000x100.Reduces [0] S100
  inb_S1x15x100_S1x1x100_0_1_0 : ∀ a, (![0, 1, 0] : Fin 3 → Nat) a + S1x1x100.size a ≤ S1x15x100.size a
  inb_S1x15x100_S1x1x100_0_2_0 : ∀ a, (![0, 2, 0] : Fin 3 → Nat) a + S1x1x100.size a ≤ S1x15x100.size a
  inb_S1x15x100_S1x1x100_0_3_0 : ∀ a, (![0, 3, 0] : Fin 3 → Nat) a + S1x1x100.size a ≤ S1x15x100.size a
  inb_S1x15x100_S1x1x100_0_4_0 : ∀ a, (![0, 4, 0] : Fin 3 → Nat) a + S1x1x100.size a ≤ S1x15x100.size a
  inb_S1x15x100_S1x1x100_0_5_0 : ∀ a, (![0, 5, 0] : Fin 3 → Nat) a + S1x1x100.size a ≤ S1x15x100.size a
  inb_S1x15x100_S1x1x100_0_6_0 : ∀ a, (![0, 6, 0] : Fin 3 → Nat) a + S1x1x100.size a ≤ S1x15x100.size a
  inb_S1x15x100_S1x1x100_0_7_0 : ∀ a, (![0, 7, 0] : Fin 3 → Nat) a + S1x1x100.size a ≤ S1x15x100.size a
  inb_S1x15x100_S1x1x100_0_8_0 : ∀ a, (![0, 8, 0] : Fin 3 → Nat) a + S1x1x100.size a ≤ S1x15x100.size a
  inb_S1x15x100_S1x1x100_0_9_0 : ∀ a, (![0, 9, 0] : Fin 3 → Nat) a + S1x1x100.size a ≤ S1x15x100.size a
  inb_S1x15x100_S1x1x100_0_10_0 : ∀ a, (![0, 10, 0] : Fin 3 → Nat) a + S1x1x100.size a ≤ S1x15x100.size a
  inb_S1x15x100_S1x1x100_0_11_0 : ∀ a, (![0, 11, 0] : Fin 3 → Nat) a + S1x1x100.size a ≤ S1x15x100.size a
  inb_S1x15x100_S1x1x100_0_12_0 : ∀ a, (![0, 12, 0] : Fin 3 → Nat) a + S1x1x100.size a ≤ S1x15x100.size a
  inb_S1x15x100_S1x1x100_0_13_0 : ∀ a, (![0, 13, 0] : Fin 3 → Nat) a + S1x1x100.size a ≤ S1x15x100.size a
  inb_S1x15x100_S1x1x100_0_14_0 : ∀ a, (![0, 14, 0] : Fin 3 → Nat) a + S1x1x100.size a ≤ S1x15x100.size a
  reducesTo_S2x15x100_S15x100_d0 : S2x15x100.ReducesTo [0] S15x100
  h_S_ : 0 < S_.numel
  bcast_S_S1x100 : S_.BroadcastsInDim S1x100 (![] : Fin 0 → Fin S1x100.rank)
  concatenates_S1x100_S15x100_S16x100_d0 : Shape.Concatenates [S1x100, S15x100] S16x100 0
  slices_S16x100_S15x100_1_0 : S16x100.Slices ![1, 0] S15x100
  slices_S16x100_S15x100_0_0 : S16x100.Slices ![0, 0] S15x100
  bcast_S_S15x100 : S_.BroadcastsInDim S15x100 (![] : Fin 0 → Fin S15x100.rank)
  reducesTo_S15x100_S100_d0 : S15x100.ReducesTo [0] S100
  reducesTo_S100_S_d0 : S100.ReducesTo [0] S_
  dot_S8x2000_S2000x100_S8x100_1_0_0_1_n_n_wf : DotDims.WF S8x2000 S2000x100 S8x100 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x100.size a ≤ S500000x100.size a
  hwx0_0 : ∀ i : grid0.Coords, EltTy.bits .f32 = 32 ∨ (Rect.block (s := S500000x100) S2000x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S500000x1.size a
  hwx0_1 : ∀ i : grid0.Coords, EltTy.bits .i32 = 32 ∨ (Rect.block (s := S500000x1) S2000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x15x100.size a ≤ S2x15x100.size a
  hwx0_2 : ∀ i : grid0.Coords, EltTy.bits .f32 = 32 ∨ (Rect.block (s := S2x15x100) S1x15x100.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x15x100.size a ≤ S2x15x100.size a
  hwx0_3 : ∀ i : grid0.Coords, EltTy.bits .f32 = 32 ∨ (Rect.block (s := S2x15x100) S1x15x100.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x15x100.size a ≤ S2x15x100.size a
  hwx0_4 : ∀ i : grid0.Coords, EltTy.bits .f32 = 32 ∨ (Rect.block (s := S2x15x100) S1x15x100.size (cc0_transform_4 i) (hinb0_4 i)).WholeWords (EltTy.packing .f32)

variable [Facts₀]

def dot_S8x2000_S2000x100_S8x100_1_0_0_1_n_n : DotDims S8x2000 S2000x100 S8x100 where
  lhsContracting := [1]
  rhsContracting := [0]
  lhsNonContracting := [0]
  rhsNonContracting := [1]
  lhsBatch := []
  rhsBatch := []
  wf := dot_S8x2000_S2000x100_S8x100_1_0_0_1_n_n_wf

abbrev win0_0 : Pipeline.Window sig grid0 :=
  Pipeline.Window.ofSpec (Memref.whole main_arg0) S2000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x15x100.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x15x100.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x15x100.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S500000x100 : Shape := ⟨2, ![500000, 100]⟩
abbrev S500000 : Shape := ⟨1, ![500000]⟩
abbrev S_ : Shape := ⟨0, ![]⟩
abbrev S500000x1 : Shape := ⟨2, ![500000, 1]⟩
abbrev S100 : Shape := ⟨1, ![100]⟩
abbrev S1x100 : Shape := ⟨2, ![1, 100]⟩
abbrev S50000000 : Shape := ⟨1, ![50000000]⟩
abbrev S1500 : Shape := ⟨1, ![1500]⟩
abbrev S50000000x1 : Shape := ⟨2, ![50000000, 1]⟩
abbrev S100x15 : Shape := ⟨2, ![100, 15]⟩

abbrev nBuf : Space → Nat
  | .hbm => 88
  | .vmem => 0
  | .smem => 0
  | _ => 0

abbrev bufTy : (tb : Table) → Fin (tcTables nBuf tb) → BufTy
  | .hbm, ⟨0, _⟩ => ⟨S500000x100, .f32⟩
  | .hbm, ⟨1, _⟩ => ⟨S500000, .i32⟩
  | .hbm, ⟨2, _⟩ => ⟨S_, .f32⟩
  | .hbm, ⟨3, _⟩ => ⟨S500000, .f32⟩
  | .hbm, ⟨4, _⟩ => ⟨S_, .f32⟩
  | .hbm, ⟨5, _⟩ => ⟨S500000, .f32⟩
  | .hbm, ⟨6, _⟩ => ⟨S500000, .f32⟩
  | .hbm, ⟨7, _⟩ => ⟨S500000x1, .f32⟩
  | .hbm, ⟨8, _⟩ => ⟨S500000x100, .f32⟩
  | .hbm, ⟨9, _⟩ => ⟨S500000x100, .f32⟩
  | .hbm, ⟨10, _⟩ => ⟨S500000x100, .f32⟩
  | .hbm, ⟨11, _⟩ => ⟨S_, .f32⟩
  | .hbm, ⟨12, _⟩ => ⟨S500000, .f32⟩
  | .hbm, ⟨13, _⟩ => ⟨S500000x1, .f32⟩
  | .hbm, ⟨14, _⟩ => ⟨S500000x100, .f32⟩
  | .hbm, ⟨15, _⟩ => ⟨S500000x100, .f32⟩
  | .hbm, ⟨16, _⟩ => ⟨S_, .f32⟩
  | .hbm, ⟨17, _⟩ => ⟨S500000x100, .f32⟩
  | .hbm, ⟨18, _⟩ => ⟨S500000x100, .f32⟩
  | .hbm, ⟨19, _⟩ => ⟨S500000x100, .f32⟩
  | .hbm, ⟨20, _⟩ => ⟨S500000x100, .i32⟩
  | .hbm, ⟨21, _⟩ => ⟨S_, .i32⟩
  | .hbm, ⟨22, _⟩ => ⟨S500000x100, .i32⟩
  | .hbm, ⟨23, _⟩ => ⟨S500000x100, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S500000x100, .i32⟩
  | .hbm, ⟨28, _⟩ => ⟨S500000x100, .i32⟩
  | .hbm, ⟨29, _⟩ => ⟨S_, .i32⟩
  | .hbm, ⟨30, _⟩ => ⟨S500000x100, .i32⟩
  | .hbm, ⟨31, _⟩ => ⟨S500000x100, .i32⟩
  | .hbm, ⟨32, _⟩ => ⟨S100, .i32⟩
  | .hbm, ⟨33, _⟩ => ⟨S1x100, .i32⟩
  | .hbm, ⟨34, _⟩ => ⟨S_, .i32⟩
  | .hbm, ⟨35, _⟩ => ⟨S1x100, .i32⟩
  | .hbm, ⟨36, _⟩ => ⟨S1x100, .i32⟩
  | .hbm, ⟨37, _⟩ => ⟨S500000x100, .i32⟩
  | .hbm, ⟨38, _⟩ => ⟨S500000x100, .i32⟩
  | .hbm, ⟨39, _⟩ => ⟨S50000000, .i32⟩
  | .hbm, ⟨40, _⟩ => ⟨S50000000, .f32⟩
  | .hbm, ⟨41, _⟩ => ⟨S500000x1, .i32⟩
  | .hbm, ⟨42, _⟩ => ⟨S100, .i32⟩
  | .hbm, ⟨43, _⟩ => ⟨S1x100, .i32⟩
  | .hbm, ⟨44, _⟩ => ⟨S500000x100, .i32⟩
  | .hbm, ⟨45, _⟩ => ⟨S500000x100, .i32⟩
  | .hbm, ⟨46, _⟩ => ⟨S500000x100, .i1⟩
  | .hbm, ⟨47, _⟩ => ⟨S500000x100, .f32⟩
  | .hbm, ⟨48, _⟩ => ⟨S50000000, .f32⟩
  | .hbm, ⟨49, _⟩ => ⟨S_, .f32⟩
  | .hbm, ⟨50, _⟩ => ⟨S50000000, .f32⟩
  | .hbm, ⟨51, _⟩ => ⟨S_, .f32⟩
  | .hbm, ⟨52, _⟩ => ⟨S1500, .f32⟩
  | .hbm, ⟨53, _⟩ => ⟨S50000000x1, .i32⟩
  | .hbm, ⟨54, _⟩ => ⟨S1500, .f32⟩
  | .hbm, ⟨55, _⟩ => ⟨S_, .f32⟩
  | .hbm, ⟨56, _⟩ => ⟨S1500, .f32⟩
  | .hbm, ⟨57, _⟩ => ⟨S50000000x1, .i32⟩
  | .hbm, ⟨58, _⟩ => ⟨S1500, .f32⟩
  | .hbm, ⟨59, _⟩ => ⟨S_, .f32⟩
  | .hbm, ⟨60, _⟩ => ⟨S1500, .f32⟩
  | .hbm, ⟨61, _⟩ => ⟨S50000000x1, .i32⟩
  | .hbm, ⟨62, _⟩ => ⟨S1500, .f32⟩
  | .hbm, ⟨63, _⟩ => ⟨S_, .f32⟩
  | .hbm, ⟨64, _⟩ => ⟨S1500, .f32⟩
  | .hbm, ⟨65, _⟩ => ⟨S1500, .f32⟩
  | .hbm, ⟨66, _⟩ => ⟨S1500, .f32⟩
  | .hbm, ⟨67, _⟩ => ⟨S1500, .f32⟩
  | .hbm, ⟨68, _⟩ => ⟨S1500, .f32⟩
  | .hbm, ⟨69, _⟩ => ⟨S1500, .f32⟩
  | .hbm, ⟨70, _⟩ => ⟨S_, .f32⟩
  | .hbm, ⟨71, _⟩ => ⟨S1500, .f32⟩
  | .hbm, ⟨72, _⟩ => ⟨S1500, .f32⟩
  | .hbm, ⟨73, _⟩ => ⟨S_, .f32⟩
  | .hbm, ⟨74, _⟩ => ⟨S1500, .f32⟩
  | .hbm, ⟨75, _⟩ => ⟨S1500, .i1⟩
  | .hbm, ⟨76, _⟩ => ⟨S1500, .f32⟩
  | .hbm, ⟨77, _⟩ => ⟨S_, .f32⟩
  | .hbm, ⟨78, _⟩ => ⟨S_, .f32⟩
  | .hbm, ⟨79, _⟩ => ⟨S1500, .f32⟩
  | .hbm, ⟨80, _⟩ => ⟨S1500, .f32⟩
  | .hbm, ⟨81, _⟩ => ⟨S100x15, .f32⟩
  | .hbm, ⟨82, _⟩ => ⟨S_, .f32⟩
  | .hbm, ⟨83, _⟩ => ⟨S100, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | _, _ => ⟨S500000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_c_4 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_11 : Ref sig .tc := ⟨.hbm, 70, rfl⟩
abbrev main_v50 : Ref sig .tc := ⟨.hbm, 71, rfl⟩
abbrev main_v51 : Ref sig .tc := ⟨.hbm, 72, rfl⟩
abbrev main_cst_12 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_13 : Ref sig .tc := ⟨.hbm, 77, rfl⟩
abbrev main_call1_v0 : Ref sig .tc := ⟨.hbm, 78, rfl⟩
abbrev main_call1_v1 : Ref sig .tc := ⟨.hbm, 79, rfl⟩
abbrev main_v55 : Ref sig .tc := ⟨.hbm, 80, rfl⟩
abbrev main_v56 : Ref sig .tc := ⟨.hbm, 81, rfl⟩
abbrev main_cst_14 : Ref sig .tc := ⟨.hbm, 82, rfl⟩
abbrev main_v57 : Ref sig .tc := ⟨.hbm, 83, rfl⟩
abbrev main_cst_15 : Ref sig .tc := ⟨.hbm, 84, rfl⟩
abbrev main_v58 : Ref sig .tc := ⟨.hbm, 85, rfl⟩
abbrev main_cst_16 : Ref sig .tc := ⟨.hbm, 86, rfl⟩
abbrev main_v59 : Ref sig .tc := ⟨.hbm, 87, rfl⟩

abbrev nD : Nat := 1
abbrev τ : Topo := Topo.v7x

variable {F : FTy → Type} [FloatOps F]

class Facts₀ : Prop where
  reducesTo_S500000x100_S500000_d1 : S500000x100.ReducesTo [1] S500000
  h_S_ : 0 < S_.numel
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x100_0_1 : S500000x1.BroadcastsInDim S500000x100 (![0, 1] : Fin 2 → Fin S500000x100.rank)
  bcast_S_S500000x100 : S_.BroadcastsInDim S500000x100 (![] : Fin 0 → Fin S500000x100.rank)
  bcast_S100_S1x100_1 : S100.BroadcastsInDim S1x100 (![1] : Fin 1 → Fin S1x100.rank)
  bcast_S_S1x100 : S_.BroadcastsInDim S1x100 (![] : Fin 0 → Fin S1x100.rank)
  bcast_S1x100_S500000x100_0_1 : S1x100.BroadcastsInDim S500000x100 (![0, 1] : Fin 2 → Fin S500000x100.rank)
  shapeCasts_S500000x100_S50000000 : S500000x100.ShapeCasts S50000000
  bcast_S_S50000000 : S_.BroadcastsInDim S50000000 (![] : Fin 0 → Fin S50000000.rank)
  bcast_S_S1500 : S_.BroadcastsInDim S1500 (![] : Fin 0 → Fin S1500.rank)
  bcast_S50000000_S50000000x1_0 : S50000000.BroadcastsInDim S50000000x1 (![0] : Fin 1 → Fin S50000000x1.rank)
  shapeCasts_S1500_S100x15 : S1500.ShapeCasts S100x15
  reducesTo_S100x15_S100_d1 : S100x15.ReducesTo [1] S100
  reducesTo_S100_S_d0 : S100.ReducesTo [0] S_
  scatter_S1500_S50000000x1_S50000000_n_0_0_1_wf : ScatterDims.WF S1500 S50000000x1 S50000000 [] [0] [0] 1

variable [Facts₀]

def scatter_S1500_S50000000x1_S50000000_n_0_0_1 : ScatterDims S1500 S50000000x1 S50000000 where
  updateWindowDims := []
  insertedWindowDims := [0]
  scatterDimsToOperandDims := [0]
  indexVectorDim := 1
  wf := scatter_S1500_S50000000x1_S50000000_n_0_0_1_wf

class Facts : Prop extends Facts₀ where

variable [Facts]
-- ==== Proof.EceSpec.lean ====
/-
  Classwise expected calibration error by histogram binning, as ONE function of the two argument arrays.

  A row of logits is turned into class probabilities by the shifted softmax
  `p c = exp (r c - max r) / ∑ k, exp (r k - max r)`.  For every class `c` and each of the fifteen bins
  `(b/15, (b+1)/15]` three statistics are taken over the 500000 rows: how many rows have `p c` in the bin, the sum of
  those `p c`, and how many of those rows carry the label `c`.  From the three statistics of a (bin, class) pair comes
  `|conf/max(cnt,1) - acc/max(cnt,1)| · cnt/500000` (zero for an empty bin); the result is the mean over the classes of the
  sum over the bins.

  The statistics are written here in two ways.  CUMULATIVELY: `cum… b c` counts the rows with `p c ≤ (b+1)/15`, and
  `dif` takes the difference of adjacent thresholds (nothing is subtracted at the first).  BY BIN: `bin… b c` counts the
  rows whose bin word `clip (⌈15 p⌉ - 1) 0 14`, computed on 32-bit two's-complement words, is `b`.
  That the two agree when every logit is a real number is proved in another module; nothing here is a theorem.
-/
import Idealize.ShloMosaic.PureOps.Ideal
import Idealize.ShloMosaic.Lib.ValueIdx

noncomputable section

namespace Cert.Ece

open Idealize.ShloMosaic

/-- The greatest entry of a row: the fold of `max` from `-∞`. -/
def rowMax (r : Fin 100 → EReal) : EReal := (Finset.univ : Finset (Fin 100)).fold max ⊥ r

/-- The shifted softmax of a row at class `c`. -/
def soft (r : Fin 100 → EReal) (c : Fin 100) : EReal :=
  Ideal.div (Ideal.exp (r c - rowMax r)) (∑ k : Fin 100, Ideal.exp (r k - rowMax r))

/-- The upper edge of bin `b`: `(b + 1) / 15`. -/
def thr (b : Fin 15) : EReal := ((((b.val + 1 : ℕ) : ℝ) / 15 : ℝ) : EReal)

/-- `1` when `p` is at most the threshold `t`, else `0`. -/
def ind (p t : EReal) : EReal := if p ≤ t then 1 else 0

/-- `p` itself when `p` is at most the threshold `t`, else `0`. -/
def keep (p t : EReal) : EReal := if p ≤ t then p else 0

/-- `1` when the label word is the class `c`, else `0`. -/
def hit (l : BitVec 32) (c : Fin 100) : EReal := if l = BitVec.ofNat 32 c.val then 1 else 0

/-- The logits as rows, and the labels as a family over the rows. -/
def rowsOf (a : (⟨2, ![500000, 100]⟩ : Shape).Idx → EReal) : Fin 500000 → Fin 100 → EReal :=
  fun n c => a (ValueIdx.ix2 n c)
def labsOf (l : (⟨1, ![500000]⟩ : Shape).Idx → BitVec 32) : Fin 500000 → BitVec 32 :=
  fun n => l (ValueIdx.ix1 n)

section Statistics

variable (x : Fin 500000 → Fin 100 → EReal) (lab : Fin 500000 → BitVec 32)

/-! ### Cumulative over the thresholds -/

/-- How many rows have `p c ≤ (b+1)/15`. -/
def cumCnt (b : Fin 15) (c : Fin 100) : EReal := ∑ n : Fin 500000, ind (soft (x n) c) (thr b)
/-- The sum of `p c` over the rows with `p c ≤ (b+1)/15`. -/
def cumConf (b : Fin 15) (c : Fin 100) : EReal := ∑ n : Fin 500000, keep (soft (x n) c) (thr b)
/-- How many rows with `p c ≤ (b+1)/15` carry the label `c`. -/
def cumAcc (b : Fin 15) (c : Fin 100) : EReal := ∑ n : Fin 500000, ind (soft (x n) c) (thr b) * hit (lab n) c

/-! ### By bin -/

/-- The bin of a probability as the reference computes it, on 32-bit words: `⌈15 p⌉ - 1` clipped to `[0, 14]`. -/
def binWord (p : EReal) : BitVec 32 :=
  IntOp.minsi 14#32 (IntOp.maxsi 0#32
    (IntOp.subi (Ideal.fptosi 32 (Ideal.liftRound Int.ceil (p * Ideal.ofBits .f32 0x41700000#32))) 1#32))

/-- How many rows have `p c` in bin `b`. -/
def binCnt (b : Fin 15) (c : Fin 100) : EReal :=
  ∑ n : Fin 500000, if (binWord (soft (x n) c)).toInt = (b.val : ℤ) then (1 : EReal) else 0
/-- The sum of `p c` over the rows with `p c` in bin `b`. -/
def binConf (b : Fin 15) (c : Fin 100) : EReal :=
  ∑ n : Fin 500000, if (binWord (soft (x n) c)).toInt = (b.val : ℤ) then soft (x n) c else 0
/-- How many rows with `p c` in bin `b` carry the label `c`. -/
def binAcc (b : Fin 15) (c : Fin 100) : EReal :=
  ∑ n : Fin 500000, if (binWord (soft (x n) c)).toInt = (b.val : ℤ) then hit (lab n) c else 0

end Statistics

/-- The difference of a cumulative statistic at adjacent thresholds; at the first threshold nothing is subtracted. -/
def dif (f : Fin 15 → Fin 100 → EReal) (b : Fin 15) (c : Fin 100) : EReal :=
  f b c - (if h : b.val = 0 then (0 : EReal) else f ⟨b.val - 1, by omega⟩ c)

/-- One (bin, class) pair's share: `|conf / max cnt 1 - acc / max cnt 1| · (cnt / 500000)` where the bin is not empty,
    else zero.  The float literals are kept as their words: `0`, `1`, `500000`. -/
def perBin (cnt conf acc : EReal) : EReal :=
  Scalar.select (Ideal.cmp .ogt cnt (Ideal.ofBits .f32 0x00000000#32))
    (max (Ideal.div conf (max cnt (Ideal.ofBits .f32 0x3F800000#32)) - Ideal.div acc (max cnt (Ideal.ofBits .f32 0x3F800000#32)))
        (-(Ideal.div conf (max cnt (Ideal.ofBits .f32 0x3F800000#32)) - Ideal.div acc (max cnt (Ideal.ofBits .f32 0x3F800000#32))))
      * Ideal.div cnt (Ideal.ofBits .f32 0x48F42400#32))
    (Ideal.ofBits .f32 0x00000000#32)

/-- The result: the shares summed over the bins, then over the classes (each sum from the zero word), divided by `100`. -/
def ece (cnt conf acc : Fin 15 → Fin 100 → EReal) : EReal :=
  Ideal.div
    (Ideal.ofBits .f32 0x00000000#32 + ∑ c : Fin 100,
      (Ideal.ofBits .f32 0x00000000#32 + ∑ b : Fin 15, perBin (cnt b c) (conf b c) (acc b c)))
    (Ideal.ofBits .f32 0x42C80000#32)

/-! ### Row numbering, and one tile of 2000 rows

The kernel walks the rows in two halves of 125 tiles of 2000 rows; the reference flattens (row, class) pairs row-major. -/

/-- Row `r` of tile `i` of half `h`. -/
def rowIdx (h : Fin 2) (i : Fin 125) (r : Fin 2000) : Fin 500000 :=
  ⟨250000 * h.val + 2000 * i.val + r.val, by have := h.isLt; have := i.isLt; have := r.isLt; omega⟩

/-- The (row, class) pair's position in the flattened array. -/
def flatIdx (n : Fin 500000) (k : Fin 100) : Fin 50000000 :=
  ⟨100 * n.val + k.val, by have := n.isLt; have := k.isLt; omega⟩

/-- The (class, bin) pair's position among the 1500 segments. -/
def segIdx (k : Fin 100) (b : Fin 15) : Fin 1500 :=
  ⟨15 * k.val + b.val, by have := k.isLt; have := b.isLt; omega⟩

section Tile

variable (x0 : (⟨2, ![2000, 100]⟩ : Shape).Idx → EReal) (x1 : (⟨2, ![2000, 1]⟩ : Shape).Idx → BitVec 32)

/-- Row `r` of a tile. -/
def tileRow (r : Fin 2000) : Fin 100 → EReal := fun k => x0 (ValueIdx.ix2 r k)

/-- A tile's share of the three cumulative statistics. -/
def tCnt (b : Fin 15) (c : Fin 100) : EReal := ∑ r : Fin 2000, ind (soft (tileRow x0 r) c) (thr b)
def tConf (b : Fin 15) (c : Fin 100) : EReal := ∑ r : Fin 2000, keep (soft (tileRow x0 r) c) (thr b)
def tAcc (b : Fin 15) (c : Fin 100) : EReal :=
  ∑ r : Fin 2000, ind (soft (tileRow x0 r) c) (thr b) * hit (x1 (ValueIdx.ix2 r (0 : Fin 1))) c

end Tile

/-- Every logit is a real number. -/
def RealRows (x : Fin 500000 → Fin 100 → EReal) : Prop := ∀ n c, ∃ r : ℝ, x n c = (r : EReal)

end Cert.Ece

end
-- ==== Proof.TileCommon.lean ====
/-
  The values every bin's update of one grid point is made of, at the ideal values: the probability block is the
  shifted softmax of the tile's rows, the label-hit block compares the row's label with the class, the matrix of ones
  is all ones, and the fifteen thresholds the body compares against are the bins' upper edges (b+1)/15.
-/
import proofs.«403413_j11424613007597_3_alg».proof.Proof.Gen.KernelIdeal.Frame
import proofs.«403413_j11424613007597_3_alg».proof.Proof.EceSpec
import Idealize.ShloMosaic.Lib.Pipeline.Value
import Idealize.ShloMosaic.Lib.Tactic
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.EceTile

open Cert.KernelIdeal Cert.KernelIdeal.Gen Cert.Ece

open ValueIdx

/-! ### Words of the three literal constants -/

theorem ofBits_one_f32 : Ideal.ofBits .f32 0x3F800000#32 = 1 := by
  simp [Ideal.ofBits, Ideal.ieee]
  rw [← EReal.coe_mul, ← EReal.coe_one, EReal.coe_eq_coe_iff]
  norm_num

theorem ofBits_one_bf16 : Ideal.ofBits .bf16 0x3F80#16 = 1 := by
  simp [Ideal.ofBits, Ideal.ieee]
  rw [← EReal.coe_mul, ← EReal.coe_one, EReal.coe_eq_coe_iff]
  norm_num

theorem ofBits_ninf_f32 : Ideal.ofBits .f32 0xFF800000#32 = ⊥ := by
  simp [Ideal.ofBits, Ideal.ieee]

/-! ### The keepdims column: [a] → [a,1] → [a,b] -/

/-- A column [a,1] broadcast along the rows [a,b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An [a] array cast to the column [a,1] reads, at (i, u), the operand at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A per-row value kept as a column and broadcast over the classes reads, at (r, c), the row's value. -/
theorem keep_apply {α : Type} (v : S2000.Idx → α) (h1 : S2000.ShapeCasts S2000x1) (h2 : S2000x1.Broadcasts S2000x100)
    (r : Fin 2000) (c : Fin 100) :
    broadcastTo S2000x100 (shapeCast S2000x1 v h1) h2 (ix2 r c) = v (ix1 r) :=
  (broadcastTo_a1_ab_apply _ h2 r c).trans (shapeCast_a_a1_apply v h1 r 0)

/-! ### Reductions along the classes -/

/-- The index over row r with class k inserted is (r, k). -/
theorem lift_row (h : S2000x100.Reduces [1] S2000) (r : Fin 2000) (k : Fin 100) :
    h.lift (ix1 r) k = ix2 r k := by
  funext c
  match c with
  | ⟨0, _⟩ => exact Fin.ext rfl
  | ⟨1, _⟩ => exact Fin.ext rfl

theorem rowmax_apply (x0 : FVec Ideal S2000x100 .f32) (r : Fin 2000)
    (h : S2000x100.Reduces [1] S2000) (hφ : FKind.Formats .f32)
    (hacc : (0xFF800000#32 : BitVec 32) = 0xFF800000#32) :
    multiReduction .maximumf [1] S2000 x0 0xFF800000#32 h hφ hacc (ix1 r) = rowMax (tileRow x0 r) := by
  refine (Ideal.multiReduction_maximumf_single x0 _ h hφ hacc (ix1 r)).trans ?_
  unfold rowMax
  show (Finset.univ : Finset (Fin 100)).fold max (Ideal.ofBits .f32 0xFF800000#32) (x0 ∘ h.lift (ix1 r)) = _
  rw [ofBits_ninf_f32]
  have e : (x0 ∘ h.lift (ix1 r)) = tileRow x0 r := funext fun k => congrArg x0 (lift_row h r k)
  exact congrArg (fun f : Fin 100 → EReal => (Finset.univ : Finset (Fin 100)).fold max ⊥ f) e

theorem rowsum_apply (y : FVec Ideal S2000x100 .f32) (r : Fin 2000)
    (h : S2000x100.Reduces [1] S2000) (hφ : FKind.Formats .f32)
    (hacc : (0x00000000#32 : BitVec 32) = 0x00000000#32) :
    multiReduction .add [1] S2000 y 0x00000000#32 h hφ hacc (ix1 r) = ∑ k : Fin 100, y (ix2 r k) := by
  refine (Ideal.multiReduction_add_single y _ h hφ hacc (ix1 r)).trans ?_
  show ∑ k : Fin 100, y (h.lift (ix1 r) k) = _
  exact Finset.sum_congr rfl fun k _ => congrArg y (lift_row h r k)

theorem exp_apply {s : Shape} {φ : FTy} (a : FVec Ideal s φ) (i : s.Idx) : exp a i = Ideal.exp (a i) := rfl

/-- The probability block: entry (row, class) is the shifted softmax of the tile's row at the class. -/
theorem prob_apply (x0 : Vec Ideal S2000x100 .f32) (r : Fin 2000) (k : Fin 100) :
    k0_pay6 (F := Ideal) x0 (ValueIdx.ix2 r k) = soft (tileRow x0 r) k := by
  unfold k0_pay6
  have hM := rowmax_apply x0 r reduces_S2000x100_S2000 (Or.inl rfl) rfl
  simp only [divf_apply, exp_apply, subf_apply, keep_apply]
  rw [rowsum_apply _ r reduces_S2000x100_S2000 (Or.inl rfl) rfl]
  simp only [exp_apply, subf_apply, keep_apply, hM]
  rfl

/-! ### The label hit -/

/-- The 0/1 word of an equality test, as a float. -/
theorem hit_word (l w : BitVec 32) :
    ((((BitVec.ofBool (l == w)).setWidth 32).toInt : ℝ) : EReal) = if l = w then 1 else 0 := by
  by_cases hl : l = w
  · have hb : (l == w) = true := beq_iff_eq.mpr hl
    have e : ((BitVec.ofBool true).setWidth 32).toInt = 1 := by decide
    rw [hb, if_pos hl, e, Int.cast_one, EReal.coe_one]
  · have hb : (l == w) = false := beq_eq_false_iff_ne.mpr hl
    have e : ((BitVec.ofBool false).setWidth 32).toInt = 0 := by decide
    rw [hb, if_neg hl, e, Int.cast_zero, EReal.coe_zero]

/-- The label-hit block: entry (row, class) is 1 when the row's label is the class, else 0. -/
theorem corr_apply (x1 : Vec Ideal S2000x1 .i32) (r : Fin 2000) (k : Fin 100) :
    k0_pay7 (F := Ideal) x1 (ValueIdx.ix2 r k) = hit (x1 (ValueIdx.ix2 r (0 : Fin 1))) k := by
  unfold k0_pay7
  have e16 : broadcastTo S2000x100 (shapeCast S2000x1 x1 shapeCasts_S2000x1_S2000x1) broadcasts_S2000x1_S2000x100 (ix2 r k)
      = x1 (ix2 r (0 : Fin 1)) := by
    refine (broadcastTo_a1_ab_apply _ _ r k).trans ?_
    rw [shapeCast_self]
  have e15 : iota .tc S2000x100 32 [1] iota_S2000x100_d1_w32 (ix2 r k) = BitVec.ofNat 32 k.val :=
    iota_single_apply .tc S2000x100 32 1 iota_S2000x100_d1_w32 (ix2 r k)
  show ((((IntOp.cmpi .eq (broadcastTo S2000x100 (shapeCast S2000x1 x1 shapeCasts_S2000x1_S2000x1) broadcasts_S2000x1_S2000x100 (ix2 r k))
      (iota .tc S2000x100 32 [1] iota_S2000x100_d1_w32 (ix2 r k))).setWidth 32).toInt : ℝ) : EReal) = _
  rw [e16, e15]
  exact hit_word _ _

/-- The matrix of ones the row sums are taken with. -/
theorem ones_apply (a : Fin 8) (r : Fin 2000) : k0_pay8 (F := Ideal) (ValueIdx.ix2 a r) = 1 :=
  ofBits_one_bf16

/-- The fifteen thresholds as the body spells them: fourteen named constants and the word of 1.0. -/
def kthr : Fin 15 → Ideal .f32 :=
  ![Named.named κ "inv_15" 0x3D888889#32, Named.named κ "c_2_15" 0x3E088889#32, Named.named κ "inv_5" 0x3E4CCCCD#32,
    Named.named κ "c_4_15" 0x3E888889#32, Named.named κ "inv_3" 0x3EAAAAAB#32, Named.named κ "c_2_5" 0x3ECCCCCD#32,
    Named.named κ "c_7_15" 0x3EEEEEEF#32, Named.named κ "c_8_15" 0x3F088889#32, Named.named κ "c_3_5" 0x3F19999A#32,
    Named.named κ "c_2_3" 0x3F2AAAAB#32, Named.named κ "c_11_15" 0x3F3BBBBC#32, Named.named κ "c_4_5" 0x3F4CCCCD#32,
    Named.named κ "c_13_15" 0x3F5DDDDE#32, Named.named κ "c_14_15" 0x3F6EEEEF#32, Scalar.ofBits .f32 0x3F800000#32]

/-- A named constant is the fraction the table gives it. -/
theorem named_val (name : String) (w : BitVec 32) (v : ℝ) (h : κ name = some (v : EReal)) :
    Named.named (F := Ideal) κ name (φ := .f32) w = (v : EReal) :=
  IdealRules.named_const.ideal_named_scalar _ _ _ _ h

/-- A bin's upper edge as a fraction. -/
theorem thr_val (n : ℕ) (hn : n < 15) (v : ℝ) (h : ((n + 1 : ℕ) : ℝ) / 15 = v) : thr ⟨n, hn⟩ = (v : EReal) := by
  unfold thr; rw [EReal.coe_eq_coe_iff]; exact h

/-- Each is the upper edge of its bin. -/
theorem kthr_eq (b : Fin 15) : kthr b = thr b := by
  fin_cases b
  · exact (named_val "inv_15" _ (1 / 15) rfl).trans (thr_val 0 _ _ (by norm_num)).symm
  · exact (named_val "c_2_15" _ (2 / 15) rfl).trans (thr_val 1 _ _ (by norm_num)).symm
  · exact (named_val "inv_5" _ (1 / 5) rfl).trans (thr_val 2 _ _ (by norm_num)).symm
  · exact (named_val "c_4_15" _ (4 / 15) rfl).trans (thr_val 3 _ _ (by norm_num)).symm
  · exact (named_val "inv_3" _ (1 / 3) rfl).trans (thr_val 4 _ _ (by norm_num)).symm
  · exact (named_val "c_2_5" _ (2 / 5) rfl).trans (thr_val 5 _ _ (by norm_num)).symm
  · exact (named_val "c_7_15" _ (7 / 15) rfl).trans (thr_val 6 _ _ (by norm_num)).symm
  · exact (named_val "c_8_15" _ (8 / 15) rfl).trans (thr_val 7 _ _ (by norm_num)).symm
  · exact (named_val "c_3_5" _ (3 / 5) rfl).trans (thr_val 8 _ _ (by norm_num)).symm
  · exact (named_val "c_2_3" _ (2 / 3) rfl).trans (thr_val 9 _ _ (by norm_num)).symm
  · exact (named_val "c_11_15" _ (11 / 15) rfl).trans (thr_val 10 _ _ (by norm_num)).symm
  · exact (named_val "c_4_5" _ (4 / 5) rfl).trans (thr_val 11 _ _ (by norm_num)).symm
  · exact (named_val "c_13_15" _ (13 / 15) rfl).trans (thr_val 12 _ _ (by norm_num)).symm
  · exact (named_val "c_14_15" _ (14 / 15) rfl).trans (thr_val 13 _ _ (by norm_num)).symm
  · exact ofBits_one_f32.trans ((thr_val 14 _ 1 (by norm_num)).trans EReal.coe_one).symm

end Cert.KernelIdeal.EceTile

end
-- ==== Proof.KTile2.lean ====
/-
  What one grid point's body leaves in accumulator block 2 (the count of rows at or under each threshold), at the ideal values: entry (bin, class) is
  what the block held before (nothing at a half's first tile, where the block is reset) plus the tile's share.

  Every bin's row update is ONE function of the threshold (cntRow): the old row plus row 0 of the product of the matrix of ones
  with the 0/1 mask "probability at most the threshold", that is, the old entry plus the number of the tile's rows under the
  threshold. On a later tile the fifteen stored rows are the rows of one function of the block index. On a first tile the
  rows are stored one after the other over the zero block, each reading its old row through the stores before it: after n
  stores the block holds the tile's share on the rows below n and zero on the others.
-/
import proofs.«403413_j11424613007597_3_alg».proof.Proof.Gen.KernelIdeal.Frame
import proofs.«403413_j11424613007597_3_alg».proof.Proof.EceSpec
import proofs.«403413_j11424613007597_3_alg».proof.Proof.TileCommon
import Idealize.ShloMosaic.Lib.Pipeline.Value
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.EceTile

open Cert.KernelIdeal Cert.KernelIdeal.Gen Cert.Ece
open Idealize.ShloMosaic.ValueIdx

variable (c : Dev nD) (i : grid0.Coords) (a2 : Memref sig .tc .vmem S2000x100 .f32) (h2 : a2.IsWhole) (a3 : Memref sig .tc .vmem S2000x1 .i32) (h3 : a3.IsWhole) (a4 : Memref sig .tc .vmem S1x15x100 .f32) (h4 : a4.IsWhole) (a5 : Memref sig .tc .vmem S1x15x100 .f32) (h5 : a5.IsWhole) (a6 : Memref sig .tc .vmem S1x15x100 .f32) (h6 : a6.IsWhole)
  (x0 : Vec Ideal S2000x100 .f32) (x1 : Vec Ideal S2000x1 .i32)

namespace Cnt

/-- The 0/1 mask "entry at most the threshold t", as floats: the comparison's bit widened to a word and converted. -/
def maskF (t : Ideal .f32) (p : FVec Ideal S2000x100 .f32) : FVec Ideal S2000x100 .f32 :=
  sitofp .f32 (extui 32 (cmpf .ole p (broadcast S2000x100 t)) natLt_1_32)

/-- One bin's update of its row of the count block, with the threshold a parameter: the old row plus row 0 of the product of
    the given left matrix with the mask (the product accumulates into zero). -/
def cntRow (t : Ideal .f32) (p : FVec Ideal S2000x100 .f32) (w : FVec Ideal S8x2000 .bf16) (old : Vec Ideal S1x1x100 .f32) :
    FVec Ideal S1x1x100 .f32 :=
  shapeCast S1x1x100
    (addf (shapeCast S100 old shapeCasts_S1x1x100_S100)
      (shapeCast S100
        (extractStridedSlice S1x100 ![0, 0]
          (matmul dot_S8x2000_S2000x100_S8x100_1_0_0_1_n_n none w (truncf .bf16 (maskF t p) bitsLt_bf16_f32)
            (constant S8x100 .f32 0x00000000#32))
          slices_S8x100_o0_0_S1x100)
        shapeCasts_S1x100_S100))
    shapeCasts_S100_S1x1x100

/-- The mask at an entry is the indicator "entry at most the threshold". -/
theorem maskF_apply (t : Ideal .f32) (p : FVec Ideal S2000x100 .f32) (j : S2000x100.Idx) :
    maskF t p j = ind (p j) t := by
  show ((((Ideal.cmp .ole (p j) t).setWidth 32).toInt : ℝ) : EReal) = ind (p j) t
  unfold Ideal.cmp ind
  by_cases h : p j ≤ t
  · rw [if_pos h]
    show ((((BitVec.ofBool (decide (p j ≤ t))).setWidth 32).toInt : ℝ) : EReal) = 1
    rw [decide_eq_true h]
    have e : ((BitVec.ofBool true).setWidth 32).toInt = 1 := by decide
    rw [e]; simp
  · rw [if_neg h]
    show ((((BitVec.ofBool (decide (p j ≤ t))).setWidth 32).toInt : ℝ) : EReal) = 0
    rw [decide_eq_false h]
    have e : ((BitVec.ofBool false).setWidth 32).toInt = 0 := by decide
    rw [e]; simp

/-- The product's dimension numbers: rows of the left matrix against rows of the right one. -/
abbrev dotD : DotDims S8x2000 S2000x100 S8x100 := dot_S8x2000_S2000x100_S8x100_1_0_0_1_n_n

theorem lhs_ax0 (j : S8x100.Idx) (q : dotD.contr.Idx) : (dotD.lhsIdx j q 0).val = (j 0).val := rfl
theorem lhs_ax1 (j : S8x100.Idx) (q : dotD.contr.Idx) : (dotD.lhsIdx j q 1).val = (q ⟨0, by decide⟩).val := rfl
theorem rhs_ax0 (j : S8x100.Idx) (q : dotD.contr.Idx) : (dotD.rhsIdx j q 0).val = (q ⟨0, by decide⟩).val := rfl
theorem rhs_ax1 (j : S8x100.Idx) (q : dotD.contr.Idx) : (dotD.rhsIdx j q 1).val = (j 1).val := rfl

/-- The contraction index is the row number. -/
abbrev contrE : dotD.contr.Idx ≃ Fin 2000 := contrEquiv1 dotD 2000 rfl rfl

theorem lhsIdx_eq (a : Fin 8) (k : Fin 100) (r : Fin 2000) : dotD.lhsIdx (ix2 a k) (contrE.symm r) = ix2 a r := by
  funext d
  match d with
  | ⟨0, _⟩ => exact Fin.ext (lhs_ax0 _ _)
  | ⟨1, _⟩ => exact Fin.ext ((lhs_ax1 _ _).trans (contrEquiv1_symm_val dotD 2000 rfl rfl r))

theorem rhsIdx_eq (a : Fin 8) (k : Fin 100) (r : Fin 2000) : dotD.rhsIdx (ix2 a k) (contrE.symm r) = ix2 r k := by
  funext d
  match d with
  | ⟨0, _⟩ => exact Fin.ext ((rhs_ax0 _ _).trans (contrEquiv1_symm_val dotD 2000 rfl rfl r))
  | ⟨1, _⟩ => exact Fin.ext (rhs_ax1 _ _)

/-- One bin's updated row at a class: the old entry plus the number of the tile's rows whose entry is at most the threshold
    (the left matrix is all ones, so row 0 of the product is the column sums of the mask). -/
theorem cntRow_apply (t : Ideal .f32) (p : FVec Ideal S2000x100 .f32) (w : FVec Ideal S8x2000 .bf16)
    (hw : ∀ (a : Fin 8) (r : Fin 2000), w (ix2 a r) = 1) (old : Vec Ideal S1x1x100 .f32) (k : Fin 100) :
    cntRow t p w old (ix3 (0 : Fin 1) (0 : Fin 1) k)
      = old (ix3 (0 : Fin 1) (0 : Fin 1) k) + ∑ r : Fin 2000, ind (p (ix2 r k)) t := by
  unfold cntRow
  refine (shapeCast_apply _ _ (ix3 (0 : Fin 1) (0 : Fin 1) k) (ix1 k) ?_).trans ?_
  · rw [Shape.rowMajor_val_one, Shape.rowMajor_val_three]; simp
  rw [addf_apply]
  congr 1
  · refine shapeCast_apply _ _ (ix1 k) (ix3 (0 : Fin 1) (0 : Fin 1) k) ?_
    rw [Shape.rowMajor_val_one, Shape.rowMajor_val_three]; simp
  · refine (shapeCast_apply _ _ (ix1 k) (ix2 (0 : Fin 1) k) ?_).trans ?_
    · rw [Shape.rowMajor_val_one, Shape.rowMajor_val_two]; simp
    refine (extractStridedSlice_apply _ _ _ (ix2 (0 : Fin 1) k) (ix2 (0 : Fin 8) k) ?_).trans ?_
    · intro a
      match a with
      | ⟨0, _⟩ => rfl
      | ⟨1, _⟩ => show k.val = 0 + k.val; omega
    refine (Ideal.matmul_constant_zero_apply dotD none w _ (ix2 (0 : Fin 8) k)).trans ?_
    rw [← Equiv.sum_comp contrE.symm]
    refine Finset.sum_congr rfl fun r _ => ?_
    rw [lhsIdx_eq, rhsIdx_eq, hw, one_mul, truncf_apply, maskF_apply]

/-- What block 2 holds after the update, as ONE function of the block index: the old entry plus the tile's share. -/
def newCnt (x0 : Vec Ideal S2000x100 .f32) (o2 : Vec Ideal S1x15x100 .f32) : S1x15x100.Idx → Ideal .f32 :=
  fun y => o2 y + tCnt x0 (y 1) (y 2)

/-- Row b of the block, entry k, sits at block index (0, b, k). -/
theorem emb_row (b : Fin 15) (inb : ∀ a, (![0, b.val, 0] : Fin 3 → Nat) a + S1x1x100.size a ≤ S1x15x100.size a) (k : Fin 100) :
    (Rect.unit (s := S1x15x100) ![0, b.val, 0] S1x1x100.size inb).emb (ix3 (0 : Fin 1) (0 : Fin 1) k) = ix3 (0 : Fin 1) b k := by
  funext a
  match a with
  | ⟨0, _⟩ => exact Fin.ext rfl
  | ⟨1, _⟩ => exact Fin.ext (by show b.val + 1 * 0 = b.val; omega)
  | ⟨2, _⟩ => exact Fin.ext (by show 0 + 1 * k.val = k.val; omega)

/-- The row stored for bin b (its payload with the threshold of bin b, the old row loaded from the block) is the new
    block's row b. -/
theorem piece_val (x0 : Vec Ideal S2000x100 .f32) (o2 : Vec Ideal S1x15x100 .f32)
    (a4 : Memref sig .tc .vmem S1x15x100 .f32) (h4 : a4.IsWhole)
    (b : Fin 15) (off : Fin 3 → Nat) (hoff : off = ![0, b.val, 0])
    (inb : ∀ a, off a + S1x1x100.size a ≤ S1x15x100.size a)
    (x : (Rect.unit (s := S1x15x100) off S1x1x100.size inb).shape.Idx) :
    cntRow (kthr b) (k0_pay6 (F := Ideal) x0) (k0_pay8 (F := Ideal))
        (View.readAt (Elt Ideal) a4.view (Rect.unit (s := S1x15x100) off S1x1x100.size inb).toLoadRect (h4.unread o2)) x
      = newCnt x0 o2 ((Rect.unit (s := S1x15x100) off S1x1x100.size inb).emb x) := by
  subst hoff
  obtain ⟨z, z', k, rfl⟩ : ∃ (z : Fin 1) (z' : Fin 1) (k : Fin 100), x = ix3 z z' k := ⟨x 0, x 1, x 2, eq_ix3 x⟩
  obtain rfl : z = 0 := Subsingleton.elim _ _
  obtain rfl : z' = 0 := Subsingleton.elim _ _
  refine (cntRow_apply _ _ _ ones_apply _ k).trans ?_
  rw [View.readAt_eq_ld, h4.read_unread]
  show o2 ((Rect.unit (s := S1x15x100) ![0, b.val, 0] S1x1x100.size inb).emb (ix3 (0 : Fin 1) (0 : Fin 1) k)) + _ = _
  rw [emb_row]
  show _ = o2 (ix3 (0 : Fin 1) b k) + tCnt x0 b k
  unfold tCnt
  congr 1
  refine Finset.sum_congr rfl fun r _ => ?_
  rw [prob_apply, kthr_eq]

/-- The block after rows 0 … n-1 were updated from the zero block: the tile's share on the rows below n, zero on the others. -/
def part (x0 : Vec Ideal S2000x100 .f32) (n : ℕ) : S1x15x100.Idx → Ideal .f32 :=
  fun y => if (y 1).val < n then tCnt x0 (y 1) (y 2) else 0

/-- One more row store: over a block that holds part n, storing row n (its payload reads the old row through
    the stores before it) leaves part (n+1). -/
theorem canon_step (x0 : Vec Ideal S2000x100 .f32) (a4 : Memref sig .tc .vmem S1x15x100 .f32)
    (n : Fin 15) (L : List (View.Piece (Elt Ideal) S1x15x100 .f32)) (hL : View.canon L = part x0 n.val)
    (off : Fin 3 → Nat) (hoff : off = ![0, n.val, 0]) (inb : ∀ a, off a + S1x1x100.size a ≤ S1x15x100.size a)
    (p : FVec Ideal S2000x100 .f32) (hp : p = k0_pay6 (F := Ideal) x0) :
    View.canon ((⟨Rect.unit (s := S1x15x100) off S1x1x100.size inb,
        cntRow (kthr n) p (k0_pay8 (F := Ideal))
          (a4.view.readCov L (Rect.unit (s := S1x15x100) off S1x1x100.size inb).toLoadRect)⟩ :
          View.Piece (Elt Ideal) S1x15x100 .f32) :: L)
      = part x0 (n.val + 1) := by
  subst hoff hp
  funext y
  obtain ⟨z, b, k, rfl⟩ : ∃ (z : Fin 1) (b : Fin 15) (k : Fin 100), y = ix3 z b k := ⟨y 0, y 1, y 2, eq_ix3 y⟩
  obtain rfl : z = 0 := Subsingleton.elim _ _
  by_cases hb : b = n
  · subst hb
    rw [← emb_row b inb k, View.canon_cons_emb]
    refine (cntRow_apply _ _ _ ones_apply _ k).trans ?_
    rw [View.readCov_eq_canon', hL]
    show part x0 b.val ((Rect.unit (s := S1x15x100) ![0, b.val, 0] S1x1x100.size inb).emb (ix3 (0 : Fin 1) (0 : Fin 1) k)) + _ = _
    rw [emb_row]
    show (if b.val < b.val then tCnt x0 b k else 0) + _ = if b.val < b.val + 1 then tCnt x0 b k else 0
    rw [if_neg (lt_irrefl _), if_pos (Nat.lt_succ_self _), zero_add]
    unfold tCnt
    refine Finset.sum_congr rfl fun r _ => ?_
    rw [prob_apply, kthr_eq]
  · have hm : ix3 (0 : Fin 1) b k ∉ (Rect.unit (s := S1x15x100) ![0, n.val, 0] S1x1x100.size inb).set := by
      rw [Rect.mem_set_unit]
      intro h
      have h1 : n.val ≤ b.val ∧ b.val < n.val + 1 := h 1
      exact hb (Fin.ext (by omega))
    refine (View.canon_cons_of_not_mem (⟨Rect.unit (s := S1x15x100) ![0, n.val, 0] S1x1x100.size inb, _⟩ :
      View.Piece (Elt Ideal) S1x15x100 .f32) L hm).trans ?_
    rw [hL]
    show (if b.val < n.val then tCnt x0 b k else 0) = if b.val < n.val + 1 then tCnt x0 b k else 0
    have hne : b.val ≠ n.val := fun h => hb (Fin.ext h)
    by_cases hlt : b.val < n.val
    · rw [if_pos hlt, if_pos (by omega)]
    · rw [if_neg hlt, if_neg (by omega)]

theorem hz2 : (![0, 0] : Fin 2 → Nat) = fun _ => 0 := funext fun a => by fin_cases a <;> rfl
theorem hz3 : (![0, 0, 0] : Fin 3 → Nat) = fun _ => 0 := funext fun a => by fin_cases a <;> rfl

/-- The tile as the body loads it (through the whole staging buffer) is the tile. -/
theorem load_tile (a2 : Memref sig .tc .vmem S2000x100 .f32) (h2 : a2.IsWhole) (x0 : Vec Ideal S2000x100 .f32) :
    View.readAt (Elt Ideal) a2.view (Rect.unit ![0, 0] S2000x100.size inb_S2000x100_S2000x100_0_0).toLoadRect (h2.unread x0) = x0 := by
  rw [View.readAt_eq_ld, h2.read_unread, View.ld_unit_zero hz2]

/-- The reset block is zero everywhere. -/
theorem zero_apply (y : S1x15x100.Idx) : k0_pay3 (F := Ideal) y = 0 := by
  show Ideal.ofBits .f32 0x00000000#32 = 0
  exact Ideal.ofBits_zero_f32

/-- The probability block as a first tile's body computes it from the loaded tile is the probability block of the tile. -/
theorem run_prob : kernelRun0_A.sl.r (F := Ideal) c a2 h2 x0 = k0_pay6 (F := Ideal) x0 :=
  congrArg (k0_pay6 (F := Ideal)) (load_tile a2 h2 x0)

/-- After the reset the block holds zero: part 0. -/
theorem inv1 : View.canon (kernelRun0_A.sl.H2_1 (F := Ideal)) = part x0 0 := by
  unfold kernelRun0_A.sl.H2_1
  rw [View.canon_unit_zero hz3]
  funext y
  rw [zero_apply]
  show (0 : EReal) = if (y 1).val < 0 then tCnt x0 (y 1) (y 2) else 0
  rw [if_neg (Nat.not_lt_zero _)]

/-- The row stores in order, each over what the stores before it left: after the store of row b the block holds part (b+1). -/
theorem inv2 : View.canon (kernelRun0_A.sl.H2_2 (F := Ideal) c a2 h2 a4 x0) = part x0 1 :=
  canon_step x0 a4 (0 : Fin 15) _ (inv1 x0) _ rfl _ _ (congrArg (k0_pay6 (F := Ideal)) (load_tile a2 h2 x0))
theorem inv3 : View.canon (kernelRun0_A.sl.H2_3 (F := Ideal) c a2 h2 a4 x0) = part x0 2 :=
  canon_step x0 a4 (1 : Fin 15) _ (inv2 c a2 h2 a4 x0) _ rfl _ _ (run_prob c a2 h2 x0)
theorem inv4 : View.canon (kernelRun0_A.sl.H2_4 (F := Ideal) c a2 h2 a4 x0) = part x0 3 :=
  canon_step x0 a4 (2 : Fin 15) _ (inv3 c a2 h2 a4 x0) _ rfl _ _ (run_prob c a2 h2 x0)
theorem inv5 : View.canon (kernelRun0_A.sl.H2_5 (F := Ideal) c a2 h2 a4 x0) = part x0 4 :=
  canon_step x0 a4 (3 : Fin 15) _ (inv4 c a2 h2 a4 x0) _ rfl _ _ (run_prob c a2 h2 x0)
theorem inv6 : View.canon (kernelRun0_A.sl.H2_6 (F := Ideal) c a2 h2 a4 x0) = part x0 5 :=
  canon_step x0 a4 (4 : Fin 15) _ (inv5 c a2 h2 a4 x0) _ rfl _ _ (run_prob c a2 h2 x0)
theorem inv7 : View.canon (kernelRun0_A.sl.H2_7 (F := Ideal) c a2 h2 a4 x0) = part x0 6 :=
  canon_step x0 a4 (5 : Fin 15) _ (inv6 c a2 h2 a4 x0) _ rfl _ _ (run_prob c a2 h2 x0)
theorem inv8 : View.canon (kernelRun0_A.sl.H2_8 (F := Ideal) c a2 h2 a4 x0) = part x0 7 :=
  canon_step x0 a4 (6 : Fin 15) _ (inv7 c a2 h2 a4 x0) _ rfl _ _ (run_prob c a2 h2 x0)
theorem inv9 : View.canon (kernelRun0_A.sl.H2_9 (F := Ideal) c a2 h2 a4 x0) = part x0 8 :=
  canon_step x0 a4 (7 : Fin 15) _ (inv8 c a2 h2 a4 x0) _ rfl _ _ (run_prob c a2 h2 x0)
theorem inv10 : View.canon (kernelRun0_A.sl.H2_10 (F := Ideal) c a2 h2 a4 x0) = part x0 9 :=
  canon_step x0 a4 (8 : Fin 15) _ (inv9 c a2 h2 a4 x0) _ rfl _ _ (run_prob c a2 h2 x0)
theorem inv11 : View.canon (kernelRun0_A.sl.H2_11 (F := Ideal) c a2 h2 a4 x0) = part x0 10 :=
  canon_step x0 a4 (9 : Fin 15) _ (inv10 c a2 h2 a4 x0) _ rfl _ _ (run_prob c a2 h2 x0)
theorem inv12 : View.canon (kernelRun0_A.sl.H2_12 (F := Ideal) c a2 h2 a4 x0) = part x0 11 :=
  canon_step x0 a4 (10 : Fin 15) _ (inv11 c a2 h2 a4 x0) _ rfl _ _ (run_prob c a2 h2 x0)
theorem inv13 : View.canon (kernelRun0_A.sl.H2_13 (F := Ideal) c a2 h2 a4 x0) = part x0 12 :=
  canon_step x0 a4 (11 : Fin 15) _ (inv12 c a2 h2 a4 x0) _ rfl _ _ (run_prob c a2 h2 x0)
theorem inv14 : View.canon (kernelRun0_A.sl.H2_14 (F := Ideal) c a2 h2 a4 x0) = part x0 13 :=
  canon_step x0 a4 (12 : Fin 15) _ (inv13 c a2 h2 a4 x0) _ rfl _ _ (run_prob c a2 h2 x0)
theorem inv15 : View.canon (kernelRun0_A.sl.H2_15 (F := Ideal) c a2 h2 a4 x0) = part x0 14 :=
  canon_step x0 a4 (13 : Fin 15) _ (inv14 c a2 h2 a4 x0) _ rfl _ _ (run_prob c a2 h2 x0)

end Cnt

open Cnt

/-- A later tile of a half: block 2 gains the tile's share. -/
theorem out_B_2 (hc : ¬cond0_0 i) (o2 o3 o4 : Vec Ideal S1x15x100 .f32) (b : Fin 15) (k : Fin 100) :
    out0_B_2 (F := Ideal) c i a2 h2 a3 h3 a4 h4 a5 h5 a6 h6 hc x0 x1 o2 o3 o4 (ValueIdx.ix3 (0 : Fin 1) b k)
      = o2 (ValueIdx.ix3 (0 : Fin 1) b k) + tCnt x0 b k := by
  unfold out0_B_2
  rw [View.read_writes_eq_canon _ _ _ (cover0_B_2 c i a2 h2 a3 h3 a4 h4 a5 h5 a6 h6 hc x0 x1 o2 o3 o4)]
  -- every stored row is a row of ONE function of the block index, the old entry plus the tile's share
  refine (View.canon_apply_of_pieces (newCnt x0 o2) _ ?_ (ix3 (0 : Fin 1) b k)
    (cover0_B_2 c i a2 h2 a3 h3 a4 h4 a5 h5 a6 h6 hc x0 x1 o2 o3 o4 _)).trans rfl
  unfold kernelRun0_B
  dsimp only
  sl_unfold_words
  rw [load_tile a2 h2 x0]
  simp only [List.mem_cons, List.mem_nil_iff, or_false, forall_eq_or_imp, forall_eq]
  exact ⟨
    fun x => piece_val x0 o2 a4 h4 (14 : Fin 15) _ rfl _ x,
    fun x => piece_val x0 o2 a4 h4 (13 : Fin 15) _ rfl _ x,
    fun x => piece_val x0 o2 a4 h4 (12 : Fin 15) _ rfl _ x,
    fun x => piece_val x0 o2 a4 h4 (11 : Fin 15) _ rfl _ x,
    fun x => piece_val x0 o2 a4 h4 (10 : Fin 15) _ rfl _ x,
    fun x => piece_val x0 o2 a4 h4 (9 : Fin 15) _ rfl _ x,
    fun x => piece_val x0 o2 a4 h4 (8 : Fin 15) _ rfl _ x,
    fun x => piece_val x0 o2 a4 h4 (7 : Fin 15) _ rfl _ x,
    fun x => piece_val x0 o2 a4 h4 (6 : Fin 15) _ rfl _ x,
    fun x => piece_val x0 o2 a4 h4 (5 : Fin 15) _ rfl _ x,
    fun x => piece_val x0 o2 a4 h4 (4 : Fin 15) _ rfl _ x,
    fun x => piece_val x0 o2 a4 h4 (3 : Fin 15) _ rfl _ x,
    fun x => piece_val x0 o2 a4 h4 (2 : Fin 15) _ rfl _ x,
    fun x => piece_val x0 o2 a4 h4 (1 : Fin 15) _ rfl _ x,
    fun x => piece_val x0 o2 a4 h4 (0 : Fin 15) _ rfl _ x⟩

/-- The first tile of a half: block 2 is reset, then gains the tile's share. -/
theorem out_A_2 (hc : cond0_0 i) (b : Fin 15) (k : Fin 100) :
    out0_A_2 (F := Ideal) c i a2 h2 a3 h3 a4 h4 a5 h5 a6 h6 hc x0 x1 (ValueIdx.ix3 (0 : Fin 1) b k) = tCnt x0 b k := by
  unfold out0_A_2
  rw [View.read_writes_eq_canon _ _ _ (cover0_A_2 c i a2 h2 a3 h3 a4 h4 a5 h5 a6 h6 hc x0 x1)]
  unfold kernelRun0_A
  dsimp only
  refine (congrFun (canon_step x0 a4 (14 : Fin 15) _ (inv15 c a2 h2 a4 x0) _ rfl _ _ (run_prob c a2 h2 x0)) (ix3 (0 : Fin 1) b k)).trans ?_
  show (if b.val < 15 then tCnt x0 b k else 0) = tCnt x0 b k
  rw [if_pos b.isLt]

end Cert.KernelIdeal.EceTile

end
-- ==== Proof.KTile3.lean ====
/-
  What one grid point's body leaves in accumulator block 3 (the sum of the probabilities at or under each threshold), at the ideal values: entry (bin, class) is
  what the block held before (nothing at a half's first tile, where the block is reset) plus the tile's share.
-/
import proofs.«403413_j11424613007597_3_alg».proof.Proof.Gen.KernelIdeal.Frame
import proofs.«403413_j11424613007597_3_alg».proof.Proof.EceSpec
import proofs.«403413_j11424613007597_3_alg».proof.Proof.TileCommon
import Idealize.ShloMosaic.Lib.Pipeline.Value
import Idealize.ShloMosaic.Lib.Tactic
import Idealize.ShloMosaic.Lib.WholeRead
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.EceTile

open Cert.KernelIdeal Cert.KernelIdeal.Gen Cert.Ece
open Idealize.ShloMosaic.ValueIdx

namespace T3

/-! ### One row's update, read at a class

Every bin's update of block 3 is the same term: the probabilities are kept where the mask is set and replaced by zero
elsewhere, the columns of that are summed over the tile's 2000 rows, and the sums are added to the block's row. Only the
mask differs from bin to bin, and the mask is the comparison of the probabilities with the bin's threshold. -/

/-- The mask of the entries at or under a threshold. -/
def gmask (t : Ideal .f32) (p : FVec Ideal S2000x100 .f32) : IVec S2000x100 1 :=
  cmpf .ole p (broadcast S2000x100 t)

/-- Selecting `p` where `p ≤ t` and the zero word elsewhere keeps `p` at or under the threshold. -/
theorem keep_of_select (p t : EReal) :
    Scalar.select (FloatOps.cmpf (F := Ideal) (φ := .f32) .ole p t) p (Ideal.ofBits .f32 0x00000000#32) = keep p t := by
  unfold keep
  rw [Ideal.cmpf_def, Ideal.ofBits_zero_f32]
  by_cases h : p ≤ t
  · simp [Scalar.select, Ideal.cmp, h]
  · simp [Scalar.select, Ideal.cmp, h]

/-- The index a reduction over the rows inserts: row `r` at class `k`. -/
theorem lift_col (k : Fin 100) (r : Fin 2000) : reduces_S2000x100_S100.lift (ix1 k) r = ix2 r k := by
  funext a
  apply Fin.ext
  match a with
  | ⟨0, _⟩ => rfl
  | ⟨1, _⟩ => rfl

/-- A row's update at class `k`: the old entry plus the sum over the tile's rows of the probabilities kept. -/
theorem conf_row (p : FVec Ideal S2000x100 .f32) (t : Ideal .f32) (old : Vec Ideal S1x1x100 .f32) (k : Fin 100) :
    k0_pay14 (F := Ideal) p (gmask t p) old (ix3 (0 : Fin 1) (0 : Fin 1) k)
      = old (ix3 (0 : Fin 1) (0 : Fin 1) k) + ∑ r : Fin 2000, keep (p (ix2 r k)) t := by
  unfold k0_pay14
  refine (shapeCast_apply _ _ (ix3 (0 : Fin 1) (0 : Fin 1) k) (ix1 k) ?_).trans ?_
  · rw [Shape.rowMajor_val_one, Shape.rowMajor_val_three]
    show k.val = ((0 : ℕ) * 1 + 0) * 100 + k.val
    omega
  · rw [addf_apply]
    refine congrArg₂ (· + ·) (shapeCast_apply _ _ (ix1 k) (ix3 (0 : Fin 1) (0 : Fin 1) k) ?_) ?_
    · rw [Shape.rowMajor_val_one, Shape.rowMajor_val_three]
      show ((0 : ℕ) * 1 + 0) * 100 + k.val = k.val
      omega
    · refine (Ideal.multiReduction_add_single _ _ reduces_S2000x100_S100 _ _ (ix1 k)).trans ?_
      refine Finset.sum_congr rfl (fun (r : Fin 2000) _ => ?_)
      refine (congrArg (select (gmask t p) p (broadcast S2000x100 (FloatOps.ofBits .f32 0x00000000#32))) (lift_col k r)).trans ?_
      exact keep_of_select _ _

/-! ### Rows of the block -/

/-- Row `b`'s rectangle places class `k` of the row at (0, b, k) of the block. -/
theorem idx_row (b : Fin 15) (inb : ∀ a, (![0, b.val, 0] : Fin 3 → ℕ) a + S1x1x100.size a ≤ S1x15x100.size a) (k : Fin 100) :
    (Rect.unit (s := S1x15x100) ![0, b.val, 0] S1x1x100.size inb).toLoadRect.idx (ix3 (0 : Fin 1) (0 : Fin 1) k)
      = ix3 (0 : Fin 1) b k := by
  funext a
  apply Fin.ext
  match a with
  | ⟨0, _⟩ => show 0 + 1 * 0 = 0; rfl
  | ⟨1, _⟩ => show b.val + 1 * 0 = b.val; omega
  | ⟨2, _⟩ => show 0 + 1 * k.val = k.val; omega

variable (c : Dev nD) (i : grid0.Coords) (a2 : Memref sig .tc .vmem S2000x100 .f32) (h2 : a2.IsWhole) (a3 : Memref sig .tc .vmem S2000x1 .i32) (h3 : a3.IsWhole) (a4 : Memref sig .tc .vmem S1x15x100 .f32) (h4 : a4.IsWhole) (a5 : Memref sig .tc .vmem S1x15x100 .f32) (h5 : a5.IsWhole) (a6 : Memref sig .tc .vmem S1x15x100 .f32) (h6 : a6.IsWhole)
  (x0 : Vec Ideal S2000x100 .f32) (x1 : Vec Ideal S2000x1 .i32)

/-- What block 3 holds after a later tile, as one function of the block index. -/
def confAfter (o3 : Vec Ideal S1x15x100 .f32) : S1x15x100.Idx → Ideal .f32 :=
  fun y => o3 y + tConf x0 (y 1) (y 2)

/-- The tile's share of the sum of probabilities, from the probability block. -/
theorem share_eq (b : Fin 15) (k : Fin 100) :
    ∑ r : Fin 2000, keep (k0_pay6 (F := Ideal) x0 (ix2 r k)) (kthr b) = tConf x0 b k := by
  unfold tConf
  refine Finset.sum_congr rfl (fun r _ => ?_)
  rw [prob_apply, kthr_eq]

/-- Row `b`'s store, whatever names the body gives its mask: at each class it holds the old entry plus the share. -/
theorem piece_B (o3 : Vec Ideal S1x15x100 .f32) (b : Fin 15)
    (inb : ∀ a, (![0, b.val, 0] : Fin 3 → ℕ) a + S1x1x100.size a ≤ S1x15x100.size a)
    (m : IVec S2000x100 1) (hm : m = gmask (kthr b) (k0_pay6 (F := Ideal) x0)) (x : S1x1x100.Idx) :
    k0_pay14 (F := Ideal) (k0_pay6 x0) m
        (View.readAt (Elt Ideal) a5.view (Rect.unit (s := S1x15x100) ![0, b.val, 0] S1x1x100.size inb).toLoadRect (h5.unread o3)) x
      = confAfter x0 o3 ((Rect.unit (s := S1x15x100) ![0, b.val, 0] ![1, 1, 100] inb).emb x) := by
  subst hm
  obtain ⟨p, q, k, rfl⟩ : ∃ (p q : Fin 1) (k : Fin 100), x = ix3 p q k := ⟨x 0, x 1, x 2, eq_ix3 x⟩
  obtain rfl : p = 0 := Subsingleton.elim _ _
  obtain rfl : q = 0 := Subsingleton.elim _ _
  refine (conf_row _ _ _ _).trans ?_
  rw [h5.readAt_unread o3, share_eq]
  show _ = confAfter x0 o3 ((Rect.unit (s := S1x15x100) ![0, b.val, 0] S1x1x100.size inb).toLoadRect.idx (ix3 (0 : Fin 1) (0 : Fin 1) k))
  rw [idx_row b inb k]
  rfl

/-- The tile as the body loads it: the whole staging block. -/
theorem tile_read :
    View.readAt (Elt Ideal) a2.view (Rect.unit (s := S2000x100) ![0, 0] S2000x100.size inb_S2000x100_S2000x100_0_0).toLoadRect (h2.unread x0) = x0 := by
  rw [View.readAt_eq_ld, h2.read_unread, View.ld_unit_zero (by funext a; match a with | ⟨0, _⟩ => rfl | ⟨1, _⟩ => rfl)]

/-! ### The first tile of a half: the block is reset, then the rows are updated one after another

Row `j`'s update reads the row back through everything stored before it: the reset and the updates of the rows under `j`.
So the block is followed store by store: after the rows under `n` it holds the share on those rows and zero elsewhere. -/

/-- The block after the reset and the updates of the rows under `n`. -/
def confUpTo (n : ℕ) : S1x15x100.Idx → Ideal .f32 :=
  fun y => if (y 1).val < n then tConf x0 (y 1) (y 2) else 0

/-- The reset leaves zero everywhere. -/
theorem canon_reset (y : S1x15x100.Idx) :
    View.canon [(⟨Rect.unit (s := S1x15x100) ![0, 0, 0] S1x15x100.size inb_S1x15x100_S1x15x100_0_0_0, k0_pay4 (F := Ideal)⟩ :
      View.Piece (Elt Ideal) S1x15x100 .f32)] y = confUpTo x0 0 y := by
  rw [View.canon_unit_zero (by funext a; match a with | ⟨0, _⟩ => rfl | ⟨1, _⟩ => rfl | ⟨2, _⟩ => rfl)]
  unfold confUpTo
  rw [if_neg (Nat.not_lt_zero _)]
  exact Ideal.ofBits_zero_f32

/-- One more row: the store of row `j` over a block that holds the rows under `j` leaves the rows under `j + 1`. -/
theorem canon_step (L : List (View.Piece (Elt Ideal) S1x15x100 .f32)) (j : Fin 15)
    (inb : ∀ a, (![0, j.val, 0] : Fin 3 → ℕ) a + S1x1x100.size a ≤ S1x15x100.size a)
    (P : FVec Ideal S2000x100 .f32) (hP : P = k0_pay6 (F := Ideal) x0)
    (m : IVec S2000x100 1) (hm : m = gmask (kthr j) P)
    (hL : ∀ y, View.canon L y = confUpTo x0 j.val y) (y : S1x15x100.Idx) :
    View.canon ((⟨Rect.unit (s := S1x15x100) ![0, j.val, 0] S1x1x100.size inb,
        k0_pay14 (F := Ideal) P m (a5.view.readCov L (Rect.unit (s := S1x15x100) ![0, j.val, 0] ![1, 1, 100] inb).toLoadRect)⟩ :
          View.Piece (Elt Ideal) S1x15x100 .f32) :: L) y
      = confUpTo x0 (j.val + 1) y := by
  subst hP hm
  obtain ⟨p, q, k, rfl⟩ : ∃ (p : Fin 1) (q : Fin 15) (k : Fin 100), y = ix3 p q k := ⟨y 0, y 1, y 2, eq_ix3 y⟩
  obtain rfl : p = 0 := Subsingleton.elim _ _
  by_cases hq : q = j
  · subst hq
    have e := idx_row q inb k
    rw [← e]
    refine (View.canon_cons_emb (Rect.unit (s := S1x15x100) ![0, q.val, 0] S1x1x100.size inb) _ L (ix3 (0 : Fin 1) (0 : Fin 1) k)).trans ?_
    refine (conf_row _ _ _ _).trans ?_
    rw [View.readCov_eq_canon', share_eq]
    show View.canon L ((Rect.unit (s := S1x15x100) ![0, q.val, 0] S1x1x100.size inb).toLoadRect.idx (ix3 (0 : Fin 1) (0 : Fin 1) k)) + tConf x0 q k = _
    rw [e, hL]
    unfold confUpTo
    rw [if_neg (Nat.lt_irrefl _), if_pos (Nat.lt_succ_self _), zero_add]
  · rw [View.canon_cons_of_not_mem _ _ (by
      rw [Rect.mem_set_unit]
      intro h
      have h1 := h 1
      exact hq (Fin.ext (by
        have h1a : j.val ≤ q.val := h1.1
        have h1b : q.val < j.val + 1 := h1.2
        omega))), hL]
    unfold confUpTo
    have hne : q.val ≠ j.val := fun h => hq (Fin.ext h)
    show (if q.val < j.val then _ else _) = (if q.val < j.val + 1 then _ else _)
    by_cases hlt : q.val < j.val
    · rw [if_pos hlt, if_pos (Nat.lt_succ_of_lt hlt)]
    · rw [if_neg hlt, if_neg (by omega)]

/-- The probability block as the first tile's run names it. -/
theorem run_prob : kernelRun0_A.sl.r (F := Ideal) c a2 h2 x0 = k0_pay6 (F := Ideal) x0 := by
  unfold kernelRun0_A.sl.r
  rw [tile_read a2 h2 x0]

end T3

open T3

variable (c : Dev nD) (i : grid0.Coords) (a2 : Memref sig .tc .vmem S2000x100 .f32) (h2 : a2.IsWhole) (a3 : Memref sig .tc .vmem S2000x1 .i32) (h3 : a3.IsWhole) (a4 : Memref sig .tc .vmem S1x15x100 .f32) (h4 : a4.IsWhole) (a5 : Memref sig .tc .vmem S1x15x100 .f32) (h5 : a5.IsWhole) (a6 : Memref sig .tc .vmem S1x15x100 .f32) (h6 : a6.IsWhole)
  (x0 : Vec Ideal S2000x100 .f32) (x1 : Vec Ideal S2000x1 .i32)

/-- A later tile of a half: block 3 gains the tile's share. -/
theorem out_B_3 (hc : ¬cond0_0 i) (o2 o3 o4 : Vec Ideal S1x15x100 .f32) (b : Fin 15) (k : Fin 100) :
    out0_B_3 (F := Ideal) c i a2 h2 a3 h3 a4 h4 a5 h5 a6 h6 hc x0 x1 o2 o3 o4 (ValueIdx.ix3 (0 : Fin 1) b k)
      = o3 (ValueIdx.ix3 (0 : Fin 1) b k) + tConf x0 b k := by
  unfold out0_B_3
  rw [View.read_writes_eq_canon _ _ _ (cover0_B_3 c i a2 h2 a3 h3 a4 h4 a5 h5 a6 h6 hc x0 x1 o2 o3 o4)]
  refine View.canon_apply_of_pieces (confAfter x0 o3) _ ?_ _ (cover0_B_3 c i a2 h2 a3 h3 a4 h4 a5 h5 a6 h6 hc x0 x1 o2 o3 o4 _)
  unfold kernelRun0_B
  dsimp only
  sl_unfold_words
  rw [tile_read a2 h2 x0]
  simp only [List.mem_cons, List.not_mem_nil, or_false, forall_eq_or_imp, forall_eq]
  exact ⟨fun x => piece_B a5 h5 x0 o3 14 _ _ rfl x,
    fun x => piece_B a5 h5 x0 o3 13 _ _ rfl x,
    fun x => piece_B a5 h5 x0 o3 12 _ _ rfl x,
    fun x => piece_B a5 h5 x0 o3 11 _ _ rfl x,
    fun x => piece_B a5 h5 x0 o3 10 _ _ rfl x,
    fun x => piece_B a5 h5 x0 o3 9 _ _ rfl x,
    fun x => piece_B a5 h5 x0 o3 8 _ _ rfl x,
    fun x => piece_B a5 h5 x0 o3 7 _ _ rfl x,
    fun x => piece_B a5 h5 x0 o3 6 _ _ rfl x,
    fun x => piece_B a5 h5 x0 o3 5 _ _ rfl x,
    fun x => piece_B a5 h5 x0 o3 4 _ _ rfl x,
    fun x => piece_B a5 h5 x0 o3 3 _ _ rfl x,
    fun x => piece_B a5 h5 x0 o3 2 _ _ rfl x,
    fun x => piece_B a5 h5 x0 o3 1 _ _ rfl x,
    fun x => piece_B a5 h5 x0 o3 0 _ _ rfl x⟩

/-- The first tile of a half: block 3 is reset, then gains the tile's share. -/
theorem out_A_3 (hc : cond0_0 i) (b : Fin 15) (k : Fin 100) :
    out0_A_3 (F := Ideal) c i a2 h2 a3 h3 a4 h4 a5 h5 a6 h6 hc x0 x1 (ValueIdx.ix3 (0 : Fin 1) b k) = tConf x0 b k := by
  unfold out0_A_3
  rw [View.read_writes_eq_canon _ _ _ (cover0_A_3 c i a2 h2 a3 h3 a4 h4 a5 h5 a6 h6 hc x0 x1)]
  unfold kernelRun0_A
  dsimp only
  have hr := run_prob c a2 h2 x0
  refine (canon_step a5 x0 _ 14 _ _ hr _ rfl ?_ _).trans ?_
  swap
  · unfold confUpTo
    exact if_pos b.isLt
  refine canon_step a5 x0 _ 13 _ _ hr _ rfl ?_
  refine canon_step a5 x0 _ 12 _ _ hr _ rfl ?_
  refine canon_step a5 x0 _ 11 _ _ hr _ rfl ?_
  refine canon_step a5 x0 _ 10 _ _ hr _ rfl ?_
  refine canon_step a5 x0 _ 9 _ _ hr _ rfl ?_
  refine canon_step a5 x0 _ 8 _ _ hr _ rfl ?_
  refine canon_step a5 x0 _ 7 _ _ hr _ rfl ?_
  refine canon_step a5 x0 _ 6 _ _ hr _ rfl ?_
  refine canon_step a5 x0 _ 5 _ _ hr _ rfl ?_
  refine canon_step a5 x0 _ 4 _ _ hr _ rfl ?_
  refine canon_step a5 x0 _ 3 _ _ hr _ rfl ?_
  refine canon_step a5 x0 _ 2 _ _ hr _ rfl ?_
  refine canon_step a5 x0 _ 1 _ _ hr _ rfl ?_
  refine canon_step a5 x0 _ 0 _ _ hr _ rfl ?_
  exact canon_reset x0

end Cert.KernelIdeal.EceTile

end
-- ==== Proof.KTile4Defs.lean ====
/-
  The pieces one grid point's update of accumulator block 4 (per bin and class, the count of rows at or under the bin's
  upper edge whose label is the class) is made of, at the ideal values.

  Row b of the block receives its old value plus row 0 of a product of a matrix of ones with mask times hit, the mask
  being "probability at most t" for the bin's threshold t.  Here that update is ONE function of t (`rowAdd` of
  `hitSums t`), read at an index: the product's entry (0, class) is the sum over the tile's 2000 rows of
  `ind p t * hit`, so with the tile's probabilities, label hits and bin b's threshold it is the tile's share `tAcc`.
  Two ways a row store meets the block: at a later tile the old row is row b of the block as it stood (`piece_B`);
  at a half's first tile the old row is loaded from what the reset and the earlier row stores left, where it is still
  zero — storing row j turns "rows below j hold the share, the others zero" into the same for j + 1 (`inv_step`).
-/
import proofs.«403413_j11424613007597_3_alg».proof.Proof.Gen.KernelIdeal.Frame
import proofs.«403413_j11424613007597_3_alg».proof.Proof.EceSpec
import proofs.«403413_j11424613007597_3_alg».proof.Proof.TileCommon
import Idealize.ShloMosaic.Lib.Pipeline.Value
import Idealize.ShloMosaic.Lib.Tactic
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.EceTile.Acc4
open Cert.KernelIdeal Cert.KernelIdeal.Gen Cert.Ece Idealize.ShloMosaic.ValueIdx

/-- The comparison against a threshold as a float: 1 where the probability is at most the threshold, else 0. -/
def mask (t : Ideal .f32) (p : FVec Ideal S2000x100 .f32) : FVec Ideal S2000x100 .f32 :=
  sitofp .f32 (extui 32 (cmpf .ole p (broadcast S2000x100 t)) natLt_1_32)

theorem mask_apply (t : Ideal .f32) (p : FVec Ideal S2000x100 .f32) (j : S2000x100.Idx) :
    mask t p j = ind (p j) t := by
  show ((((Ideal.cmp .ole (p j) t).setWidth 32).toInt : ℝ) : EReal) = ind (p j) t
  unfold ind Ideal.cmp
  by_cases h : p j ≤ t
  · rw [if_pos h]
    simp [h]
  · rw [if_neg h]
    simp [h]

/-- The column sums of the masked label hits, taken by a product with a matrix of ones. -/
def hitSums (t : Ideal .f32) (p hitv : FVec Ideal S2000x100 .f32) (ones : FVec Ideal S8x2000 .bf16) : FVec Ideal S8x100 .f32 :=
  matmul dot_S8x2000_S2000x100_S8x100_1_0_0_1_n_n none ones
    (truncf .bf16 (mulf (mask t p) hitv) bitsLt_bf16_f32) (constant S8x100 .f32 0x00000000#32)

/-- A row's new value: its old value plus row 0 of the sums. -/
def rowAdd (M : FVec Ideal S8x100 .f32) (old : Vec Ideal S1x1x100 .f32) : FVec Ideal S1x1x100 .f32 :=
  shapeCast S1x1x100 (addf (shapeCast S100 old shapeCasts_S1x1x100_S100)
    (shapeCast S100 (extractStridedSlice S1x100 ![0, 0] M slices_S8x100_o0_0_S1x100) shapeCasts_S1x100_S100))
    shapeCasts_S100_S1x1x100

theorem rowAdd_apply (M : FVec Ideal S8x100 .f32) (old : Vec Ideal S1x1x100 .f32) (k : Fin 100) :
    rowAdd M old (ix3 (0 : Fin 1) (0 : Fin 1) k) = old (ix3 (0 : Fin 1) (0 : Fin 1) k) + M (ix2 (0 : Fin 8) k) := by
  unfold rowAdd
  refine (shapeCast_apply _ _ (ix3 (0 : Fin 1) (0 : Fin 1) k) (ix1 k) ?_).trans ?_
  · rw [Shape.rowMajor_val_one, Shape.rowMajor_val_three]; simp
  rw [addf_apply]
  congr 1
  · exact shapeCast_apply _ _ (ix1 k) (ix3 (0 : Fin 1) (0 : Fin 1) k) (by rw [Shape.rowMajor_val_one, Shape.rowMajor_val_three]; simp)
  · refine (shapeCast_apply _ _ (ix1 k) (ix2 (0 : Fin 1) k) (by rw [Shape.rowMajor_val_one, Shape.rowMajor_val_two]; simp)).trans ?_
    exact extractStridedSlice_apply _ _ _ (ix2 (0 : Fin 1) k) (ix2 (0 : Fin 8) k) (fun a => by
      match a with
      | ⟨0, _⟩ => rfl
      | ⟨1, _⟩ => show k.val = 0 + k.val; omega)

theorem matmul_rows_apply (A : FVec Ideal S8x2000 .bf16) (B : FVec Ideal S2000x100 .bf16) (a : Fin 8) (k : Fin 100) :
    matmul dot_S8x2000_S2000x100_S8x100_1_0_0_1_n_n none A B (constant (F := Ideal) S8x100 .f32 0x00000000#32) (ix2 a k)
      = ∑ r : Fin 2000, A (ix2 a r) * B (ix2 r k) := by
  show FloatOps.matmul _ none A B (constant (F := Ideal) S8x100 .f32 0x00000000#32) (ix2 a k) = _
  rw [Ideal.matmul_constant_zero_apply,
    ← Equiv.sum_comp (contrEquiv1 dot_S8x2000_S2000x100_S8x100_1_0_0_1_n_n 2000 rfl rfl).symm]
  refine Finset.sum_congr rfl fun r _ => ?_
  have c2 := contrEquiv1_symm_val dot_S8x2000_S2000x100_S8x100_1_0_0_1_n_n 2000 rfl rfl r
  have l2 : dot_S8x2000_S2000x100_S8x100_1_0_0_1_n_n.lhsIdx (ix2 a k) ((contrEquiv1 _ 2000 rfl rfl).symm r) = ix2 a r := by
    funext ax; apply Fin.ext
    match ax with
    | ⟨0, _⟩ => simp [DotDims.lhsIdx, dot_S8x2000_S2000x100_S8x100_1_0_0_1_n_n]; rfl
    | ⟨1, _⟩ => simp [DotDims.lhsIdx, dot_S8x2000_S2000x100_S8x100_1_0_0_1_n_n]; exact c2
  have r2 : dot_S8x2000_S2000x100_S8x100_1_0_0_1_n_n.rhsIdx (ix2 a k) ((contrEquiv1 _ 2000 rfl rfl).symm r) = ix2 r k := by
    funext ax; apply Fin.ext
    match ax with
    | ⟨0, _⟩ => simp [DotDims.rhsIdx, dot_S8x2000_S2000x100_S8x100_1_0_0_1_n_n]; exact c2
    | ⟨1, _⟩ => simp [DotDims.rhsIdx, dot_S8x2000_S2000x100_S8x100_1_0_0_1_n_n]; rfl
  rw [l2, r2]

theorem hitSums_apply (t : Ideal .f32) (p hitv : FVec Ideal S2000x100 .f32) (k : Fin 100) :
    hitSums t p hitv (k0_pay8 (F := Ideal)) (ix2 (0 : Fin 8) k)
      = ∑ r : Fin 2000, ind (p (ix2 r k)) t * hitv (ix2 r k) := by
  unfold hitSums
  rw [matmul_rows_apply]
  refine Finset.sum_congr rfl fun r _ => ?_
  rw [ones_apply, one_mul, truncf_apply, mulf_apply, mask_apply]

/-- Row 0 of the sums taken against bin b's threshold over the tile's probabilities and label hits is the tile's share. -/
theorem hitSums_tile (x0 : Vec Ideal S2000x100 .f32) (x1 : Vec Ideal S2000x1 .i32) (b : Fin 15) (k : Fin 100) :
    hitSums (kthr b) (k0_pay6 (F := Ideal) x0) (k0_pay7 (F := Ideal) x1) (k0_pay8 (F := Ideal)) (ix2 (0 : Fin 8) k)
      = tAcc x0 x1 b k := by
  rw [hitSums_apply]
  unfold tAcc
  refine Finset.sum_congr rfl fun r _ => ?_
  rw [prob_apply, corr_apply, kthr_eq]

/-- Row b of the block, as a rectangle: its local index (0, 0, k) sits at (0, b, k). -/
theorem row_emb (b : Fin 15) (off : Fin 3 → ℕ) (hoff : off = ![0, b.val, 0])
    (inb : ∀ a, off a + (![1, 1, 100] : Fin 3 → ℕ) a ≤ S1x15x100.size a) (k : Fin 100) :
    (Rect.unit (s := S1x15x100) off ![1, 1, 100] inb).emb (ix3 (0 : Fin 1) (0 : Fin 1) k) = ix3 (0 : Fin 1) b k := by
  subst hoff
  funext a
  apply Fin.ext
  match a with
  | ⟨0, _⟩ => rfl
  | ⟨1, _⟩ => show b.val + 1 * 0 = b.val; omega
  | ⟨2, _⟩ => show 0 + 1 * k.val = k.val; omega

/-- What the block holds after the body, as one function of the block index: the old entry plus the tile's share. -/
def after (x0 : Vec Ideal S2000x100 .f32) (x1 : Vec Ideal S2000x1 .i32) (o : S1x15x100.Idx → EReal) : S1x15x100.Idx → EReal :=
  fun y => o y + tAcc x0 x1 (y 1) (y 2)

theorem after_apply (x0 : Vec Ideal S2000x100 .f32) (x1 : Vec Ideal S2000x1 .i32) (o : S1x15x100.Idx → EReal) (b : Fin 15) (k : Fin 100) :
    after x0 x1 o (ix3 (0 : Fin 1) b k) = o (ix3 (0 : Fin 1) b k) + tAcc x0 x1 b k := rfl

/-- One row store: when the sums' row 0 is bin b's share and the loaded row is row b of the old block, the stored row
    is the new block on row b's rectangle. -/
theorem piece_row (x0 : Vec Ideal S2000x100 .f32) (x1 : Vec Ideal S2000x1 .i32) (o : S1x15x100.Idx → EReal)
    (b : Fin 15) (off : Fin 3 → ℕ) (hoff : off = ![0, b.val, 0])
    (inb : ∀ a, off a + (![1, 1, 100] : Fin 3 → ℕ) a ≤ S1x15x100.size a)
    (M : FVec Ideal S8x100 .f32) (hM : ∀ k, M (ix2 (0 : Fin 8) k) = tAcc x0 x1 b k)
    (old : Vec Ideal S1x1x100 .f32) (hold : ∀ k, old (ix3 (0 : Fin 1) (0 : Fin 1) k) = o (ix3 (0 : Fin 1) b k))
    (x : (Rect.unit (s := S1x15x100) off ![1, 1, 100] inb).shape.Idx) :
    rowAdd M old x = after x0 x1 o ((Rect.unit (s := S1x15x100) off ![1, 1, 100] inb).emb x) := by
  obtain ⟨u, v, k, rfl⟩ : ∃ (u : Fin 1) (v : Fin 1) (k : Fin 100), x = ix3 u v k := ⟨x 0, x 1, x 2, eq_ix3 x⟩
  obtain rfl : u = 0 := Subsingleton.elim _ _
  obtain rfl : v = 0 := Subsingleton.elim _ _
  rw [row_emb b off hoff inb k, after_apply, rowAdd_apply, hM, hold]

theorem hz2 : (![0, 0] : Fin 2 → Nat) = fun _ => 0 := funext fun a => by fin_cases a <;> rfl

/-- One row store of a later tile: the loaded row is row b of the old block, the sums are taken against bin b's threshold. -/
theorem piece_B (x0 : Vec Ideal S2000x100 .f32) (x1 : Vec Ideal S2000x1 .i32) (o : Vec Ideal S1x15x100 .f32)
    (b : Fin 15) (off : Fin 3 → ℕ) (hoff : off = ![0, b.val, 0])
    (inb : ∀ a, off a + (![1, 1, 100] : Fin 3 → ℕ) a ≤ S1x15x100.size a)
    (x : (Rect.unit (s := S1x15x100) off ![1, 1, 100] inb).shape.Idx) :
    rowAdd (hitSums (kthr b) (k0_pay6 (F := Ideal) x0) (k0_pay7 (F := Ideal) x1) (k0_pay8 (F := Ideal)))
        (View.ld o (Rect.unit (s := S1x15x100) off ![1, 1, 100] inb)) x
      = after x0 x1 o ((Rect.unit (s := S1x15x100) off ![1, 1, 100] inb).emb x) :=
  piece_row x0 x1 o b off hoff inb _ (hitSums_tile x0 x1 b) _ (fun k => congrArg o (row_emb b off hoff inb k)) x

theorem hz3 : (![0, 0, 0] : Fin 3 → Nat) = fun _ => 0 := funext fun a => by fin_cases a <;> rfl

/-- The block of zeros the reset stores. -/
theorem zero_apply (y : S1x15x100.Idx) : k0_pay5 (F := Ideal) y = 0 := by
  unfold k0_pay5
  show Ideal.ofBits .f32 0x00000000#32 = 0
  exact Ideal.ofBits_zero_f32

/-- The block at a half's first tile once rows 0 .. j-1 are stored: those rows hold the tile's share, the others zero. -/
def partialA (x0 : Vec Ideal S2000x100 .f32) (x1 : Vec Ideal S2000x1 .i32) (j : ℕ) : S1x15x100.Idx → EReal :=
  fun y => if (y 1).val < j then after x0 x1 (fun _ => 0) y else 0

/-- Storing row j, whose old value is loaded from the stores made so far (zero on that row). -/
theorem inv_step (x0 : Vec Ideal S2000x100 .f32) (x1 : Vec Ideal S2000x1 .i32) (j : Fin 15) (off : Fin 3 → ℕ)
    (hoff : off = ![0, j.val, 0]) (inb : ∀ a, off a + S1x1x100.size a ≤ S1x15x100.size a)
    (P H : FVec Ideal S2000x100 .f32) (hP : P = k0_pay6 (F := Ideal) x0) (hH : H = k0_pay7 (F := Ideal) x1)
    (a6 : Memref sig .tc .vmem S1x15x100 .f32) (L : List (View.Piece (Elt Ideal) S1x15x100 .f32))
    (hL : ∀ y, View.canon L y = partialA x0 x1 j.val y) (y : S1x15x100.Idx) :
    View.canon ((⟨Rect.unit (s := S1x15x100) off S1x1x100.size inb,
        rowAdd (hitSums (kthr j) P H (k0_pay8 (F := Ideal)))
          (a6.view.readCov L (Rect.unit (s := S1x15x100) off S1x1x100.size inb).toLoadRect)⟩ : View.Piece (Elt Ideal) S1x15x100 .f32) :: L) y
      = partialA x0 x1 (j.val + 1) y := by
  subst hP hH
  obtain ⟨u, v, k, rfl⟩ : ∃ (u : Fin 1) (v : Fin 15) (k : Fin 100), y = ix3 u v k := ⟨y 0, y 1, y 2, eq_ix3 y⟩
  obtain rfl : u = 0 := Subsingleton.elim _ _
  by_cases hv : v = j
  · subst hv
    have e := row_emb v off hoff inb k
    refine (congrArg _ e.symm).trans ((View.canon_cons_emb _ _ _ _).trans ?_)
    rw [rowAdd_apply, hitSums_tile, View.readCov_eq_canon']
    show View.canon L ((Rect.unit (s := S1x15x100) off ![1, 1, 100] inb).emb (ix3 (0 : Fin 1) (0 : Fin 1) k)) + _ = _
    rw [e, hL]
    unfold partialA
    show (if v.val < v.val then _ else (0 : EReal)) + _ = if v.val < v.val + 1 then _ else _
    rw [if_neg (lt_irrefl _), if_pos (Nat.lt_succ_self _), after_apply]
  · have hm : ix3 (0 : Fin 1) v k ∉ (Rect.unit (s := S1x15x100) off S1x1x100.size inb).set := by
      subst hoff
      rw [Rect.mem_set_unit]
      intro h
      have h1 : j.val ≤ v.val ∧ v.val < j.val + 1 := h 1
      exact hv (Fin.ext (by omega))
    refine (View.canon_cons_of_not_mem _ _ ?_).trans ?_
    · exact hm
    rw [hL]
    unfold partialA
    have hne : v.val ≠ j.val := fun h => hv (Fin.ext h)
    show (if v.val < j.val then _ else _) = (if v.val < j.val + 1 then _ else _)
    by_cases hlt : v.val < j.val
    · rw [if_pos hlt, if_pos (by omega)]
    · rw [if_neg hlt, if_neg (by omega)]

section FirstTile
variable (c : Dev nD) (a2 : Memref sig .tc .vmem S2000x100 .f32) (h2 : a2.IsWhole) (a3 : Memref sig .tc .vmem S2000x1 .i32) (h3 : a3.IsWhole)
  (a6 : Memref sig .tc .vmem S1x15x100 .f32) (x0 : Vec Ideal S2000x100 .f32) (x1 : Vec Ideal S2000x1 .i32)

/-- The whole logits tile and the whole labels tile, loaded. -/
theorem read0 : View.readAt (Elt Ideal) a2.view (Rect.unit ![0, 0] S2000x100.size inb_S2000x100_S2000x100_0_0).toLoadRect (h2.unread x0) = x0 := by
  rw [View.readAt_eq_ld, h2.read_unread, View.ld_unit_zero (S := S2000x100) hz2]
theorem read1 : View.readAt (Elt Ideal) a3.view (Rect.unit ![0, 0] S2000x1.size inb_S2000x1_S2000x1_0_0).toLoadRect (h3.unread x1) = x1 := by
  rw [View.readAt_eq_ld, h3.read_unread, View.ld_unit_zero (S := S2000x1) hz2]

/-- The probability block and the label-hit block under the names the generated first-tile case gives them. -/
theorem r_eq : kernelRun0_A.sl.r (F := Ideal) c a2 h2 x0 = k0_pay6 (F := Ideal) x0 := by
  unfold kernelRun0_A.sl.r; rw [read0]
theorem r1_eq : kernelRun0_A.sl.r_1 (F := Ideal) c a3 h3 x1 = k0_pay7 (F := Ideal) x1 := by
  unfold kernelRun0_A.sl.r_1; rw [read1]

/-- After the reset alone the block is zero. -/
theorem invA_0 (y : S1x15x100.Idx) : View.canon (kernelRun0_A.sl.H4_1 (F := Ideal)) y = partialA x0 x1 0 y := by
  unfold kernelRun0_A.sl.H4_1
  rw [View.canon_unit_zero (S := S1x15x100) hz3]
  unfold partialA
  rw [if_neg (Nat.not_lt_zero _)]
  exact zero_apply y

end FirstTile

end Cert.KernelIdeal.EceTile.Acc4

end
-- ==== Proof.KTile4.lean ====
/-
  What one grid point's body leaves in accumulator block 4 (the count of rows at or under each threshold whose label is the class), at the ideal values: entry (bin, class) is
  what the block held before (nothing at a half's first tile, where the block is reset) plus the tile's share.

  The block is written by fifteen row stores, row b receiving its old value plus the column sums of "probability at most
  bin b's upper edge" times "label is the class" over the tile's rows.  A later tile: the fifteen payloads are the tiles
  of ONE function of the block index (old entry plus share), so the stores' canonical contents are that function.  A
  half's first tile: a whole-block store of zeros comes first and each row's old value is loaded from the stores made so
  far; row by row, the rows already stored hold the share and the others zero, so after row 14 every row holds zero plus
  its share.  The one-row facts are in the module of definitions; the table of the fifteen rows is its own module.
-/
import proofs.«403413_j11424613007597_3_alg».proof.Proof.Gen.KernelIdeal.Frame
import proofs.«403413_j11424613007597_3_alg».proof.Proof.EceSpec
import proofs.«403413_j11424613007597_3_alg».proof.Proof.TileCommon
import proofs.«403413_j11424613007597_3_alg».proof.Proof.KTile4Rows
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.EceTile

open Cert.KernelIdeal Cert.KernelIdeal.Gen Cert.Ece Acc4

variable (c : Dev nD) (i : grid0.Coords) (a2 : Memref sig .tc .vmem S2000x100 .f32) (h2 : a2.IsWhole) (a3 : Memref sig .tc .vmem S2000x1 .i32) (h3 : a3.IsWhole) (a4 : Memref sig .tc .vmem S1x15x100 .f32) (h4 : a4.IsWhole) (a5 : Memref sig .tc .vmem S1x15x100 .f32) (h5 : a5.IsWhole) (a6 : Memref sig .tc .vmem S1x15x100 .f32) (h6 : a6.IsWhole)
  (x0 : Vec Ideal S2000x100 .f32) (x1 : Vec Ideal S2000x1 .i32)

/-- A later tile of a half: block 4 gains the tile's share. -/
theorem out_B_4 (hc : ¬cond0_0 i) (o2 o3 o4 : Vec Ideal S1x15x100 .f32) (b : Fin 15) (k : Fin 100) :
    out0_B_4 (F := Ideal) c i a2 h2 a3 h3 a4 h4 a5 h5 a6 h6 hc x0 x1 o2 o3 o4 (ValueIdx.ix3 (0 : Fin 1) b k)
      = o4 (ValueIdx.ix3 (0 : Fin 1) b k) + tAcc x0 x1 b k := by
  -- the block after the body reads as the canonical contents of its fifteen row stores, which cover it
  unfold out0_B_4
  rw [View.read_writes_eq_canon _ _ _ (cover0_B_4 c i a2 h2 a3 h3 a4 h4 a5 h5 a6 h6 hc x0 x1 o2 o3 o4)]
  -- every store's payload is the one function "old entry plus share" on its row
  refine (View.canon_apply_of_pieces (after x0 x1 o4) _ ?_ _ (cover0_B_4 c i a2 h2 a3 h3 a4 h4 a5 h5 a6 h6 hc x0 x1 o2 o3 o4 _)).trans (after_apply x0 x1 o4 b k)
  unfold kernelRun0_B
  dsimp only
  sl_unfold_words
  simp only [View.readAt_eq_ld, h2.read_unread, h3.read_unread, h6.read_unread, View.ld_unit_zero (S := S2000x100) hz2, View.ld_unit_zero (S := S2000x1) hz2]
  simp only [List.forall_mem_cons]
  exact ⟨rowB_14 x0 x1 o4 _, rowB_13 x0 x1 o4 _, rowB_12 x0 x1 o4 _, rowB_11 x0 x1 o4 _, rowB_10 x0 x1 o4 _,
    rowB_9 x0 x1 o4 _, rowB_8 x0 x1 o4 _, rowB_7 x0 x1 o4 _, rowB_6 x0 x1 o4 _, rowB_5 x0 x1 o4 _,
    rowB_4 x0 x1 o4 _, rowB_3 x0 x1 o4 _, rowB_2 x0 x1 o4 _, rowB_1 x0 x1 o4 _, rowB_0 x0 x1 o4 _,
    fun p hp => by cases hp⟩

/-- The first tile of a half: block 4 is reset, then gains the tile's share. -/
theorem out_A_4 (hc : cond0_0 i) (b : Fin 15) (k : Fin 100) :
    out0_A_4 (F := Ideal) c i a2 h2 a3 h3 a4 h4 a5 h5 a6 h6 hc x0 x1 (ValueIdx.ix3 (0 : Fin 1) b k) = tAcc x0 x1 b k := by
  -- the block after the body reads as the canonical contents of the reset and the fifteen row stores
  unfold out0_A_4
  rw [View.read_writes_eq_canon _ _ _ (cover0_A_4 c i a2 h2 a3 h3 a4 h4 a5 h5 a6 h6 hc x0 x1)]
  unfold kernelRun0_A
  dsimp only
  -- the last store is row 14's; the stores before it leave rows 0 .. 13 at the share and row 14 at zero
  unfold kernelRun0_A.sl.r_31 kernelRun0_A.sl.v514
  rw [pay_row14 _ _ _ _]
  refine (inv_step x0 x1 ⟨14, by decide⟩ _ rfl _ _ _ (r_eq c a2 h2 x0) (r1_eq c a3 h3 x1) a6 _ (invA_14 c a2 h2 a3 h3 a6 x0 x1) _).trans ?_
  -- all fifteen rows are now stored: zero plus the share
  unfold partialA
  show (if b.val < 15 then _ else _) = _
  rw [if_pos b.isLt, after_apply, zero_add]

end Cert.KernelIdeal.EceTile

end
-- ==== Proof.KTile.lean ====
/-
  What one grid point's body leaves in the three accumulator blocks: the three modules, one per block, together.
-/
import proofs.«403413_j11424613007597_3_alg».proof.Proof.KTile2
import proofs.«403413_j11424613007597_3_alg».proof.Proof.KTile3
import proofs.«403413_j11424613007597_3_alg».proof.Proof.KTile4
-- ==== Proof.KAcc.lean ====
/-
  The three result arrays of the region: entry (half, bin, class) is the sum over the half's 125 tiles of the tiles'
  shares, each tile's rows read out of the argument arrays.

  The road.  A tile's rows are rows `2000 t + r` of the logits, and of the label vector recast as a one-column array
  (`xblk_apply`, `lblk_apply`).  An accumulator block holds the tile's share at a half's first tile and grows by the
  tile's share at every later one, so after point `n` it holds the sum of the shares from the half's first tile on
  (`run_sum`, by induction on the point).  A half's last point writes its block back as block `half` of the array, and
  every entry of the array lies in one of these two blocks.
-/
import proofs.«403413_j11424613007597_3_alg».proof.Proof.Gen.KernelIdeal.Frame
import proofs.«403413_j11424613007597_3_alg».proof.Proof.EceSpec
import proofs.«403413_j11424613007597_3_alg».proof.Proof.KTile
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.EceAcc

open Cert.KernelIdeal Cert.KernelIdeal.Gen Cert.Ece

variable (m : (ℓ : Loc nD τ sig) → Buf (Elt Ideal) ℓ)

/-- The logits and the labels of core `c`'s memory, by row. -/
abbrev X (c : Dev nD) : Fin 500000 → Fin 100 → EReal := rowsOf (m ((c.tc : Thread nD τ).loc main_arg0))
abbrev L (c : Dev nD) : Fin 500000 → BitVec 32 := labsOf (m ((c.tc : Thread nD τ).loc main_arg1))

/-! ## The tiles' rows in the argument arrays -/

/-- At point `t` the two input windows hold block `t` of the rows. -/
theorem idx_in : ∀ t : Fin cfg0.N,
    win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- At point `t` each accumulator window holds block `t / 125` (the half) of its array. -/
theorem idx_out2 : ∀ t : Fin cfg0.N,
    win0_2.index t (0 : Fin 3) = t.val / 125 ∧ win0_2.index t (1 : Fin 3) = 0 ∧ win0_2.index t (2 : Fin 3) = 0 :=
  (by decide +kernel : ∀ t : Fin grid0.N, _)
theorem idx_out3 : ∀ t : Fin cfg0.N,
    win0_3.index t (0 : Fin 3) = t.val / 125 ∧ win0_3.index t (1 : Fin 3) = 0 ∧ win0_3.index t (2 : Fin 3) = 0 :=
  (by decide +kernel : ∀ t : Fin grid0.N, _)
theorem idx_out4 : ∀ t : Fin cfg0.N,
    win0_4.index t (0 : Fin 3) = t.val / 125 ∧ win0_4.index t (1 : Fin 3) = 0 ∧ win0_4.index t (2 : Fin 3) = 0 :=
  (by decide +kernel : ∀ t : Fin grid0.N, _)

/-- The tile of logits and the tile of labels at point `t`. -/
abbrev xblk (c : Dev nD) (t : Fin cfg0.N) : Vec Ideal S2000x100 .f32 := iblk m c 0 t
abbrev lblk (c : Dev nD) (t : Fin cfg0.N) : Vec Ideal S2000x1 .i32 := iblk m c 1 t

/-- Row `r` of the tile at point `t` is row `2000 t + r` of the logits. -/
theorem xblk_apply (c : Dev nD) (t : Fin cfg0.N) (r : Fin 2000) (k : Fin 100) (n : Fin 500000)
    (hn : n.val = 2000 * t.val + r.val) :
    xblk m c t (ValueIdx.ix2 r k) = m ((c.tc : Thread nD τ).loc main_arg0) (ValueIdx.ix2 n k) := by
  obtain ⟨e0, e1, -⟩ := idx_in t
  unfold xblk iblk
  rw [View.read_apply]
  show V m c main_arg0 _ = m (c.tc.loc main_arg0) _
  rw [V_main_arg0]
  congr 1
  funext a
  apply Fin.ext
  match a with
  | ⟨0, _⟩ => show win0_0.index t 0 * 2000 + 1 * r.val = n.val; rw [e0]; omega
  | ⟨1, _⟩ => show win0_0.index t 1 * 100 + 1 * k.val = k.val; rw [e1]; omega

/-- The labels as the region finds them: the label vector recast as a one-column array. -/
theorem V_labels (c : Dev nD) :
    (V m c main_v0 : S500000x1.Idx → BitVec 32)
      = shapeCast S500000x1 (m ((c.tc : Thread nD τ).loc main_arg1)) shapeCasts_S500000_S500000x1 := by
  show StableHlo.after hostOps0 (fun b => m (c, b)) (Proc.devRef .tc main_v0) = _
  after_results
  rfl

/-- Row `r` of the label tile at point `t` is entry `2000 t + r` of the label vector: the recast keeps the
    row-major position, and a one-column array's position is its row. -/
theorem lblk_apply (c : Dev nD) (t : Fin cfg0.N) (r : Fin 2000) (n : Fin 500000) (hn : n.val = 2000 * t.val + r.val) :
    lblk m c t (ValueIdx.ix2 r (0 : Fin 1)) = m ((c.tc : Thread nD τ).loc main_arg1) (ValueIdx.ix1 n) := by
  obtain ⟨-, -, e0, e1⟩ := idx_in t
  unfold lblk iblk
  rw [View.read_apply]
  show (V m c main_v0 : S500000x1.Idx → BitVec 32) _ = m (c.tc.loc main_arg1) _
  rw [V_labels]
  refine (shapeCast_apply _ _ _ (ValueIdx.ix1 n) ?_).trans rfl
  rw [Shape.rowMajor_val_two, Shape.rowMajor_val_one]
  show n.val = (win0_1.index t 0 * 2000 + 1 * r.val) * 1 + (win0_1.index t 1 * 1 + 1 * 0)
  rw [e0, e1]; omega

/-! ## The running sums over a half -/

/-- A quantity over the points that is the tile's share at the first tile of a half and grows by the tile's share at
    every later tile is, at any point, the sum of the shares from the half's first tile up to that point. -/
theorem run_sum {N : ℕ} (f : (n : ℕ) → n < N → EReal) (M : ℕ → EReal)
    (hA : ∀ (n : ℕ) (h : n < N), n % 125 = 0 → f n h = M n)
    (hB : ∀ (n : ℕ) (h : n + 1 < N), ¬(n + 1) % 125 = 0 → f (n + 1) h = f n (Nat.lt_of_succ_lt h) + M (n + 1)) :
    ∀ (n : ℕ) (h : n < N), f n h = ∑ s ∈ Finset.range (n % 125 + 1), M (n - n % 125 + s)
  | 0, h => by rw [hA 0 h rfl]; simp
  | n + 1, h => by
    by_cases h0 : (n + 1) % 125 = 0
    · rw [hA _ h h0, h0]; simp
    · rw [hB n h h0, run_sum f M hA hB n (Nat.lt_of_succ_lt h)]
      have e1 : (n + 1) % 125 = n % 125 + 1 := by omega
      have e2 : n + 1 - (n % 125 + 1) = n - n % 125 := by omega
      have e3 : n - n % 125 + (n % 125 + 1) = n + 1 := by omega
      rw [e1, e2, Finset.sum_range_succ _ (n % 125 + 1), e3]

/-- The three shares of the tile at point `n` (nothing past the grid). -/
def shCnt (c : Dev nD) (b : Fin 15) (k : Fin 100) (n : ℕ) : EReal :=
  if h : n < cfg0.N then tCnt (xblk m c ⟨n, h⟩) b k else 0
def shConf (c : Dev nD) (b : Fin 15) (k : Fin 100) (n : ℕ) : EReal :=
  if h : n < cfg0.N then tConf (xblk m c ⟨n, h⟩) b k else 0
def shAcc (c : Dev nD) (b : Fin 15) (k : Fin 100) (n : ℕ) : EReal :=
  if h : n < cfg0.N then tAcc (xblk m c ⟨n, h⟩) (lblk m c ⟨n, h⟩) b k else 0

/-! ## The counts (result array 2) -/

/-- A half's first tile: the block holds the tile's share. -/
theorem cnt_A (c : Dev nD) (t : Fin cfg0.N) (h0 : t.val % 125 = 0) (b : Fin 15) (k : Fin 100) :
    (outsAt0 m c t.val t.isLt).1 (ValueIdx.ix3 (0 : Fin 1) b k) = tCnt (xblk m c t) b k := by
  rw [outsAt0_A m c t h0]
  dsimp only
  exact EceTile.out_A_2 c (grid0.coords t) (ms0_0 t) (hs0_0 t) (ms0_1 t) (hs0_1 t) (ms0_2 t) (hs0_2 t) (ms0_3 t) (hs0_3 t)
    (ms0_4 t) (hs0_4 t) (xblk m c t) (lblk m c t) ((hcond0_0 t).mpr h0) b k

/-- A later tile: the block gains the tile's share over what the point before left. -/
theorem cnt_B (c : Dev nD) (t : Fin cfg0.N) (h0 : ¬t.val % 125 = 0) (b : Fin 15) (k : Fin 100) :
    (outsAt0 m c t.val t.isLt).1 (ValueIdx.ix3 (0 : Fin 1) b k)
      = (outsAt0 m c (t.val - 1) (Nat.lt_of_le_of_lt (Nat.sub_le _ _) t.isLt)).1 (ValueIdx.ix3 (0 : Fin 1) b k)
        + tCnt (xblk m c t) b k := by
  rw [outsAt0_B m c t h0]
  dsimp only
  exact EceTile.out_B_2 c (grid0.coords t) (ms0_0 t) (hs0_0 t) (ms0_1 t) (hs0_1 t) (ms0_2 t) (hs0_2 t) (ms0_3 t) (hs0_3 t)
    (ms0_4 t) (hs0_4 t) (xblk m c t) (lblk m c t) (fun h => h0 ((hcond0_0 t).mp h))
    (outsAt0 m c (t.val - 1) (Nat.lt_of_le_of_lt (Nat.sub_le _ _) t.isLt)).1
    (outsAt0 m c (t.val - 1) (Nat.lt_of_le_of_lt (Nat.sub_le _ _) t.isLt)).2.1
    (outsAt0 m c (t.val - 1) (Nat.lt_of_le_of_lt (Nat.sub_le _ _) t.isLt)).2.2 b k

/-- After point `n` the block holds the shares of the half's tiles up to `n`, summed. -/
theorem cnt_inv (c : Dev nD) (b : Fin 15) (k : Fin 100) (n : ℕ) (h : n < cfg0.N) :
    (outsAt0 m c n h).1 (ValueIdx.ix3 (0 : Fin 1) b k)
      = ∑ s ∈ Finset.range (n % 125 + 1), shCnt m c b k (n - n % 125 + s) :=
  run_sum (fun n h => (outsAt0 m c n h).1 (ValueIdx.ix3 (0 : Fin 1) b k)) (shCnt m c b k)
    (fun n h h0 => by
      show (outsAt0 m c n h).1 _ = shCnt m c b k n
      unfold shCnt; rw [dif_pos h]
      exact cnt_A m c ⟨n, h⟩ h0 b k)
    (fun n h h0 => by
      show (outsAt0 m c (n + 1) h).1 _ = (outsAt0 m c n _).1 _ + shCnt m c b k (n + 1)
      unfold shCnt; rw [dif_pos h]
      exact cnt_B m c ⟨n + 1, h⟩ h0 b k) n h

/-- The array the region leaves: entry (half, bin, class) sums the half's 125 tiles' shares. -/
def Gcnt (c : Dev nD) : S2x15x100.Idx → EReal :=
  fun j => ∑ s ∈ Finset.range 125, shCnt m c (j 1) (j 2) (125 * (j 0).val + s)

/-- What a half's last point writes back is its block of that array: the block sits at (half, 0, 0). -/
theorem flushed_cnt (c : Dev nD) (t : Fin cfg0.N) (hf : (cfg0.win 2).flush t = true) :
    (dats (F := Ideal) m 0 c).flushed 2 t = ((cfg0.win 2).blk t).view.read (Elt Ideal) (Gcnt m c) := by
  have hN : cfg0.N = 250 := N_0
  have h124 : t.val % 125 = 124 := (flush0_2 t).mp hf
  obtain ⟨e0, e1, e2⟩ := idx_out2 t
  show (cfg0.win 2).cut (grid0.coords t) ((dats (F := Ideal) m 0 c).after 2 t) = _
  rw [after0_2]
  funext y
  obtain ⟨p, q, r, rfl⟩ : ∃ (p : Fin 1) (q : Fin 15) (r : Fin 100), y = ValueIdx.ix3 p q r :=
    ⟨y 0, y 1, y 2, ValueIdx.eq_ix3 y⟩
  obtain rfl : p = 0 := Subsingleton.elim _ _
  rw [View.read_apply]
  have hlt : t.val / 125 < 2 := by have := t.isLt; omega
  have hemb : ((cfg0.win 2).blk t).view.emb (ValueIdx.ix3 (0 : Fin 1) q r)
      = ValueIdx.ix3 (⟨t.val / 125, hlt⟩ : Fin 2) q r := by
    funext a
    apply Fin.ext
    match a with
    | ⟨0, _⟩ => show win0_2.index t 0 * 1 + 1 * 0 = t.val / 125; rw [e0]; omega
    | ⟨1, _⟩ => show win0_2.index t 1 * 15 + 1 * q.val = q.val; rw [e1]; omega
    | ⟨2, _⟩ => show win0_2.index t 2 * 100 + 1 * r.val = r.val; rw [e2]; omega
  show (outsAt0 m c t.val t.isLt).1 (ValueIdx.ix3 (0 : Fin 1) q r)
    = Gcnt m c (((cfg0.win 2).blk t).view.emb (ValueIdx.ix3 (0 : Fin 1) q r))
  rw [hemb, cnt_inv]
  show _ = ∑ s ∈ Finset.range 125, shCnt m c q r (125 * (t.val / 125) + s)
  rw [h124]
  refine Finset.sum_congr rfl fun s _ => congrArg _ ?_
  omega

/-- A tile's share, its rows read out of the argument arrays. -/
theorem tile_cnt (c : Dev nD) (h : Fin 2) (i : Fin 125) (b : Fin 15) (k : Fin 100) :
    shCnt m c b k (125 * h.val + i.val) = ∑ r : Fin 2000, ind (soft (X m c (rowIdx h i r)) k) (thr b) := by
  have hN : cfg0.N = 250 := N_0
  have hlt : 125 * h.val + i.val < cfg0.N := by rw [hN]; have := h.isLt; have := i.isLt; omega
  unfold shCnt
  rw [dif_pos hlt]
  unfold tCnt
  refine Finset.sum_congr rfl fun r _ => ?_
  have hr : (rowIdx h i r).val = 2000 * (⟨125 * h.val + i.val, hlt⟩ : Fin cfg0.N).val + r.val := by
    show 250000 * h.val + 2000 * i.val + r.val = 2000 * (125 * h.val + i.val) + r.val; omega
  have hrow : tileRow (xblk m c ⟨125 * h.val + i.val, hlt⟩) r = X m c (rowIdx h i r) := by
    funext k'
    exact xblk_apply m c ⟨125 * h.val + i.val, hlt⟩ r k' (rowIdx h i r) hr
  rw [hrow]

/-! ## The summed probabilities (result array 3) -/

/-- A half's first tile: the block holds the tile's share. -/
theorem conf_A (c : Dev nD) (t : Fin cfg0.N) (h0 : t.val % 125 = 0) (b : Fin 15) (k : Fin 100) :
    (outsAt0 m c t.val t.isLt).2.1 (ValueIdx.ix3 (0 : Fin 1) b k) = tConf (xblk m c t) b k := by
  rw [outsAt0_A m c t h0]
  dsimp only
  exact EceTile.out_A_3 c (grid0.coords t) (ms0_0 t) (hs0_0 t) (ms0_1 t) (hs0_1 t) (ms0_2 t) (hs0_2 t) (ms0_3 t) (hs0_3 t)
    (ms0_4 t) (hs0_4 t) (xblk m c t) (lblk m c t) ((hcond0_0 t).mpr h0) b k

/-- A later tile: the block gains the tile's share over what the point before left. -/
theorem conf_B (c : Dev nD) (t : Fin cfg0.N) (h0 : ¬t.val % 125 = 0) (b : Fin 15) (k : Fin 100) :
    (outsAt0 m c t.val t.isLt).2.1 (ValueIdx.ix3 (0 : Fin 1) b k)
      = (outsAt0 m c (t.val - 1) (Nat.lt_of_le_of_lt (Nat.sub_le _ _) t.isLt)).2.1 (ValueIdx.ix3 (0 : Fin 1) b k)
        + tConf (xblk m c t) b k := by
  rw [outsAt0_B m c t h0]
  dsimp only
  exact EceTile.out_B_3 c (grid0.coords t) (ms0_0 t) (hs0_0 t) (ms0_1 t) (hs0_1 t) (ms0_2 t) (hs0_2 t) (ms0_3 t) (hs0_3 t)
    (ms0_4 t) (hs0_4 t) (xblk m c t) (lblk m c t) (fun h => h0 ((hcond0_0 t).mp h))
    (outsAt0 m c (t.val - 1) (Nat.lt_of_le_of_lt (Nat.sub_le _ _) t.isLt)).1
    (outsAt0 m c (t.val - 1) (Nat.lt_of_le_of_lt (Nat.sub_le _ _) t.isLt)).2.1
    (outsAt0 m c (t.val - 1) (Nat.lt_of_le_of_lt (Nat.sub_le _ _) t.isLt)).2.2 b k

/-- After point `n` the block holds the shares of the half's tiles up to `n`, summed. -/
theorem conf_inv (c : Dev nD) (b : Fin 15) (k : Fin 100) (n : ℕ) (h : n < cfg0.N) :
    (outsAt0 m c n h).2.1 (ValueIdx.ix3 (0 : Fin 1) b k)
      = ∑ s ∈ Finset.range (n % 125 + 1), shConf m c b k (n - n % 125 + s) :=
  run_sum (fun n h => (outsAt0 m c n h).2.1 (ValueIdx.ix3 (0 : Fin 1) b k)) (shConf m c b k)
    (fun n h h0 => by
      show (outsAt0 m c n h).2.1 _ = shConf m c b k n
      unfold shConf; rw [dif_pos h]
      exact conf_A m c ⟨n, h⟩ h0 b k)
    (fun n h h0 => by
      show (outsAt0 m c (n + 1) h).2.1 _ = (outsAt0 m c n _).2.1 _ + shConf m c b k (n + 1)
      unfold shConf; rw [dif_pos h]
      exact conf_B m c ⟨n + 1, h⟩ h0 b k) n h

/-- The array the region leaves: entry (half, bin, class) sums the half's 125 tiles' shares. -/
def Gconf (c : Dev nD) : S2x15x100.Idx → EReal :=
  fun j => ∑ s ∈ Finset.range 125, shConf m c (j 1) (j 2) (125 * (j 0).val + s)

/-- What a half's last point writes back is its block of that array: the block sits at (half, 0, 0). -/
theorem flushed_conf (c : Dev nD) (t : Fin cfg0.N) (hf : (cfg0.win 3).flush t = true) :
    (dats (F := Ideal) m 0 c).flushed 3 t = ((cfg0.win 3).blk t).view.read (Elt Ideal) (Gconf m c) := by
  have hN : cfg0.N = 250 := N_0
  have h124 : t.val % 125 = 124 := (flush0_3 t).mp hf
  obtain ⟨e0, e1, e2⟩ := idx_out3 t
  show (cfg0.win 3).cut (grid0.coords t) ((dats (F := Ideal) m 0 c).after 3 t) = _
  rw [after0_3]
  funext y
  obtain ⟨p, q, r, rfl⟩ : ∃ (p : Fin 1) (q : Fin 15) (r : Fin 100), y = ValueIdx.ix3 p q r :=
    ⟨y 0, y 1, y 2, ValueIdx.eq_ix3 y⟩
  obtain rfl : p = 0 := Subsingleton.elim _ _
  rw [View.read_apply]
  have hlt : t.val / 125 < 2 := by have := t.isLt; omega
  have hemb : ((cfg0.win 3).blk t).view.emb (ValueIdx.ix3 (0 : Fin 1) q r)
      = ValueIdx.ix3 (⟨t.val / 125, hlt⟩ : Fin 2) q r := by
    funext a
    apply Fin.ext
    match a with
    | ⟨0, _⟩ => show win0_3.index t 0 * 1 + 1 * 0 = t.val / 125; rw [e0]; omega
    | ⟨1, _⟩ => show win0_3.index t 1 * 15 + 1 * q.val = q.val; rw [e1]; omega
    | ⟨2, _⟩ => show win0_3.index t 2 * 100 + 1 * r.val = r.val; rw [e2]; omega
  show (outsAt0 m c t.val t.isLt).2.1 (ValueIdx.ix3 (0 : Fin 1) q r)
    = Gconf m c (((cfg0.win 3).blk t).view.emb (ValueIdx.ix3 (0 : Fin 1) q r))
  rw [hemb, conf_inv]
  show _ = ∑ s ∈ Finset.range 125, shConf m c q r (125 * (t.val / 125) + s)
  rw [h124]
  refine Finset.sum_congr rfl fun s _ => congrArg _ ?_
  omega

/-- A tile's share, its rows read out of the argument arrays. -/
theorem tile_conf (c : Dev nD) (h : Fin 2) (i : Fin 125) (b : Fin 15) (k : Fin 100) :
    shConf m c b k (125 * h.val + i.val) = ∑ r : Fin 2000, keep (soft (X m c (rowIdx h i r)) k) (thr b) := by
  have hN : cfg0.N = 250 := N_0
  have hlt : 125 * h.val + i.val < cfg0.N := by rw [hN]; have := h.isLt; have := i.isLt; omega
  unfold shConf
  rw [dif_pos hlt]
  unfold tConf
  refine Finset.sum_congr rfl fun r _ => ?_
  have hr : (rowIdx h i r).val = 2000 * (⟨125 * h.val + i.val, hlt⟩ : Fin cfg0.N).val + r.val := by
    show 250000 * h.val + 2000 * i.val + r.val = 2000 * (125 * h.val + i.val) + r.val; omega
  have hrow : tileRow (xblk m c ⟨125 * h.val + i.val, hlt⟩) r = X m c (rowIdx h i r) := by
    funext k'
    exact xblk_apply m c ⟨125 * h.val + i.val, hlt⟩ r k' (rowIdx h i r) hr
  rw [hrow]

/-! ## The counts of rows carrying the class as label (result array 4) -/

/-- A half's first tile: the block holds the tile's share. -/
theorem acc_A (c : Dev nD) (t : Fin cfg0.N) (h0 : t.val % 125 = 0) (b : Fin 15) (k : Fin 100) :
    (outsAt0 m c t.val t.isLt).2.2 (ValueIdx.ix3 (0 : Fin 1) b k) = tAcc (xblk m c t) (lblk m c t) b k := by
  rw [outsAt0_A m c t h0]
  dsimp only
  exact EceTile.out_A_4 c (grid0.coords t) (ms0_0 t) (hs0_0 t) (ms0_1 t) (hs0_1 t) (ms0_2 t) (hs0_2 t) (ms0_3 t) (hs0_3 t)
    (ms0_4 t) (hs0_4 t) (xblk m c t) (lblk m c t) ((hcond0_0 t).mpr h0) b k

/-- A later tile: the block gains the tile's share over what the point before left. -/
theorem acc_B (c : Dev nD) (t : Fin cfg0.N) (h0 : ¬t.val % 125 = 0) (b : Fin 15) (k : Fin 100) :
    (outsAt0 m c t.val t.isLt).2.2 (ValueIdx.ix3 (0 : Fin 1) b k)
      = (outsAt0 m c (t.val - 1) (Nat.lt_of_le_of_lt (Nat.sub_le _ _) t.isLt)).2.2 (ValueIdx.ix3 (0 : Fin 1) b k)
        + tAcc (xblk m c t) (lblk m c t) b k := by
  rw [outsAt0_B m c t h0]
  dsimp only
  exact EceTile.out_B_4 c (grid0.coords t) (ms0_0 t) (hs0_0 t) (ms0_1 t) (hs0_1 t) (ms0_2 t) (hs0_2 t) (ms0_3 t) (hs0_3 t)
    (ms0_4 t) (hs0_4 t) (xblk m c t) (lblk m c t) (fun h => h0 ((hcond0_0 t).mp h))
    (outsAt0 m c (t.val - 1) (Nat.lt_of_le_of_lt (Nat.sub_le _ _) t.isLt)).1
    (outsAt0 m c (t.val - 1) (Nat.lt_of_le_of_lt (Nat.sub_le _ _) t.isLt)).2.1
    (outsAt0 m c (t.val - 1) (Nat.lt_of_le_of_lt (Nat.sub_le _ _) t.isLt)).2.2 b k

/-- After point `n` the block holds the shares of the half's tiles up to `n`, summed. -/
theorem acc_inv (c : Dev nD) (b : Fin 15) (k : Fin 100) (n : ℕ) (h : n < cfg0.N) :
    (outsAt0 m c n h).2.2 (ValueIdx.ix3 (0 : Fin 1) b k)
      = ∑ s ∈ Finset.range (n % 125 + 1), shAcc m c b k (n - n % 125 + s) :=
  run_sum (fun n h => (outsAt0 m c n h).2.2 (ValueIdx.ix3 (0 : Fin 1) b k)) (shAcc m c b k)
    (fun n h h0 => by
      show (outsAt0 m c n h).2.2 _ = shAcc m c b k n
      unfold shAcc; rw [dif_pos h]
      exact acc_A m c ⟨n, h⟩ h0 b k)
    (fun n h h0 => by
      show (outsAt0 m c (n + 1) h).2.2 _ = (outsAt0 m c n _).2.2 _ + shAcc m c b k (n + 1)
      unfold shAcc; rw [dif_pos h]
      exact acc_B m c ⟨n + 1, h⟩ h0 b k) n h

/-- The array the region leaves: entry (half, bin, class) sums the half's 125 tiles' shares. -/
def Gacc (c : Dev nD) : S2x15x100.Idx → EReal :=
  fun j => ∑ s ∈ Finset.range 125, shAcc m c (j 1) (j 2) (125 * (j 0).val + s)

/-- What a half's last point writes back is its block of that array: the block sits at (half, 0, 0). -/
theorem flushed_acc (c : Dev nD) (t : Fin cfg0.N) (hf : (cfg0.win 4).flush t = true) :
    (dats (F := Ideal) m 0 c).flushed 4 t = ((cfg0.win 4).blk t).view.read (Elt Ideal) (Gacc m c) := by
  have hN : cfg0.N = 250 := N_0
  have h124 : t.val % 125 = 124 := (flush0_4 t).mp hf
  obtain ⟨e0, e1, e2⟩ := idx_out4 t
  show (cfg0.win 4).cut (grid0.coords t) ((dats (F := Ideal) m 0 c).after 4 t) = _
  rw [after0_4]
  funext y
  obtain ⟨p, q, r, rfl⟩ : ∃ (p : Fin 1) (q : Fin 15) (r : Fin 100), y = ValueIdx.ix3 p q r :=
    ⟨y 0, y 1, y 2, ValueIdx.eq_ix3 y⟩
  obtain rfl : p = 0 := Subsingleton.elim _ _
  rw [View.read_apply]
  have hlt : t.val / 125 < 2 := by have := t.isLt; omega
  have hemb : ((cfg0.win 4).blk t).view.emb (ValueIdx.ix3 (0 : Fin 1) q r)
      = ValueIdx.ix3 (⟨t.val / 125, hlt⟩ : Fin 2) q r := by
    funext a
    apply Fin.ext
    match a with
    | ⟨0, _⟩ => show win0_4.index t 0 * 1 + 1 * 0 = t.val / 125; rw [e0]; omega
    | ⟨1, _⟩ => show win0_4.index t 1 * 15 + 1 * q.val = q.val; rw [e1]; omega
    | ⟨2, _⟩ => show win0_4.index t 2 * 100 + 1 * r.val = r.val; rw [e2]; omega
  show (outsAt0 m c t.val t.isLt).2.2 (ValueIdx.ix3 (0 : Fin 1) q r)
    = Gacc m c (((cfg0.win 4).blk t).view.emb (ValueIdx.ix3 (0 : Fin 1) q r))
  rw [hemb, acc_inv]
  show _ = ∑ s ∈ Finset.range 125, shAcc m c q r (125 * (t.val / 125) + s)
  rw [h124]
  refine Finset.sum_congr rfl fun s _ => congrArg _ ?_
  omega

/-- A tile's share, its rows read out of the argument arrays. -/
theorem tile_acc (c : Dev nD) (h : Fin 2) (i : Fin 125) (b : Fin 15) (k : Fin 100) :
    shAcc m c b k (125 * h.val + i.val) = ∑ r : Fin 2000, ind (soft (X m c (rowIdx h i r)) k) (thr b) * hit (L m c (rowIdx h i r)) k := by
  have hN : cfg0.N = 250 := N_0
  have hlt : 125 * h.val + i.val < cfg0.N := by rw [hN]; have := h.isLt; have := i.isLt; omega
  unfold shAcc
  rw [dif_pos hlt]
  unfold tAcc
  refine Finset.sum_congr rfl fun r _ => ?_
  have hr : (rowIdx h i r).val = 2000 * (⟨125 * h.val + i.val, hlt⟩ : Fin cfg0.N).val + r.val := by
    show 250000 * h.val + 2000 * i.val + r.val = 2000 * (125 * h.val + i.val) + r.val; omega
  have hrow : tileRow (xblk m c ⟨125 * h.val + i.val, hlt⟩) r = X m c (rowIdx h i r) := by
    funext k'
    exact xblk_apply m c ⟨125 * h.val + i.val, hlt⟩ r k' (rowIdx h i r) hr
  have hlab : lblk m c ⟨125 * h.val + i.val, hlt⟩ (ValueIdx.ix2 r (0 : Fin 1)) = L m c (rowIdx h i r) :=
    lblk_apply m c ⟨125 * h.val + i.val, hlt⟩ r (rowIdx h i r) hr
  rw [hrow, hlab]

/-! ## The three result arrays

Entry (half, bin, class) lies in the block the half's last point, `125 · half + 124`, writes back. -/

theorem final_cnt (c : Dev nD) (h : Fin 2) (b : Fin 15) (k : Fin 100) :
    ((dats (F := Ideal) m 0 c).arrAt 2 cfg0.N : S2x15x100.Idx → EReal) (ValueIdx.ix3 h b k)
      = ∑ i : Fin 125, ∑ r : Fin 2000, ind (soft (X m c (rowIdx h i r)) k) (thr b) := by
  have hN : cfg0.N = 250 := N_0
  have hlt : 125 * h.val + 124 < cfg0.N := by rw [hN]; have := h.isLt; omega
  have hf : (cfg0.win 2).flush ⟨125 * h.val + 124, hlt⟩ = true :=
    (flush0_2 _).mpr (by show (125 * h.val + 124) % 125 = 124; omega)
  obtain ⟨e0, e1, e2⟩ := idx_out2 ⟨125 * h.val + 124, hlt⟩
  have e0' : win0_2.index ⟨125 * h.val + 124, hlt⟩ (0 : Fin 3) = h.val := by
    rw [e0]; show (125 * h.val + 124) / 125 = h.val; omega
  refine ((dats (F := Ideal) m 0 c).arrAt_apply_of_mem 2 (Gcnt m c) (flushed_cnt m c) cfg0.N ⟨125 * h.val + 124, hlt⟩
    (ValueIdx.ix3 h b k) hlt hf ?_).trans ?_
  · show ValueIdx.ix3 h b k ∈ ((View.whole main_v1_0).slice (win0_2.rect ⟨125 * h.val + 124, hlt⟩)).set
    rw [View.set_slice_whole, Rect.mem_set_unit]
    intro a
    match a with
    | ⟨0, _⟩ =>
      show win0_2.index ⟨125 * h.val + 124, hlt⟩ 0 * 1 ≤ h.val ∧ h.val < win0_2.index ⟨125 * h.val + 124, hlt⟩ 0 * 1 + 1
      rw [e0']; omega
    | ⟨1, _⟩ =>
      show win0_2.index ⟨125 * h.val + 124, hlt⟩ 1 * 15 ≤ b.val ∧ b.val < win0_2.index ⟨125 * h.val + 124, hlt⟩ 1 * 15 + 15
      rw [e1]; have := b.isLt; omega
    | ⟨2, _⟩ =>
      show win0_2.index ⟨125 * h.val + 124, hlt⟩ 2 * 100 ≤ k.val ∧ k.val < win0_2.index ⟨125 * h.val + 124, hlt⟩ 2 * 100 + 100
      rw [e2]; have := k.isLt; omega
  · show ∑ s ∈ Finset.range 125, shCnt m c b k (125 * h.val + s) = _
    rw [Finset.sum_range]
    exact Finset.sum_congr rfl fun i _ => tile_cnt m c h i b k

theorem final_conf (c : Dev nD) (h : Fin 2) (b : Fin 15) (k : Fin 100) :
    ((dats (F := Ideal) m 0 c).arrAt 3 cfg0.N : S2x15x100.Idx → EReal) (ValueIdx.ix3 h b k)
      = ∑ i : Fin 125, ∑ r : Fin 2000, keep (soft (X m c (rowIdx h i r)) k) (thr b) := by
  have hN : cfg0.N = 250 := N_0
  have hlt : 125 * h.val + 124 < cfg0.N := by rw [hN]; have := h.isLt; omega
  have hf : (cfg0.win 3).flush ⟨125 * h.val + 124, hlt⟩ = true :=
    (flush0_3 _).mpr (by show (125 * h.val + 124) % 125 = 124; omega)
  obtain ⟨e0, e1, e2⟩ := idx_out3 ⟨125 * h.val + 124, hlt⟩
  have e0' : win0_3.index ⟨125 * h.val + 124, hlt⟩ (0 : Fin 3) = h.val := by
    rw [e0]; show (125 * h.val + 124) / 125 = h.val; omega
  refine ((dats (F := Ideal) m 0 c).arrAt_apply_of_mem 3 (Gconf m c) (flushed_conf m c) cfg0.N ⟨125 * h.val + 124, hlt⟩
    (ValueIdx.ix3 h b k) hlt hf ?_).trans ?_
  · show ValueIdx.ix3 h b k ∈ ((View.whole main_v1_1).slice (win0_3.rect ⟨125 * h.val + 124, hlt⟩)).set
    rw [View.set_slice_whole, Rect.mem_set_unit]
    intro a
    match a with
    | ⟨0, _⟩ =>
      show win0_3.index ⟨125 * h.val + 124, hlt⟩ 0 * 1 ≤ h.val ∧ h.val < win0_3.index ⟨125 * h.val + 124, hlt⟩ 0 * 1 + 1
      rw [e0']; omega
    | ⟨1, _⟩ =>
      show win0_3.index ⟨125 * h.val + 124, hlt⟩ 1 * 15 ≤ b.val ∧ b.val < win0_3.index ⟨125 * h.val + 124, hlt⟩ 1 * 15 + 15
      rw [e1]; have := b.isLt; omega
    | ⟨2, _⟩ =>
      show win0_3.index ⟨125 * h.val + 124, hlt⟩ 2 * 100 ≤ k.val ∧ k.val < win0_3.index ⟨125 * h.val + 124, hlt⟩ 2 * 100 + 100
      rw [e2]; have := k.isLt; omega
  · show ∑ s ∈ Finset.range 125, shConf m c b k (125 * h.val + s) = _
    rw [Finset.sum_range]
    exact Finset.sum_congr rfl fun i _ => tile_conf m c h i b k

theorem final_acc (c : Dev nD) (h : Fin 2) (b : Fin 15) (k : Fin 100) :
    ((dats (F := Ideal) m 0 c).arrAt 4 cfg0.N : S2x15x100.Idx → EReal) (ValueIdx.ix3 h b k)
      = ∑ i : Fin 125, ∑ r : Fin 2000, ind (soft (X m c (rowIdx h i r)) k) (thr b) * hit (L m c (rowIdx h i r)) k := by
  have hN : cfg0.N = 250 := N_0
  have hlt : 125 * h.val + 124 < cfg0.N := by rw [hN]; have := h.isLt; omega
  have hf : (cfg0.win 4).flush ⟨125 * h.val + 124, hlt⟩ = true :=
    (flush0_4 _).mpr (by show (125 * h.val + 124) % 125 = 124; omega)
  obtain ⟨e0, e1, e2⟩ := idx_out4 ⟨125 * h.val + 124, hlt⟩
  have e0' : win0_4.index ⟨125 * h.val + 124, hlt⟩ (0 : Fin 3) = h.val := by
    rw [e0]; show (125 * h.val + 124) / 125 = h.val; omega
  refine ((dats (F := Ideal) m 0 c).arrAt_apply_of_mem 4 (Gacc m c) (flushed_acc m c) cfg0.N ⟨125 * h.val + 124, hlt⟩
    (ValueIdx.ix3 h b k) hlt hf ?_).trans ?_
  · show ValueIdx.ix3 h b k ∈ ((View.whole main_v1_2).slice (win0_4.rect ⟨125 * h.val + 124, hlt⟩)).set
    rw [View.set_slice_whole, Rect.mem_set_unit]
    intro a
    match a with
    | ⟨0, _⟩ =>
      show win0_4.index ⟨125 * h.val + 124, hlt⟩ 0 * 1 ≤ h.val ∧ h.val < win0_4.index ⟨125 * h.val + 124, hlt⟩ 0 * 1 + 1
      rw [e0']; omega
    | ⟨1, _⟩ =>
      show win0_4.index ⟨125 * h.val + 124, hlt⟩ 1 * 15 ≤ b.val ∧ b.val < win0_4.index ⟨125 * h.val + 124, hlt⟩ 1 * 15 + 15
      rw [e1]; have := b.isLt; omega
    | ⟨2, _⟩ =>
      show win0_4.index ⟨125 * h.val + 124, hlt⟩ 2 * 100 ≤ k.val ∧ k.val < win0_4.index ⟨125 * h.val + 124, hlt⟩ 2 * 100 + 100
      rw [e2]; have := k.isLt; omega
  · show ∑ s ∈ Finset.range 125, shAcc m c b k (125 * h.val + s) = _
    rw [Finset.sum_range]
    exact Finset.sum_congr rfl fun i _ => tile_acc m c h i b k

end Cert.KernelIdeal.EceAcc

end
-- ==== Proof.KTail.lean ====
/-
  The host operations after the region, at the ideal values: the two halves are added, adjacent thresholds are
  differenced, and the result is the calibration error of the three differenced statistics.
-/
import proofs.«403413_j11424613007597_3_alg».proof.Proof.Gen.KernelIdeal.Frame
import proofs.«403413_j11424613007597_3_alg».proof.Proof.EceSpec
import Idealize.ShloMosaic.Lib.Pipeline.Value
import Idealize.ShloMosaic.Lib.IdealHost
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.EceTail

open Cert.KernelIdeal Cert.KernelIdeal.Gen Cert.Ece

variable (m : (ℓ : Loc nD τ sig) → Buf (Elt Ideal) ℓ)

/-- The sum of the two halves, from the zero word. -/
def hsum (A : S2x15x100.Idx → EReal) (b : Fin 15) (k : Fin 100) : EReal :=
  Ideal.ofBits .f32 0x00000000#32 + ∑ h : Fin 2, A (ValueIdx.ix3 h b k)

/-! ### The lines after the region as one function of the region's three arrays -/
/-- The shapes' contents at the ideal values. -/
abbrev T3 : Type := FVec Ideal S2x15x100 .f32
abbrev T2 : Type := FVec Ideal S15x100 .f32
abbrev T0 : Type := FVec Ideal S_ .f32

/-- The two halves added, as the program spells it: a sum over axis 0 from the zero word. -/
def red (A : T3) : T2 :=
  Host.reduceAdd (F := Ideal) A (constant (F := Ideal) S_ .f32 0x00000000#32) reducesTo_S2x15x100_S15x100_d0 h_S_

/-- The zero row put in front of a statistic before adjacent rows are subtracted. -/
def zrow : FVec Ideal S1x100 .f32 :=
  broadcastInDim S1x100 ![] bcast_S_S1x100 (constant (F := Ideal) S_ .f32 0x00000000#32)

/-- The zero row followed by the fifteen rows. -/
def cat (x : T2) : FVec Ideal S16x100 .f32 :=
  concatenate S16x100 0 [⟨S1x100, zrow⟩, ⟨S15x100, x⟩] concatenates_S1x100_S15x100_S16x100_d0

/-- Rows 1 to 15 of that less rows 0 to 14: each row less the one before, the first less zero. -/
def dff (x : T2) : T2 :=
  subf (F := Ideal) (extractStridedSlice S15x100 ![1, 0] (cat x) slices_S16x100_S15x100_1_0)
    (extractStridedSlice S15x100 ![0, 0] (cat x) slices_S16x100_S15x100_0_0)

/-- A word broadcast over the (bin, class) pairs. -/
def bc (w : BitVec 32) : T2 :=
  broadcastInDim S15x100 ![] bcast_S_S15x100 (constant (F := Ideal) S_ .f32 w)

/-- Each (bin, class) pair's share, as the program spells it. -/
def share (cnt conf acc : T2) : T2 :=
  select (cmpf (F := Ideal) .ogt cnt (bc 0x00000000#32))
    (mulf (F := Ideal)
      (Host.absf (F := Ideal) (subf (F := Ideal) (Host.divf (F := Ideal) conf (maximumf (F := Ideal) cnt (bc 0x3F800000#32)))
        (Host.divf (F := Ideal) acc (maximumf (F := Ideal) cnt (bc 0x3F800000#32)))))
      (Host.divf (F := Ideal) cnt (bc 0x48F42400#32)))
    (broadcastInDim S15x100 ![] bcast_S_S15x100 (id (constant (F := Ideal) S_ .f32 0x00000000#32)))

/-- The shares summed over the bins, then over the classes, divided by the word of 100. -/
def total (x : T2) : T0 :=
  Host.divf (F := Ideal)
    (Host.reduceAdd (F := Ideal)
      (Host.reduceAdd (F := Ideal) x (constant (F := Ideal) S_ .f32 0x00000000#32) reducesTo_S15x100_S100_d0 h_S_)
      (constant (F := Ideal) S_ .f32 0x00000000#32) reducesTo_S100_S_d0 h_S_)
    (constant (F := Ideal) S_ .f32 0x42C80000#32)

/-- The lines after the region as one function of the region's three arrays. -/
def tailFn (A2 A3 A4 : T3) : T0 :=
  total (share (dff (red A2)) (dff (red A3)) (dff (red A4)))

/-! ### Each stage read at an index -/

theorem red_apply (A : T3) (b : Fin 15) (k : Fin 100) : red A (ValueIdx.ix2 b k) = hsum A b k := by
  unfold red hsum
  simp only [Host.reduceAdd, Ideal.hostReduceAdd_def]
  rw [Ideal.hostReduceAdd_single reducesTo_S2x15x100_S15x100_d0 (by decide)]
  refine congrArg (_ + ·) (Finset.sum_congr rfl fun h _ => ?_)
  exact congrArg A (funext fun a => Fin.ext (by match a with | ⟨0, _⟩ => rfl | ⟨1, _⟩ => rfl | ⟨2, _⟩ => rfl))

theorem zrow_apply (j : S1x100.Idx) : zrow j = 0 := by
  unfold zrow
  rw [ValueIdx.broadcastInDim_scalar_apply bcast_S_S1x100 _ j]
  exact Ideal.ofBits_zero_f32

/-- Row `r + 1` of the zero row followed by the fifteen rows is row `r` of the fifteen. -/
theorem cat_succ (x : T2) (r : Fin 15) (k : Fin 100) :
    cat x (ValueIdx.ix2 (⟨r.val + 1, by omega⟩ : Fin 16) k) = x (ValueIdx.ix2 r k) := by
  unfold cat
  refine concatenate_pair_apply_right (0 : Fin 2) zrow x concatenates_S1x100_S15x100_S16x100_d0
    (ValueIdx.ix2 (⟨r.val + 1, by omega⟩ : Fin 16) k) rfl rfl (ValueIdx.ix2 r k) ?_ ?_
  · intro b hb
    match b with
    | ⟨0, _⟩ => exact absurd rfl hb
    | ⟨1, _⟩ => rfl
  · rfl

/-- Row `0` of it is the zero row. -/
theorem cat_zero (x : T2) (k : Fin 100) :
    cat x (ValueIdx.ix2 (⟨0, by omega⟩ : Fin 16) k) = 0 := by
  unfold cat
  refine (concatenate_pair_apply_left (0 : Fin 2) zrow x concatenates_S1x100_S15x100_S16x100_d0
    (ValueIdx.ix2 (⟨0, by omega⟩ : Fin 16) k) rfl (ValueIdx.ix2 (0 : Fin 1) k) ?_).trans (zrow_apply _)
  intro b
  match b with
  | ⟨0, _⟩ => rfl
  | ⟨1, _⟩ => rfl

theorem dff_apply (x : T2) (b : Fin 15) (k : Fin 100) :
    dff x (ValueIdx.ix2 b k) = dif (fun b c => x (ValueIdx.ix2 b c)) b k := by
  unfold dff dif
  rw [ValueIdx.subf_apply]
  have e1 : extractStridedSlice S15x100 ![1, 0] (cat x) slices_S16x100_S15x100_1_0 (ValueIdx.ix2 b k)
      = cat x (ValueIdx.ix2 (⟨b.val + 1, by omega⟩ : Fin 16) k) :=
    extractStridedSlice_apply _ _ _ _ _ (fun a => match a with
      | ⟨0, _⟩ => by show b.val + 1 = 1 + b.val; omega
      | ⟨1, _⟩ => by show k.val = 0 + k.val; omega)
  have e0 : extractStridedSlice S15x100 ![0, 0] (cat x) slices_S16x100_S15x100_0_0 (ValueIdx.ix2 b k)
      = cat x (ValueIdx.ix2 (⟨b.val, by omega⟩ : Fin 16) k) :=
    extractStridedSlice_apply _ _ _ _ _ (fun a => match a with
      | ⟨0, _⟩ => by show b.val = 0 + b.val; omega
      | ⟨1, _⟩ => by show k.val = 0 + k.val; omega)
  rw [e1, e0, cat_succ]
  refine congrArg (x (ValueIdx.ix2 b k) - ·) ?_
  by_cases h : b.val = 0
  · rw [dif_pos h]
    have : (⟨b.val, by omega⟩ : Fin 16) = ⟨0, by omega⟩ := Fin.ext h
    rw [this, cat_zero]
  · rw [dif_neg h]
    have : (⟨b.val, by omega⟩ : Fin 16) = ⟨(⟨b.val - 1, by omega⟩ : Fin 15).val + 1, by omega⟩ := Fin.ext (by show b.val = b.val - 1 + 1; omega)
    rw [this, cat_succ]

theorem dff_red_apply (A : T3) (b : Fin 15) (k : Fin 100) :
    dff (red A) (ValueIdx.ix2 b k) = dif (hsum A) b k := by
  rw [dff_apply]
  exact congrArg (fun f => dif f b k) (funext fun b' => funext fun c' => red_apply A b' c')

theorem bc_apply (w : BitVec 32) (j : S15x100.Idx) : bc w j = Ideal.ofBits .f32 w := by
  unfold bc
  exact ValueIdx.broadcastInDim_scalar_apply bcast_S_S15x100 _ j

theorem share_apply (cnt conf acc : T2) (j : S15x100.Idx) :
    share cnt conf acc j = perBin (cnt j) (conf j) (acc j) := by
  have hz : (broadcastInDim S15x100 ![] bcast_S_S15x100 (id (constant (F := Ideal) S_ .f32 0x00000000#32)) : T2) j
      = Ideal.ofBits .f32 0x00000000#32 := ValueIdx.broadcastInDim_scalar_apply bcast_S_S15x100 _ j
  unfold share perBin
  rw [ValueIdx.select_apply, hz, ValueIdx.cmpf_apply, ValueIdx.mulf_apply, ValueIdx.hostDivf_apply, bc_apply, bc_apply]
  show Scalar.select _ (max (Ideal.div (conf j) (max (cnt j) (bc 0x3F800000#32 j)) - Ideal.div (acc j) (max (cnt j) (bc 0x3F800000#32 j)))
      (-(Ideal.div (conf j) (max (cnt j) (bc 0x3F800000#32 j)) - Ideal.div (acc j) (max (cnt j) (bc 0x3F800000#32 j)))) * _) _ = _
  rw [bc_apply]
  rfl

/-- The classes as the indices of a one-axis array. -/
def classEquiv : Fin 100 ≃ S100.Idx where
  toFun c := ValueIdx.ix1 c
  invFun j := j 0
  left_inv _ := rfl
  right_inv j := (ValueIdx.eq_ix1 j).symm

theorem total_apply (x : T2) (i : S_.Idx) :
    total x i = Ideal.div (Ideal.ofBits .f32 0x00000000#32 + ∑ c : Fin 100,
      (Ideal.ofBits .f32 0x00000000#32 + ∑ b : Fin 15, x (ValueIdx.ix2 b c))) (Ideal.ofBits .f32 0x42C80000#32) := by
  unfold total
  rw [ValueIdx.hostDivf_apply]
  refine congrArg (fun t => Ideal.div t (Ideal.ofBits .f32 0x42C80000#32)) ?_
  simp only [Host.reduceAdd, Ideal.hostReduceAdd_def]
  rw [Ideal.hostReduceAdd_total reducesTo_S100_S_d0 (fun b => b.elim0)]
  refine congrArg (Ideal.ofBits .f32 0x00000000#32 + ·) ?_
  refine (Fintype.sum_equiv classEquiv _ _ fun c => ?_).symm
  show _ = Ideal.hostReduceAdd reducesTo_S15x100_S100_d0 x _ (ValueIdx.ix1 c)
  rw [Ideal.hostReduceAdd_single reducesTo_S15x100_S100_d0 (by decide)]
  refine congrArg (Ideal.ofBits .f32 0x00000000#32 + ·) (Finset.sum_congr rfl fun b _ => ?_)
  exact congrArg x (funext fun a => Fin.ext (by match a with | ⟨0, _⟩ => rfl | ⟨1, _⟩ => rfl))

/-- The lines after the region, at the ideal values, compute the calibration error of the differenced sums. -/
theorem tailFn_eq (A2 A3 A4 : T3) :
    tailFn A2 A3 A4 = fun _ => ece (dif (hsum A2)) (dif (hsum A3)) (dif (hsum A4)) := by
  funext i
  unfold tailFn ece
  rw [total_apply]
  refine congrArg (fun t => Ideal.div (Ideal.ofBits .f32 0x00000000#32 + t) (Ideal.ofBits .f32 0x42C80000#32))
    (Finset.sum_congr rfl fun c _ => congrArg (Ideal.ofBits .f32 0x00000000#32 + ·) (Finset.sum_congr rfl fun b _ => ?_))
  rw [share_apply, dff_red_apply, dff_red_apply, dff_red_apply]

/-! ### The program's lines compute that function -/

/-- The contents after two stretches of lines are the second stretch's after the first's. -/
theorem after_append (l1 l2 : List (HloOp τ sig (Elt Ideal))) (V : Valuation τ sig (Elt Ideal)) :
    StableHlo.after (l1 ++ l2) V = StableHlo.after l2 (StableHlo.after l1 V) := by
  induction l1 generalizing V with
  | nil => rfl
  | cons op ops ih => simp only [List.cons_append, StableHlo.after_cons, ih]

set_option backward.isDefEq.respectTransparency.types false in
set_option maxHeartbeats 1000000 in
/-- The result buffer after the lines that follow the region, from the region's three result arrays. -/
theorem tail_eq (c : Dev nD) :
    Pipeline.afterTail₀ cfgs (dats (F := Ideal) m) 0 (V0 m)
        [hostOps1, hostOps1_1, hostOps1_2, hostOps1_3, hostOps1_4, hostOps1_5, hostOps1_6] c main_v23
      = fun _ => ece (dif (hsum ((dats (F := Ideal) m 0 c).arrAt 2 cfg0.N)))
          (dif (hsum ((dats (F := Ideal) m 0 c).arrAt 3 cfg0.N)))
          (dif (hsum ((dats (F := Ideal) m 0 c).arrAt 4 cfg0.N))) := by
  unfold Pipeline.afterTail₀
  show StableHlo.after (List.flatten [hostOps1, hostOps1_1, hostOps1_2, hostOps1_3, hostOps1_4, hostOps1_5, hostOps1_6]) _ (Proc.devRef .tc main_v23) = _
  simp only [List.flatten_cons, List.flatten_nil, List.append_nil]
  simp only [after_append]
  -- the region's three arrays, read where the lines read them
  have hA2 : (Pipeline.withArrays (cfgs 0).spec c (V0 m c) fun w => (dats (F := Ideal) m 0 c).arrAt w (cfgs 0).N) (Proc.devRef .tc main_v1_0)
      = (dats (F := Ideal) m 0 c).arrAt 2 cfg0.N := Pipeline.withArrays_arr spec0 launch0.win.arr_inj c _ _ 2
  have hA3 : (Pipeline.withArrays (cfgs 0).spec c (V0 m c) fun w => (dats (F := Ideal) m 0 c).arrAt w (cfgs 0).N) (Proc.devRef .tc main_v1_1)
      = (dats (F := Ideal) m 0 c).arrAt 3 cfg0.N := Pipeline.withArrays_arr spec0 launch0.win.arr_inj c _ _ 3
  have hA4 : (Pipeline.withArrays (cfgs 0).spec c (V0 m c) fun w => (dats (F := Ideal) m 0 c).arrAt w (cfgs 0).N) (Proc.devRef .tc main_v1_2)
      = (dats (F := Ideal) m 0 c).arrAt 4 cfg0.N := Pipeline.withArrays_arr spec0 launch0.win.arr_inj c _ _ 4
  generalize (Pipeline.withArrays (cfgs 0).spec c (V0 m c) fun w => (dats (F := Ideal) m 0 c).arrAt w (cfgs 0).N) = W at hA2 hA3 hA4 ⊢
  generalize (dats (F := Ideal) m 0 c).arrAt 2 cfg0.N = A2 at hA2 ⊢
  generalize (dats (F := Ideal) m 0 c).arrAt 3 cfg0.N = A3 at hA3 ⊢
  generalize (dats (F := Ideal) m 0 c).arrAt 4 cfg0.N = A4 at hA4 ⊢
  -- the first stretch: the halves added, and the zero row
  have h12 : StableHlo.after hostOps1 W (Proc.devRef .tc main_v2) = red A2 := by
    after_results; rw [hA2]; rfl
  have h13 : StableHlo.after hostOps1 W (Proc.devRef .tc main_v3) = red A3 := by
    after_results; rw [hA3]; rfl
  have h14 : StableHlo.after hostOps1 W (Proc.devRef .tc main_v4) = red A4 := by
    after_results; rw [hA4]; rfl
  have h15 : StableHlo.after hostOps1 W (Proc.devRef .tc main_v5) = zrow := by
    after_results; rfl
  generalize StableHlo.after hostOps1 W = W1 at h12 h13 h14 h15 ⊢
  clear hA2 hA3 hA4 W
  -- the first difference
  have h26 : StableHlo.after hostOps1_1 W1 (Proc.devRef .tc main_v6) = dff (red A2) := by
    after_results; rw [h12, h15]; rfl
  have h23 : StableHlo.after hostOps1_1 W1 (Proc.devRef .tc main_v3) = red A3 := by
    after_results; exact h13
  have h24 : StableHlo.after hostOps1_1 W1 (Proc.devRef .tc main_v4) = red A4 := by
    after_results; exact h14
  have h25 : StableHlo.after hostOps1_1 W1 (Proc.devRef .tc main_v5) = zrow := by
    after_results; exact h15
  generalize StableHlo.after hostOps1_1 W1 = W2 at h26 h23 h24 h25 ⊢
  clear h12 h13 h14 h15 W1
  -- the second
  have h37 : StableHlo.after hostOps1_2 W2 (Proc.devRef .tc main_v7) = dff (red A3) := by
    after_results; rw [h23, h25]; rfl
  have h36 : StableHlo.after hostOps1_2 W2 (Proc.devRef .tc main_v6) = dff (red A2) := by
    after_results; exact h26
  have h34 : StableHlo.after hostOps1_2 W2 (Proc.devRef .tc main_v4) = red A4 := by
    after_results; exact h24
  have h35 : StableHlo.after hostOps1_2 W2 (Proc.devRef .tc main_v5) = zrow := by
    after_results; exact h25
  generalize StableHlo.after hostOps1_2 W2 = W3 at h37 h36 h34 h35 ⊢
  clear h26 h23 h24 h25 W2
  -- the third
  have h48 : StableHlo.after hostOps1_3 W3 (Proc.devRef .tc main_v8) = dff (red A4) := by
    after_results; rw [h34, h35]; rfl
  have h46 : StableHlo.after hostOps1_3 W3 (Proc.devRef .tc main_v6) = dff (red A2) := by
    after_results; exact h36
  have h47 : StableHlo.after hostOps1_3 W3 (Proc.devRef .tc main_v7) = dff (red A3) := by
    after_results; exact h37
  generalize StableHlo.after hostOps1_3 W3 = W4 at h48 h46 h47 ⊢
  clear h37 h36 h34 h35 W3
  -- the shares, their two sums and the division
  after_results_simp
  simp only [cast_eq]
  rw [h46, h47, h48]
  exact tailFn_eq A2 A3 A4

end Cert.KernelIdeal.EceTail

end
-- ==== Proof.EceReindex.lean ====
/-
  A sum over the 500000 rows, taken half by half, tile by tile, row by row; and a sum over the flattened (row, class) pairs.

  Both are changes of the summation variable along a bijection given by quotient and remainder:
  a row number `n < 500000` is `250000 h + 2000 i + r` for exactly one `(h, i, r)` with `h < 2`, `i < 125`, `r < 2000`
  (`h = n / 250000`, `i = n % 250000 / 2000`, `r = n % 2000`), and a flat position `j < 50000000` is `100 n + k` for exactly one
  `(n, k)` with `n < 500000`, `k < 100` (`n = j / 100`, `k = j % 100`).  A sum over a product of index types is the iterated sum.
-/
import proofs.«403413_j11424613007597_3_alg».proof.Proof.EceSpec

noncomputable section

namespace Cert.Ece

/-- The (row, class) pairs and the flattened positions correspond: quotient and remainder by `100` undo `100 n + k`. -/
def flatEquiv : Fin 500000 × Fin 100 ≃ Fin 50000000 where
  toFun p := flatIdx p.1 p.2
  invFun j := (⟨j.val / 100, by have := j.isLt; omega⟩, ⟨j.val % 100, by omega⟩)
  left_inv p := by
    obtain ⟨n, k⟩ := p
    have hn := n.isLt
    have hk := k.isLt
    apply Prod.ext <;> apply Fin.ext <;> simp only [flatIdx] <;> omega
  right_inv j := by
    apply Fin.ext
    simp only [flatIdx]
    omega

/-- The (half, tile, row) triples and the row numbers correspond: `n = 250000 (n / 250000) + 2000 (n % 250000 / 2000) + n % 2000`. -/
def rowEquiv : Fin 2 × Fin 125 × Fin 2000 ≃ Fin 500000 where
  toFun p := rowIdx p.1 p.2.1 p.2.2
  invFun n := (⟨n.val / 250000, by have := n.isLt; omega⟩,
               ⟨n.val % 250000 / 2000, by have := n.isLt; omega⟩,
               ⟨n.val % 2000, by omega⟩)
  left_inv p := by
    obtain ⟨h, i, r⟩ := p
    have hh := h.isLt
    have hi := i.isLt
    have hr := r.isLt
    refine Prod.ext (Fin.ext ?_) (Prod.ext (Fin.ext ?_) (Fin.ext ?_)) <;> simp only [rowIdx] <;> omega
  right_inv n := by
    apply Fin.ext
    simp only [rowIdx]
    omega

theorem sum_rows_split (f : Fin 500000 → EReal) :
    ∑ n : Fin 500000, f n = ∑ h : Fin 2, ∑ i : Fin 125, ∑ r : Fin 2000, f (rowIdx h i r) := by
  -- change the variable along the bijection, then split the sum over the triples into the three nested sums
  have e := Fintype.sum_equiv rowEquiv (fun p => f (rowIdx p.1 p.2.1 p.2.2)) f (fun _ => rfl)
  rw [← e, Fintype.sum_prod_type]
  refine Finset.sum_congr rfl fun h _ => ?_
  rw [Fintype.sum_prod_type]

theorem sum_flat_split (g : Fin 50000000 → EReal) :
    ∑ j : Fin 50000000, g j = ∑ n : Fin 500000, ∑ k : Fin 100, g (flatIdx n k) := by
  -- change the variable along the bijection, then split the sum over the pairs into the two nested sums
  have e := Fintype.sum_equiv flatEquiv (fun p => g (flatIdx p.1 p.2)) g (fun _ => rfl)
  rw [← e, Fintype.sum_prod_type]

end Cert.Ece

end
-- ==== Proof.KernelValue.lean ====
/-
  The idealized kernel's run, read: its result is the calibration error of the differenced cumulative statistics of
  the argument arrays, which end unchanged.  The region's three result arrays hold, per half, the sums over the half's
  tiles; the lines after the region add the two halves, and half by half, tile by tile, row by row is every row once.
-/
import proofs.«403413_j11424613007597_3_alg».proof.Proof.Gen.KernelIdeal.Frame
import proofs.«403413_j11424613007597_3_alg».proof.Proof.EceSpec
import proofs.«403413_j11424613007597_3_alg».proof.Proof.KAcc
import proofs.«403413_j11424613007597_3_alg».proof.Proof.KTail
import proofs.«403413_j11424613007597_3_alg».proof.Proof.EceReindex
import Idealize.ShloMosaic.PureOps.Ideal.Laws
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.EceValue

open Cert.KernelIdeal Cert.KernelIdeal.Gen Cert.Ece Cert.KernelIdeal.EceAcc Cert.KernelIdeal.EceTail

variable (m : (ℓ : Loc nD τ sig) → Buf (Elt Ideal) ℓ) (ρ : Dev nD → PrngReg)

/-- What the kernel's program returns, as a function of the memory's argument arrays. -/
def result (c : Dev nD) : Buf (Elt Ideal) ((c.tc : Thread nD τ).loc main_v23) :=
  fun _ => ece (dif (cumCnt (X m c))) (dif (cumConf (X m c))) (dif (cumAcc (X m c) (L m c)))

/-- The two halves of the count array, added, are the cumulative counts over all rows. -/
theorem hsum_cnt (c : Dev nD) : hsum ((dats (F := Ideal) m 0 c).arrAt 2 cfg0.N) = cumCnt (X m c) := by
  funext b k
  unfold hsum cumCnt
  rw [Ideal.ofBits_zero_f32, zero_add, sum_rows_split]
  exact Finset.sum_congr rfl fun h _ => final_cnt m c h b k

/-- The same for the sums of probabilities, -/
theorem hsum_conf (c : Dev nD) : hsum ((dats (F := Ideal) m 0 c).arrAt 3 cfg0.N) = cumConf (X m c) := by
  funext b k
  unfold hsum cumConf
  rw [Ideal.ofBits_zero_f32, zero_add, sum_rows_split]
  exact Finset.sum_congr rfl fun h _ => final_conf m c h b k

/-- and for the counts of label hits. -/
theorem hsum_acc (c : Dev nD) : hsum ((dats (F := Ideal) m 0 c).arrAt 4 cfg0.N) = cumAcc (X m c) (L m c) := by
  funext b k
  unfold hsum cumAcc
  rw [Ideal.ofBits_zero_f32, zero_add, sum_rows_split]
  exact Finset.sum_congr rfl fun h _ => final_acc m c h b k

/-- Every weakly fair execution of the idealized kernel's program terminates with the result buffer at `result` and the
    two argument arrays as they were. -/
theorem run : θ_run defs (onTc (τ := τ) (main (F := Ideal))) ⟨m, fun _ => 0, ρ⟩ fun r => ∀ c : Dev nD,
      r.2.mem ((c.tc : Thread nD τ).loc main_v23) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v23 (Pipeline.mem_restRefs_of main_v23 (by decide) (by decide))).trans
          ((tail_eq m c).trans (by unfold result; rw [hsum_cnt, hsum_conf, hsum_acc])),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Cert.KernelIdeal.EceValue

end
-- ==== Proof.RefStages.lean ====
/-
  The reference's stages read at an index, at the ideal values: the probabilities are the shifted softmax of the row,
  the segment word of a flattened (row, class) pair is `15 · class + bin`, the flattened confidences and label hits.
-/
import proofs.«403413_j11424613007597_3_alg».proof.Proof.RefReadP
import proofs.«403413_j11424613007597_3_alg».proof.Proof.EceSpec

noncomputable section

namespace Cert.ReferenceIdeal.EceRef

open Cert.ReferenceIdeal Cert.ReferenceIdeal.Gen Cert.ReferenceIdeal.ReadP Cert.Ece Idealize.ShloMosaic

variable (x0 : (⟨S500000x100, .f32⟩ : BufTy).Contents (Elt Ideal)) (x1 : (⟨S500000, .i32⟩ : BufTy).Contents (Elt Ideal))

/-- The row maximum: the fold of `max` over the hundred classes, started from `-∞`. -/
theorem rowmax_apply (n : Fin 500000) :
    val_main_v0 (F := Ideal) x0 (ValueIdx.ix1 n) = rowMax (rowsOf x0 n) := by
  unfold val_main_v0
  refine (Host.reduce_eq_fold_single (FloatOps.maximumf (F := Ideal) (φ := .f32)) x0 _ reducesTo_S500000x100_S500000_d1 (by decide) h_S_ _).trans ?_
  have hbot : val_main_cst (F := Ideal) (Shape.Idx.first h_S_) = (⊥ : EReal) := by
    rw [val_main_cst_apply]; simp [Ideal.ofBits, Ideal.ieee]
  rw [hbot]
  unfold rowMax rowsOf
  refine congrArg (fun f => Finset.fold max (⊥ : EReal) f (Finset.univ : Finset (Fin 100))) (funext fun k => ?_)
  exact congrArg x0 (funext fun a => Fin.ext (by match a with | ⟨0, _⟩ => rfl | ⟨1, _⟩ => rfl))

/-- Taking the maximum with `-∞` once more changes nothing. -/
theorem shift_apply (n : Fin 500000) :
    val_main_v2 (F := Ideal) x0 (ValueIdx.ix1 n) = rowMax (rowsOf x0 n) := by
  rw [val_main_v2_apply, val_main_v1_apply, val_main_cst_0_apply, rowmax_apply]
  have hbot : FloatOps.ofBits (F := Ideal) .f32 0xFF800000#32 = (⊥ : EReal) := by
    simp [Ideal.ofBits, Ideal.ieee]
  rw [hbot]
  exact max_eq_right bot_le

/-- The exponential of the shifted logit. -/
theorem exp_apply (n : Fin 500000) (k : Fin 100) :
    val_main_v6 (F := Ideal) x0 (ValueIdx.ix2 n k) = Ideal.exp (rowsOf x0 n k - rowMax (rowsOf x0 n)) := by
  have hi : idx_main_v3 (idx_main_v4 (ValueIdx.ix2 n k)) = ValueIdx.ix1 n :=
    funext fun a => Fin.ext (by match a with | ⟨0, _⟩ => rfl)
  rw [val_main_v6_apply, val_main_v5_apply, val_main_v4_apply, val_main_v3_apply, hi, shift_apply]
  rfl

/-- The row's sum of exponentials (the sum starts from the zero word). -/
theorem sum_apply (n : Fin 500000) :
    val_main_v7 (F := Ideal) x0 (ValueIdx.ix1 n) = ∑ k : Fin 100, Ideal.exp (rowsOf x0 n k - rowMax (rowsOf x0 n)) := by
  rw [val_main_v7_apply, val_main_cst_1_apply]
  have hz : FloatOps.ofBits (F := Ideal) .f32 0x00000000#32 = (0 : EReal) := Ideal.ofBits_zero_f32
  rw [hz, zero_add]
  refine Finset.sum_congr rfl fun k _ => ?_
  have hi : idx_main_v7 (ValueIdx.ix1 n) k = ValueIdx.ix2 n k :=
    funext fun a => Fin.ext (by match a with | ⟨0, _⟩ => rfl | ⟨1, _⟩ => rfl)
  rw [hi, exp_apply]

/-- The softmax stage at (row, class). -/
theorem prob_apply (n : Fin 500000) (k : Fin 100) :
    val_main_v10 (F := Ideal) x0 (ValueIdx.ix2 n k) = soft (rowsOf x0 n) k := by
  have hi : idx_main_v8 (idx_main_v9 (ValueIdx.ix2 n k)) = ValueIdx.ix1 n :=
    funext fun a => Fin.ext (by match a with | ⟨0, _⟩ => rfl)
  rw [val_main_v10_apply, val_main_v9_apply, val_main_v8_apply, hi, sum_apply, exp_apply]
  rfl

/-- The flattened position `100 n + k` reads back as the pair `(n, k)`. -/
theorem unflat (n : Fin 500000) (k : Fin 100) :
    idx_main_v25 (ValueIdx.ix1 (flatIdx n k)) = ValueIdx.ix2 n k := by
  have hn := n.isLt
  have hk := k.isLt
  funext a
  apply Fin.ext
  match a with
  | ⟨0, _⟩ => show (100 * n.val + k.val) / 100 = n.val; omega
  | ⟨1, _⟩ => show (100 * n.val + k.val) % 100 = k.val; omega

/-- The flattened confidences. -/
theorem conf_apply (n : Fin 500000) (k : Fin 100) :
    val_main_v25 (F := Ideal) x0 (ValueIdx.ix1 (flatIdx n k)) = soft (rowsOf x0 n) k := by
  rw [val_main_v25_apply, unflat, prob_apply]

/-- The flattened label hits. -/
theorem hit_apply (n : Fin 500000) (k : Fin 100) :
    val_main_v33 (F := Ideal) x1 (ValueIdx.ix1 (flatIdx n k)) = hit (labsOf x1 n) k := by
  have hi : idx_main_v33 (ValueIdx.ix1 (flatIdx n k)) = ValueIdx.ix2 n k := unflat n k
  have hl : idx_main_v26 (idx_main_v29 (ValueIdx.ix2 n k)) = ValueIdx.ix1 n :=
    funext fun a => Fin.ext (by match a with | ⟨0, _⟩ => rfl)
  rw [val_main_v33_apply, hi, val_main_v32_apply, val_main_v31_apply, val_main_v29_apply, val_main_v26_apply, hl,
    val_main_v30_apply, val_main_v28_apply, val_main_v27_apply]
  show FloatOps.uitofp (F := Ideal) .f32 (IntOp.cmpi .eq (x1 (ValueIdx.ix1 n)) (BitVec.ofNat 32 k.val)) = _
  unfold hit labsOf
  by_cases h : x1 (ValueIdx.ix1 n) = BitVec.ofNat 32 k.val
  · rw [if_pos h, h]
    show (((IntOp.cmpi .eq (BitVec.ofNat 32 k.val) (BitVec.ofNat 32 k.val)).toNat : ℝ) : EReal) = 1
    simp [IntOp.cmpi]
  · rw [if_neg h]
    show (((IntOp.cmpi .eq (x1 (ValueIdx.ix1 n)) (BitVec.ofNat 32 k.val)).toNat : ℝ) : EReal) = 0
    simp [IntOp.cmpi, h]

/-- The flattened ones. -/
theorem ones_apply (j : Fin 50000000) : val_main_v34 (F := Ideal) (ValueIdx.ix1 j) = 1 := by
  rw [val_main_v34_apply, val_main_cst_6_apply]
  show Ideal.ofBits .f32 0x3F800000#32 = 1
  simp [Ideal.ofBits, Ideal.ieee]
  rw [← EReal.coe_mul]
  norm_num

/-- The segment word of a flattened (row, class) pair, as the scatter reads it. -/
theorem seg_apply (n : Fin 500000) (k : Fin 100) :
    val_main_v36 (F := Ideal) x0 (ValueIdx.ix2 (flatIdx n k) (0 : Fin 1))
      = IntOp.addi (IntOp.muli (BitVec.ofNat 32 k.val) 15#32) (binWord (soft (rowsOf x0 n) k)) := by
  have hi : idx_main_v24 (idx_main_v36 (ValueIdx.ix2 (flatIdx n k) (0 : Fin 1))) = ValueIdx.ix2 n k := unflat n k
  rw [val_main_v36_apply, val_main_v24_apply, hi, val_main_v23_apply, val_main_v22_apply, val_main_v21_apply,
    val_main_v19_apply, val_main_v18_apply, val_main_v20_apply, val_main_c_5_apply, val_main_v17_apply,
    val_main_call0_v4_apply, val_main_call0_v3_apply, val_main_c_4_apply, val_main_call0_v2_apply,
    val_main_call0_v1_apply, val_main_call0_v0_apply, val_main_c_3_apply, val_main_v16_apply, val_main_v14_apply,
    val_main_v13_apply, val_main_v12_apply, prob_apply, val_main_v11_apply, val_main_cst_2_apply, val_main_v15_apply,
    val_main_c_apply]
  rfl

end Cert.ReferenceIdeal.EceRef

end
-- ==== Proof.LibScatter1D.lean ====
/-
  A general lemma: the host's accumulating float scatter into a rank-one operand, with one index word per update
  (update `j` lands on element `idx[j, 0]`, read signed), read at an element of the operand at the ideal values:
  the operand's element plus the sum of the updates whose index word is that element's position.
-/
import Idealize.ShloMosaic.PureOps.Ideal
import Idealize.ShloMosaic.Lib.ValueIdx

noncomputable section

namespace Idealize.ShloMosaic.Ideal

open Idealize.ShloMosaic

/-- With one scatter axis mapped to the operand's only axis, the window of update `j` starts at the index
    word `idx[j, 0]` read signed. -/
theorem start_rank1 {N U w : Nat}
    (d : ScatterDims (⟨1, ![N]⟩ : Shape) (⟨2, ![U, 1]⟩ : Shape) (⟨1, ![U]⟩ : Shape))
    (h1 : d.updateWindowDims = []) (h2 : d.insertedWindowDims = [0]) (h3 : d.scatterDimsToOperandDims = [0])
    (h4 : d.indexVectorDim = 1)
    (idx : IVec (⟨2, ![U, 1]⟩ : Shape) w) (j : (⟨1, ![U]⟩ : Shape).Idx) (a : Fin 1) :
    d.start j idx a = (idx (ValueIdx.ix2 (j 0) (0 : Fin 1))).toInt := by
  obtain ⟨uwd, iwd, sdto, ivd, wf⟩ := d
  simp only at h1 h2 h3 h4
  subst h1 h2 h3 h4
  have ha0 : a = 0 := Subsingleton.elim _ _
  subst ha0
  unfold ScatterDims.start
  rw [dif_pos (List.mem_singleton.2 rfl)]
  congr 2
  funext b
  match b with
  | ⟨0, hb⟩ =>
    unfold ScatterDims.siIdx
    rw [dif_neg Nat.zero_ne_one]
    apply Fin.ext
    unfold ScatterDims.siCoord
    show (j _).val = (j 0).val
    exact congrArg (fun y => (j y).val) (Subsingleton.elim (α := Fin 1) _ _)
  | ⟨1, hb⟩ =>
    unfold ScatterDims.siIdx
    rw [dif_pos rfl]
    apply Fin.ext
    show List.idxOf (0 : Fin 1) [0] = 0
    rfl

/-- The operand's only axis is an inserted one: the window coordinate on it is zero. -/
theorem window_rank1 {N U : Nat}
    (d : ScatterDims (⟨1, ![N]⟩ : Shape) (⟨2, ![U, 1]⟩ : Shape) (⟨1, ![U]⟩ : Shape))
    (h2 : d.insertedWindowDims = [0])
    (j : (⟨1, ![U]⟩ : Shape).Idx) (a : Fin 1) :
    d.window j a = 0 := by
  unfold ScatterDims.window
  rw [dif_neg]
  have ha0 : a = 0 := Subsingleton.elim _ _
  subst ha0
  unfold ScatterDims.sKept Shape.kept
  rw [h2]
  intro h
  have h' := (List.mem_filter.1 h).2
  simp at h'

/-- Update `j` lands on element `i` of the operand exactly when its index word, read signed, is `i`
    (an index word outside `[0, N)` lands nowhere). -/
theorem resultIdx?_rank1 {N U w : Nat}
    (d : ScatterDims (⟨1, ![N]⟩ : Shape) (⟨2, ![U, 1]⟩ : Shape) (⟨1, ![U]⟩ : Shape))
    (h1 : d.updateWindowDims = []) (h2 : d.insertedWindowDims = [0]) (h3 : d.scatterDimsToOperandDims = [0])
    (h4 : d.indexVectorDim = 1)
    (idx : IVec (⟨2, ![U, 1]⟩ : Shape) w) (j : (⟨1, ![U]⟩ : Shape).Idx) (i : Fin N) :
    d.resultIdx? j idx = some (ValueIdx.ix1 i) ↔ (idx (ValueIdx.ix2 (j 0) (0 : Fin 1))).toInt = (i.val : ℤ) := by
  have hs : ∀ a : Fin 1, d.start j idx a = (idx (ValueIdx.ix2 (j 0) (0 : Fin 1))).toInt :=
    start_rank1 d h1 h2 h3 h4 idx j
  have hw : ∀ a : Fin 1, d.window j a = 0 := window_rank1 d h2 j
  unfold ScatterDims.resultIdx?
  by_cases h : ∀ a : Fin 1, 0 ≤ d.start j idx a + d.window j a
      ∧ d.start j idx a + d.window j a < (⟨1, ![N]⟩ : Shape).size a
  · rw [dif_pos h]
    constructor
    · intro he
      have h0 := congrArg Fin.val (congrFun (Option.some.inj he) (0 : Fin 1))
      have hn := (h 0).1
      rw [hs 0, hw 0] at hn
      change (d.start j idx 0 + (d.window j 0 : ℤ)).toNat = i.val at h0
      rw [hs 0, hw 0] at h0
      omega
    · intro he
      congr 1
      funext a
      have ha0 : a = 0 := Subsingleton.elim (α := Fin 1) _ _
      subst ha0
      apply Fin.ext
      show (d.start j idx 0 + (d.window j 0 : ℤ)).toNat = i.val
      rw [hs 0, hw 0, he]
      simp
  · rw [dif_neg h]
    constructor
    · intro he; cases he
    · intro he
      exfalso
      apply h
      intro a
      have ha0 : a = 0 := Subsingleton.elim (α := Fin 1) _ _
      subst ha0
      rw [hs 0, hw 0, he]
      have hi : i.val < N := i.isLt
      constructor
      · simp
      · show (i.val : ℤ) + ((0 : ℕ) : ℤ) < (N : ℤ)
        omega

/-- `segment_sum`'s scatter read at segment `i`. -/
theorem hostScatterAdd_rank1_apply {N U w : Nat}
    (d : ScatterDims (⟨1, ![N]⟩ : Shape) (⟨2, ![U, 1]⟩ : Shape) (⟨1, ![U]⟩ : Shape))
    (h1 : d.updateWindowDims = []) (h2 : d.insertedWindowDims = [0]) (h3 : d.scatterDimsToOperandDims = [0])
    (h4 : d.indexVectorDim = 1)
    (x : (⟨1, ![N]⟩ : Shape).Idx → EReal) (idx : IVec (⟨2, ![U, 1]⟩ : Shape) w) (upd : (⟨1, ![U]⟩ : Shape).Idx → EReal)
    (i : Fin N) :
    Ideal.hostScatterAdd d x idx upd (ValueIdx.ix1 i)
      = x (ValueIdx.ix1 i)
        + ∑ j : Fin U, if (idx (ValueIdx.ix2 j (0 : Fin 1))).toInt = (i.val : ℤ) then upd (ValueIdx.ix1 j) else 0 := by
  unfold Ideal.hostScatterAdd
  congr 1
  rw [Finset.sum_filter]
  -- the updates' indices are the `ix1 j`, `j : Fin U`
  let e : (⟨1, ![U]⟩ : Shape).Idx ≃ Fin U :=
    { toFun := fun j => j 0, invFun := ValueIdx.ix1,
      left_inv := fun j => (ValueIdx.eq_ix1 j).symm, right_inv := fun _ => rfl }
  refine Fintype.sum_equiv e _ _ (fun j => ?_)
  show _ = if (idx (ValueIdx.ix2 (j 0) (0 : Fin 1))).toInt = (i.val : ℤ) then upd (ValueIdx.ix1 (j 0)) else 0
  exact if_congr (resultIdx?_rank1 d h1 h2 h3 h4 idx j i) (congrArg upd (ValueIdx.eq_ix1 j)) rfl

end Idealize.ShloMosaic.Ideal

end
-- ==== Proof.EceMathBin.lean ====
/-
  The softmax of a row of real numbers is a real number in (0, 1]; the bin word is always one of 0, …, 14, and for a
  probability in (0, 1] it is `b` exactly when `b/15 < p ≤ (b+1)/15`.
-/
import proofs.«403413_j11424613007597_3_alg».proof.Proof.EceSpec

noncomputable section

namespace Cert.Ece

open Idealize.ShloMosaic

/-! ### Folds and sums of reals inside the extended reals -/

/-- The fold of `max` from `-∞` over a nonempty family of reals is a real: `max` of a real and `-∞` is the real,
    and `max` of two reals is a real. -/
theorem fold_max_real {ι : Type*} [DecidableEq ι] (f : ι → ℝ) (s : Finset ι) :
    s.Nonempty → ∃ M : ℝ, s.fold max ⊥ (fun k => (f k : EReal)) = (M : EReal) := by
  induction s using Finset.induction_on with
  | empty => intro h; exact absurd h Finset.not_nonempty_empty
  | insert a s ha ih =>
    intro _
    rw [Finset.fold_insert ha]
    rcases s.eq_empty_or_nonempty with hs | hs
    · subst hs
      exact ⟨f a, by simp⟩
    · obtain ⟨M, hM⟩ := ih hs
      exact ⟨max (f a) M, by rw [hM]; exact (EReal.coe_strictMono.monotone.map_max).symm⟩

/-- A finite sum of reals, taken in the extended reals, is the real sum. -/
theorem coe_sum_real {ι : Type*} [DecidableEq ι] (g : ι → ℝ) (s : Finset ι) :
    (∑ k ∈ s, (g k : EReal)) = ((∑ k ∈ s, g k : ℝ) : EReal) := by
  induction s using Finset.induction_on with
  | empty => simp
  | insert a s ha ih => rw [Finset.sum_insert ha, Finset.sum_insert ha, ih, EReal.coe_add]

/-! ### Signed values of the clip's words -/

/-- The signed maximum of two words has the greater of their signed values. -/
theorem toInt_maxsi {w : Nat} (x y : BitVec w) : (IntOp.maxsi x y).toInt = max x.toInt y.toInt := by
  unfold IntOp.maxsi
  by_cases h : y.slt x
  · rw [if_pos h]; rw [BitVec.slt_iff_toInt_lt] at h; omega
  · rw [if_neg h]; rw [BitVec.slt_iff_toInt_lt] at h; omega

/-- The signed minimum of two words has the lesser of their signed values. -/
theorem toInt_minsi {w : Nat} (x y : BitVec w) : (IntOp.minsi x y).toInt = min x.toInt y.toInt := by
  unfold IntOp.minsi
  by_cases h : x.slt y
  · rw [if_pos h]; rw [BitVec.slt_iff_toInt_lt] at h; omega
  · rw [if_neg h]; rw [BitVec.slt_iff_toInt_lt] at h; omega

theorem toInt_zero32 : (0#32 : BitVec 32).toInt = 0 := by decide
theorem toInt_fourteen32 : (14#32 : BitVec 32).toInt = 14 := by decide

/-- The pattern `0x41700000` is the float `15.0`: exponent field 130, fraction `0.875`, so `1.875 · 2³ = 15`. -/
theorem ofBits_fifteen : Ideal.ofBits .f32 0x41700000#32 = ((15 : ℝ) : EReal) := by
  simp [Ideal.ofBits, Ideal.ieee, -EReal.coe_mul]; norm_num

/-- The conversion to a 32-bit word of an integer from 1 to 15: truncation leaves an integer alone and the clamp to
    the 32-bit range does nothing. -/
theorem fptosi_small (k : ℤ) (hk1 : 1 ≤ k) (hk15 : k ≤ 15) :
    Ideal.fptosi 32 (((k : ℤ) : ℝ) : EReal) = BitVec.ofInt 32 k := by
  rw [Ideal.fptosi, Ideal.toIntClamped_coe, if_pos (by exact_mod_cast (by omega : (0 : ℤ) ≤ k)), Int.floor_intCast]
  congr 1
  norm_num
  omega

/-- One less than the word of an integer from 1 to 15 has the signed value one less: nothing wraps. -/
theorem subi_small (k : ℤ) (hk1 : 1 ≤ k) (hk15 : k ≤ 15) :
    (IntOp.subi (BitVec.ofInt 32 k) 1#32).toInt = k - 1 := by
  unfold IntOp.subi
  interval_cases k <;> decide

/-- For a probability in (0, 1] the bin word's signed value is `⌈15 p⌉ - 1`: `⌈15 p⌉` lies in `1, …, 15`, so the
    clip to `[0, 14]` does nothing. -/
theorem binWord_toInt (p : ℝ) (h0 : 0 < p) (h1 : p ≤ 1) : (binWord (p : EReal)).toInt = ⌈p * 15⌉ - 1 := by
  have hk1 : 1 ≤ ⌈p * 15⌉ := by
    have : 0 < ⌈p * 15⌉ := Int.ceil_pos.mpr (by positivity)
    omega
  have hk15 : ⌈p * 15⌉ ≤ 15 := Int.ceil_le.mpr (by push_cast; linarith)
  unfold binWord
  rw [ofBits_fifteen, ← EReal.coe_mul, Ideal.liftRound_coe, toInt_minsi, toInt_maxsi, toInt_zero32, toInt_fourteen32,
    fptosi_small _ hk1 hk15, subi_small _ hk1 hk15]
  omega

/-! ### The three facts -/

/-- The shifted softmax of a row of reals is a real in (0, 1]. -/
theorem soft_real (r : Fin 100 → EReal) (hr : ∀ k, ∃ t : ℝ, r k = (t : EReal)) (c : Fin 100) :
    ∃ p : ℝ, soft r c = (p : EReal) ∧ 0 < p ∧ p ≤ 1 := by
  -- the row is a family of reals `t`, and its greatest entry is a real `M`
  choose t ht using hr
  obtain rfl : r = fun k => (t k : EReal) := funext ht
  obtain ⟨M, hM⟩ := fold_max_real t Finset.univ ⟨c, Finset.mem_univ c⟩
  -- every shifted exponential is the real `exp (t k - M)`, which is positive
  have hexp : ∀ k, Ideal.exp ((t k : EReal) - rowMax (fun k => (t k : EReal))) = ((Real.exp (t k - M) : ℝ) : EReal) := by
    intro k
    rw [rowMax, hM, ← EReal.coe_sub, Ideal.exp_coe]
  have hpos : ∀ k, 0 < Real.exp (t k - M) := fun k => Real.exp_pos _
  -- the denominator is a positive real, and the numerator is one of its summands
  have hS : 0 < ∑ k : Fin 100, Real.exp (t k - M) :=
    Finset.sum_pos (fun k _ => hpos k) ⟨c, Finset.mem_univ c⟩
  have hle : Real.exp (t c - M) ≤ ∑ k : Fin 100, Real.exp (t k - M) :=
    Finset.single_le_sum (f := fun k => Real.exp (t k - M)) (fun k _ => (hpos k).le) (Finset.mem_univ c)
  refine ⟨Real.exp (t c - M) * (1 / ∑ k : Fin 100, Real.exp (t k - M)), ?_, ?_, ?_⟩
  · simp only [soft, hexp]
    rw [coe_sum_real, Ideal.div_coe hS.ne', EReal.coe_mul]
  · exact mul_pos (hpos c) (one_div_pos.mpr hS)
  · rw [mul_one_div, div_le_one hS]; exact hle

/-- The bin word is always one of `0, …, 14`: the clip. -/
theorem binWord_range (p : EReal) : 0 ≤ (binWord p).toInt ∧ (binWord p).toInt ≤ 14 := by
  unfold binWord
  rw [toInt_minsi, toInt_maxsi, toInt_zero32, toInt_fourteen32]
  omega

/-- For a probability in (0, 1] the bin word is `b` exactly on the bin `(b/15, (b+1)/15]`. -/
theorem binWord_coe (p : ℝ) (h0 : 0 < p) (h1 : p ≤ 1) (b : Fin 15) :
    (binWord (p : EReal)).toInt = (b.val : ℤ) ↔ ((b.val : ℝ) / 15 < p ∧ p ≤ ((b.val + 1 : ℕ) : ℝ) / 15) := by
  -- both bounds multiplied through by 15, and `⌈15 p⌉ - 1 = b` read as `⌈15 p⌉ = b + 1`
  have e1 : ((b.val : ℝ) / 15 < p) ↔ ((b.val : ℝ) < p * 15) := div_lt_iff₀ (by norm_num)
  have e2 : (p ≤ ((b.val + 1 : ℕ) : ℝ) / 15) ↔ (p * 15 ≤ ((b.val + 1 : ℕ) : ℝ)) := le_div_iff₀ (by norm_num)
  have e3 : ⌈p * 15⌉ - 1 = (b.val : ℤ) ↔ ⌈p * 15⌉ = ((b.val + 1 : ℕ) : ℤ) := by
    push_cast; omega
  -- the ceiling is `b + 1` exactly when `b < 15 p ≤ b + 1`
  rw [binWord_toInt p h0 h1, e1, e2, e3, Int.ceil_eq_iff]
  push_cast
  constructor <;> rintro ⟨ha, hb⟩ <;> constructor <;> linarith

end Cert.Ece

end
-- ==== Proof.RefSums.lean ====
/-
  The reference's three segment sums are the statistics by bin.
-/
import proofs.«403413_j11424613007597_3_alg».proof.Proof.RefStages
import proofs.«403413_j11424613007597_3_alg».proof.Proof.LibScatter1D
import proofs.«403413_j11424613007597_3_alg».proof.Proof.EceReindex
import proofs.«403413_j11424613007597_3_alg».proof.Proof.EceMathBin

noncomputable section

namespace Cert.ReferenceIdeal.EceRef

open Cert.ReferenceIdeal Cert.ReferenceIdeal.Gen Cert.ReferenceIdeal.ReadP Cert.Ece Idealize.ShloMosaic

variable (x0 : (⟨S500000x100, .f32⟩ : BufTy).Contents (Elt Ideal)) (x1 : (⟨S500000, .i32⟩ : BufTy).Contents (Elt Ideal))

/-- A small non-negative integer is its own balanced residue modulo `2³²`. -/
theorem bmod_small (z : ℤ) (h0 : 0 ≤ z) (h1 : z < 2000) : z.bmod (2 ^ 32 : ℕ) = z := by
  apply Int.bmod_eq_of_le <;> omega

/-- No wrap-around in the segment word: for a class below 100 and a bin word in `[0, 14]`,
    `15 · class + bin` computed on 32-bit words has the signed value `15 · class + bin`. -/
theorem segWord_toInt (k' : Fin 100) (t : BitVec 32) (h0 : 0 ≤ t.toInt) (h14 : t.toInt ≤ 14) :
    (IntOp.addi (IntOp.muli (BitVec.ofNat 32 k'.val) 15#32) t).toInt = 15 * (k'.val : ℤ) + t.toInt := by
  have hk := k'.isLt
  have h15 : (15#32 : BitVec 32).toInt = 15 := by decide
  unfold IntOp.addi IntOp.muli
  rw [BitVec.toInt_add, BitVec.toInt_mul, BitVec.toInt_ofNat', h15,
    bmod_small (k'.val : ℤ) (by omega) (by omega),
    bmod_small ((k'.val : ℤ) * 15) (by omega) (by omega),
    bmod_small ((k'.val : ℤ) * 15 + t.toInt) (by omega) (by omega)]
  ring

/-- A segment sum from zero, read at segment `15 k + b`: the flattened (row, class) pairs whose segment word is
    `15 k + b` are the pairs of class `k` whose bin word is `b`, one per row at most. -/
theorem segsum_apply (z : S1500.Idx → EReal) (hz : ∀ i, z i = 0) (ix : IVec S50000000x1 32)
    (hix : ∀ (n : Fin 500000) (k' : Fin 100), ix (ValueIdx.ix2 (flatIdx n k') (0 : Fin 1))
      = IntOp.addi (IntOp.muli (BitVec.ofNat 32 k'.val) 15#32) (binWord (soft (rowsOf x0 n) k')))
    (u : S50000000.Idx → EReal) (k : Fin 100) (b : Fin 15) :
    Ideal.hostScatterAdd scatter_S1500_S50000000x1_S50000000_n_0_0_1 z ix u (ValueIdx.ix1 (segIdx k b))
      = ∑ n : Fin 500000,
          if (binWord (soft (rowsOf x0 n) k)).toInt = (b.val : ℤ) then u (ValueIdx.ix1 (flatIdx n k)) else 0 := by
  have hb := b.isLt
  rw [Ideal.hostScatterAdd_rank1_apply _ rfl rfl rfl rfl, hz, zero_add, sum_flat_split]
  refine Finset.sum_congr rfl fun n _ => ?_
  have hw : ∀ k' : Fin 100, (ix (ValueIdx.ix2 (flatIdx n k') (0 : Fin 1))).toInt
      = 15 * (k'.val : ℤ) + (binWord (soft (rowsOf x0 n) k')).toInt := fun k' => by
    rw [hix, segWord_toInt k' _ (binWord_range _).1 (binWord_range _).2]
  rw [Finset.sum_eq_single k]
  · refine if_congr ?_ rfl rfl
    rw [hw k]
    show 15 * (k.val : ℤ) + _ = ((15 * k.val + b.val : ℕ) : ℤ) ↔ _
    omega
  · intro k' _ hne
    rw [if_neg]
    rw [hw k']
    have h0 := (binWord_range (soft (rowsOf x0 n) k')).1
    have h14 := (binWord_range (soft (rowsOf x0 n) k')).2
    intro h
    apply hne
    apply Fin.ext
    change 15 * (k'.val : ℤ) + _ = ((15 * k.val + b.val : ℕ) : ℤ) at h
    omega
  · intro h
    exact absurd (Finset.mem_univ k) h

/-- At the ideal values the host's accumulating scatter is the exact one, whatever the shapes. -/
theorem scatterAdd_ideal {φ : FTy} {s si u : Shape} {w : Nat} (d : ScatterDims s si u) (x : FVec Ideal s φ)
    (ix : IVec si w) (upd : FVec Ideal u φ) :
    Host.scatterAdd d x ix upd = Ideal.hostScatterAdd d x ix upd := rfl

/-- The three operands are the zero word everywhere. -/
theorem zero35 (i : S1500.Idx) : val_main_v35 (F := Ideal) i = 0 := by
  rw [val_main_v35_apply, val_main_cst_7_apply]; exact Ideal.ofBits_zero_f32
theorem zero38 (i : S1500.Idx) : val_main_v38 (F := Ideal) i = 0 := by
  rw [val_main_v38_apply, val_main_cst_8_apply]; exact Ideal.ofBits_zero_f32
theorem zero41 (i : S1500.Idx) : val_main_v41 (F := Ideal) i = 0 := by
  rw [val_main_v41_apply, val_main_cst_9_apply]; exact Ideal.ofBits_zero_f32

/-- The three scatters read the same segment words: each index operand is the same reshaping of the segment ids. -/
theorem v39_eq : val_main_v39 (F := Ideal) x0 = val_main_v36 (F := Ideal) x0 := rfl
theorem v42_eq : val_main_v42 (F := Ideal) x0 = val_main_v36 (F := Ideal) x0 := rfl

theorem cnt_apply (k : Fin 100) (b : Fin 15) :
    val_main_v37 (F := Ideal) x0 (ValueIdx.ix1 (segIdx k b)) = binCnt (rowsOf x0) b k := by
  unfold val_main_v37 binCnt
  refine (congrFun (scatterAdd_ideal _ _ _ _) _).trans ?_
  refine (segsum_apply x0 _ zero35 _ (seg_apply x0) _ k b).trans ?_
  refine Finset.sum_congr rfl fun n _ => ?_
  rw [ones_apply]

theorem conf_sum_apply (k : Fin 100) (b : Fin 15) :
    val_main_v40 (F := Ideal) x0 (ValueIdx.ix1 (segIdx k b)) = binConf (rowsOf x0) b k := by
  unfold val_main_v40 binConf
  refine (congrFun (scatterAdd_ideal _ _ _ _) _).trans ?_
  refine (segsum_apply x0 _ zero38 _
    (fun n k' => (congrFun (v39_eq x0) _).trans (seg_apply x0 n k')) _ k b).trans ?_
  refine Finset.sum_congr rfl fun n _ => ?_
  rw [conf_apply]

theorem acc_apply (k : Fin 100) (b : Fin 15) :
    val_main_v43 (F := Ideal) x0 x1 (ValueIdx.ix1 (segIdx k b)) = binAcc (rowsOf x0) (labsOf x1) b k := by
  unfold val_main_v43 binAcc
  refine (congrFun (scatterAdd_ideal _ _ _ _) _).trans ?_
  refine (segsum_apply x0 _ zero41 _
    (fun n k' => (congrFun (v42_eq x0) _).trans (seg_apply x0 n k')) _ k b).trans ?_
  refine Finset.sum_congr rfl fun n _ => ?_
  rw [hit_apply]

end Cert.ReferenceIdeal.EceRef

end
-- ==== Proof.RefResult.lean ====
/-
  The reference's result is the calibration error of its three segment sums, the statistics by bin.

  The last stages of the reference work on the 1500 segments one element at a time: from the three segment sums at a
  segment they form the segment's share `|conf / max cnt 1 - acc / max cnt 1| · (cnt / 500000)` (zero where the count is
  not positive).  The segments are then laid out as a 100 × 15 table, row `c` column `b` holding segment `15 c + b`, the
  rows are summed, the row sums are summed, and the total is divided by 100.
-/
import proofs.«403413_j11424613007597_3_alg».proof.Proof.RefSums
import Idealize.ShloMosaic.Lib.ValueIdxRank1

noncomputable section

namespace Cert.ReferenceIdeal.EceRef

open Cert.ReferenceIdeal Cert.ReferenceIdeal.Gen Cert.ReferenceIdeal.ReadP Cert.Ece Idealize.ShloMosaic

variable (x0 : (⟨S500000x100, .f32⟩ : BufTy).Contents (Elt Ideal)) (x1 : (⟨S500000, .i32⟩ : BufTy).Contents (Elt Ideal))

/-- One segment's share: at segment `15 k + b` the selected product is `perBin` of the three statistics of bin `b`,
    class `k`.  Every stage down to the three segment sums reads one element of each operand, and at the ideal floats
    each operation is the extended-real one that `perBin` is written with. -/
theorem share_apply (k : Fin 100) (b : Fin 15) :
    val_main_v55 (F := Ideal) x0 x1 (ValueIdx.ix1 (segIdx k b))
      = perBin (binCnt (rowsOf x0) b k) (binConf (rowsOf x0) b k) (binAcc (rowsOf x0) (labsOf x1) b k) := by
  rw [val_main_v55_apply, val_main_v53_apply, val_main_v54_apply, val_main_v49_apply, val_main_v48_apply,
    val_main_v46_apply, val_main_v47_apply, val_main_v45_apply, val_main_v51_apply,
    val_main_v44_apply, val_main_cst_10_apply, val_main_v50_apply, val_main_cst_11_apply,
    val_main_v52_apply, val_main_cst_12_apply, val_main_call1_v1_apply, val_main_call1_v0_apply, val_main_cst_13_apply,
    cnt_apply, conf_sum_apply, acc_apply]
  rfl

/-- Row `c`, column `b` of the 100 × 15 table is segment `15 c + b`. -/
theorem table_idx (c : Fin 100) (b : Fin 15) :
    idx_main_v56 (idx_main_v57 (ValueIdx.ix1 c) b) = ValueIdx.ix1 (segIdx c b) := by
  funext a
  match a with
  | ⟨0, _⟩ => exact Fin.ext (by show c.val * 15 + b.val = 15 * c.val + b.val; omega)

/-- A row sum of the table: the zero word plus the fifteen shares of class `c`. -/
theorem row_apply (c : Fin 100) :
    val_main_v57 (F := Ideal) x0 x1 (ValueIdx.ix1 c)
      = Ideal.ofBits .f32 0x00000000#32
        + ∑ b : Fin 15, perBin (binCnt (rowsOf x0) b c) (binConf (rowsOf x0) b c) (binAcc (rowsOf x0) (labsOf x1) b c) := by
  rw [val_main_v57_apply, val_main_cst_14_apply]
  refine congrArg (_ + ·) (Finset.sum_congr rfl fun b _ => ?_)
  rw [val_main_v56_apply, table_idx, share_apply]

/-- The reference's result. -/
theorem result_eq :
    val_main_v59 (F := Ideal) x0 x1
      = fun _ => ece (binCnt (rowsOf x0)) (binConf (rowsOf x0)) (binAcc (rowsOf x0) (labsOf x1)) := by
  funext i
  rw [val_main_v59_apply, val_main_v58_apply, val_main_cst_15_apply, val_main_cst_16_apply,
    ← Equiv.sum_comp ValueIdx.idxEquiv1.symm]
  have h : ∀ c : Fin 100, val_main_v57 (F := Ideal) x0 x1 (ValueIdx.idxEquiv1.symm c)
      = Ideal.ofBits .f32 0x00000000#32
        + ∑ b : Fin 15, perBin (binCnt (rowsOf x0) b c) (binConf (rowsOf x0) b c) (binAcc (rowsOf x0) (labsOf x1) b c) :=
    fun c => row_apply x0 x1 c
  simp only [h, Ideal.hostDivf_def, Ideal.ofBits_def]
  rfl

end Cert.ReferenceIdeal.EceRef

end
-- ==== Proof.EceMath.lean ====
/-
  The two ways of writing the statistics agree when every logit is a real number.

  Every probability `p = soft (x n) c` is a real number in (0, 1].  For a real `p` the difference of the two adjacent
  threshold tests `[p ≤ (b+1)/15] - [p ≤ b/15]` is the test `b/15 < p ≤ (b+1)/15` (at `b = 0` nothing is subtracted
  and the lower bound `0 < p` holds anyway), and that test is the bin test.  Subtraction of extended reals does not
  distribute over sums, so every sum is first written as the image of a sum of real numbers.
-/
import proofs.«403413_j11424613007597_3_alg».proof.Proof.EceMathBin

noncomputable section

namespace Cert.Ece

open Idealize.ShloMosaic

/-- The image of a finite sum of real numbers is the sum of the images. -/
theorem coe_sum {ι : Type} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A threshold test on the image of a real number is the test on the real number. -/
theorem coe_le_thr (p : ℝ) (b : Fin 15) : ((p : EReal) ≤ thr b) ↔ p ≤ ((b.val + 1 : ℕ) : ℝ) / 15 := by
  unfold thr
  exact EReal.coe_le_coe_iff

/-- A thresholded sum of images of real numbers is the image of the thresholded sum. -/
theorem cum_coe (P G : Fin 500000 → EReal) (p g : Fin 500000 → ℝ)
    (hP : ∀ n, P n = (p n : EReal)) (hG : ∀ n, G n = (g n : EReal)) (b : Fin 15) :
    (∑ n, (if P n ≤ thr b then G n else 0))
      = ((∑ n, (if p n ≤ ((b.val + 1 : ℕ) : ℝ) / 15 then g n else 0) : ℝ) : EReal) := by
  rw [← coe_sum]
  refine Finset.sum_congr rfl (fun n _ => ?_)
  rw [hP n, hG n]
  by_cases h : p n ≤ ((b.val + 1 : ℕ) : ℝ) / 15
  · rw [if_pos ((coe_le_thr (p n) b).mpr h), if_pos h]
  · rw [if_neg (fun h' => h ((coe_le_thr (p n) b).mp h')), if_neg h, EReal.coe_zero]

/-- A binned sum of images of real numbers in (0, 1] is the image of the sum over the bin's interval. -/
theorem bin_coe (P G : Fin 500000 → EReal) (p g : Fin 500000 → ℝ)
    (hP : ∀ n, P n = (p n : EReal)) (hG : ∀ n, G n = (g n : EReal))
    (h0 : ∀ n, 0 < p n) (h1 : ∀ n, p n ≤ 1) (b : Fin 15) :
    (∑ n, (if (binWord (P n)).toInt = (b.val : ℤ) then G n else 0))
      = ((∑ n, (if ((b.val : ℝ) / 15 < p n ∧ p n ≤ ((b.val + 1 : ℕ) : ℝ) / 15) then g n else 0) : ℝ) : EReal) := by
  rw [← coe_sum]
  refine Finset.sum_congr rfl (fun n _ => ?_)
  rw [hP n, hG n]
  have hb := binWord_coe (p n) (h0 n) (h1 n) b
  by_cases h : ((b.val : ℝ) / 15 < p n ∧ p n ≤ ((b.val + 1 : ℕ) : ℝ) / 15)
  · rw [if_pos (hb.mpr h), if_pos h]
  · rw [if_neg (fun h' => h (hb.mp h')), if_neg h, EReal.coe_zero]

/-- The difference of adjacent thresholded sums is the binned sum, for probabilities in (0, 1] and real weights. -/
theorem dif_gen (P G : Fin 500000 → EReal) (p g : Fin 500000 → ℝ)
    (hP : ∀ n, P n = (p n : EReal)) (hG : ∀ n, G n = (g n : EReal))
    (h0 : ∀ n, 0 < p n) (h1 : ∀ n, p n ≤ 1) (b : Fin 15) :
    (∑ n, (if P n ≤ thr b then G n else 0))
        - (if h : b.val = 0 then (0 : EReal)
            else ∑ n, (if P n ≤ thr ⟨b.val - 1, by omega⟩ then G n else 0))
      = ∑ n, (if (binWord (P n)).toInt = (b.val : ℤ) then G n else 0) := by
  rw [bin_coe P G p g hP hG h0 h1 b, cum_coe P G p g hP hG b]
  by_cases hb : b.val = 0
  · -- the first bin: nothing is subtracted, and the lower bound is 0 < p
    rw [dif_pos hb, sub_zero]
    refine congrArg (fun r : ℝ => (r : EReal)) ?_
    refine Finset.sum_congr rfl (fun n _ => ?_)
    have hz : (b.val : ℝ) / 15 < p n := by rw [hb]; simpa using h0 n
    by_cases h : p n ≤ ((b.val + 1 : ℕ) : ℝ) / 15
    · rw [if_pos h, if_pos ⟨hz, h⟩]
    · rw [if_neg h, if_neg (fun h' => h h'.2)]
  · -- a later bin: the threshold below is b/15
    rw [dif_neg hb, cum_coe P G p g hP hG ⟨b.val - 1, by omega⟩, ← EReal.coe_sub, ← Finset.sum_sub_distrib]
    refine congrArg (fun r : ℝ => (r : EReal)) ?_
    refine Finset.sum_congr rfl (fun n _ => ?_)
    have hlow : (((⟨b.val - 1, by omega⟩ : Fin 15).val + 1 : ℕ) : ℝ) / 15 = (b.val : ℝ) / 15 := by
      have : (⟨b.val - 1, by omega⟩ : Fin 15).val + 1 = b.val := by
        show b.val - 1 + 1 = b.val
        omega
      rw [this]
    rw [hlow]
    have hmono : (b.val : ℝ) / 15 ≤ ((b.val + 1 : ℕ) : ℝ) / 15 := by
      apply div_le_div_of_nonneg_right _ (by norm_num)
      exact_mod_cast Nat.le_succ b.val
    by_cases hu : p n ≤ ((b.val + 1 : ℕ) : ℝ) / 15
    · by_cases hl : p n ≤ (b.val : ℝ) / 15
      · rw [if_pos hu, if_pos hl, if_neg (fun h' => absurd hl (not_le.mpr h'.1)), sub_self]
      · rw [if_pos hu, if_neg hl, if_pos ⟨not_le.mp hl, hu⟩, sub_zero]
    · have hl : ¬ p n ≤ (b.val : ℝ) / 15 := fun h' => hu (le_trans h' hmono)
      rw [if_neg hu, if_neg hl, if_neg (fun h' => hu h'.2), sub_zero]

theorem dif_cumCnt (x : Fin 500000 → Fin 100 → EReal) (hx : RealRows x) : dif (cumCnt x) = binCnt x := by
  funext b c
  have hs : ∀ n, ∃ p : ℝ, soft (x n) c = (p : EReal) ∧ 0 < p ∧ p ≤ 1 := fun n => soft_real (x n) (hx n) c
  choose p hp h0 h1 using hs
  -- the weight of every row is 1
  have key := dif_gen (fun n => soft (x n) c) (fun _ => (1 : EReal)) p (fun _ => (1 : ℝ)) hp
    (fun _ => EReal.coe_one.symm) h0 h1 b
  unfold dif cumCnt binCnt ind
  exact key

theorem dif_cumConf (x : Fin 500000 → Fin 100 → EReal) (hx : RealRows x) : dif (cumConf x) = binConf x := by
  funext b c
  have hs : ∀ n, ∃ p : ℝ, soft (x n) c = (p : EReal) ∧ 0 < p ∧ p ≤ 1 := fun n => soft_real (x n) (hx n) c
  choose p hp h0 h1 using hs
  -- the weight of a row is its probability
  have key := dif_gen (fun n => soft (x n) c) (fun n => soft (x n) c) p p hp hp h0 h1 b
  unfold dif cumConf binConf keep
  exact key

theorem dif_cumAcc (x : Fin 500000 → Fin 100 → EReal) (lab : Fin 500000 → BitVec 32) (hx : RealRows x) :
    dif (cumAcc x lab) = binAcc x lab := by
  funext b c
  have hs : ∀ n, ∃ p : ℝ, soft (x n) c = (p : EReal) ∧ 0 < p ∧ p ≤ 1 := fun n => soft_real (x n) (hx n) c
  choose p hp h0 h1 using hs
  -- the weight of a row is 1 when its label is the class, else 0: a real number
  have hhit : ∀ n, hit (lab n) c = ((if lab n = BitVec.ofNat 32 c.val then (1 : ℝ) else 0 : ℝ) : EReal) := by
    intro n
    unfold hit
    by_cases h : lab n = BitVec.ofNat 32 c.val
    · rw [if_pos h, if_pos h, EReal.coe_one]
    · rw [if_neg h, if_neg h, EReal.coe_zero]
  -- a test times a weight is the weight where the test holds
  have hcum : ∀ b' : Fin 15, cumAcc x lab b' c
      = ∑ n, (if soft (x n) c ≤ thr b' then hit (lab n) c else 0) := by
    intro b'
    unfold cumAcc ind
    refine Finset.sum_congr rfl (fun n _ => ?_)
    rw [ite_mul, one_mul, zero_mul]
  have key := dif_gen (fun n => soft (x n) c) (fun n => hit (lab n) c) p
    (fun n => if lab n = BitVec.ofNat 32 c.val then (1 : ℝ) else 0) hp hhit h0 h1 b
  unfold dif binAcc
  simp only [hcum]
  exact key

end Cert.Ece

end
-- ==== Proof.Finite.lean ====
/-
  The precondition read: every logit of the idealized kernel's memory is a real number.
-/
import proofs.«403413_j11424613007597_3_alg».proof.Defs
import proofs.«403413_j11424613007597_3_alg».proof.Proof.Gen.Pre_finite_inputs
import proofs.«403413_j11424613007597_3_alg».proof.Proof.EceSpec
import Idealize.ShloMosaic.Lib.ReduceAll

noncomputable section

namespace Cert.Proof.EceFinite

open Idealize.ShloMosaic Idealize.SL.Sem Cert.Ece

/-- The word `0x7F800000` (sign 0, exponent all ones, fraction 0) denotes `+∞`. -/
theorem ofBits_inf : Ideal.ofBits .f32 0x7F800000#32 = (⊤ : EReal) := by
  simp [Ideal.ofBits, Ideal.ieee]

/-- An extended real whose absolute value `max x (-x)` is below `+∞` is a real number:
    at `-∞` and at `+∞` the absolute value is `+∞` itself. -/
theorem real_of_abs_lt_top (x : EReal) (hx : max x (-x) < ⊤) : ∃ r : ℝ, x = (r : EReal) := by
  induction x using EReal.rec with
  | bot => simp at hx
  | coe r => exact ⟨r, rfl⟩
  | top => simp at hx

theorem real_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    RealRows (rowsOf (m ((c.tc : Thread Cert.KernelIdeal.nD Cert.KernelIdeal.τ).loc Cert.KernelIdeal.main_arg0))) := by
  intro n k
  -- the result of the reduction has a single index
  haveI : Subsingleton Cert.Pre_finite_inputs.S_.Idx := ⟨fun a b => funext fun d => d.elim0⟩
  -- the precondition at its one index: the conjunction of all the comparisons `|x| < +∞` is 1
  have h0 := congrFun (h c) ValueIdx.ix0
  dsimp only [Cert.Pre_finite_inputs.fn] at h0
  -- so the comparison at the entry `(n, k)` is 1
  have h1 := Host.reduce_andi_all _ _ _ _ _ h0 (ValueIdx.ix2 n k)
  -- entrywise: the comparison of `max x (-x)` with the broadcast constant
  have h2 : Ideal.cmp .olt
      (max (rowsOf (m ((c.tc : Thread Cert.KernelIdeal.nD Cert.KernelIdeal.τ).loc Cert.KernelIdeal.main_arg0)) n k)
        (-(rowsOf (m ((c.tc : Thread Cert.KernelIdeal.nD Cert.KernelIdeal.τ).loc Cert.KernelIdeal.main_arg0)) n k)))
      (Ideal.ofBits .f32 0x7F800000#32) = 1#1 := h1
  rw [ofBits_inf] at h2
  apply real_of_abs_lt_top
  -- were `max x (-x) < ⊤` false, the comparison word would be 0
  by_contra hn
  simp [Ideal.cmp, hn] at h2

end Cert.Proof.EceFinite

end
-- ==== Proof.lean ====
/-
  Classwise expected calibration error by histogram binning over f32[500000, 100] logits and i32[500000] labels: the
  kernel against the reference, over the extended reals.

  Both programs turn each row of logits into probabilities by the shifted softmax and take, for every class and each of
  the fifteen bins (b/15, (b+1)/15], the number of rows whose probability falls in the bin, the sum of those
  probabilities and the number of those rows labelled with the class; from the three comes the class's calibration
  error, and the result is the mean over the classes (Proof/EceSpec.lean states all of it as one function).

  The kernel counts CUMULATIVELY: a grid of two halves of 125 tiles of 2000 rows adds, for each threshold (b+1)/15, the
  rows at or under it into three [15, 100] blocks per half (Proof/TileCommon.lean, Proof/KTile2.lean, Proof/KTile3.lean and Proof/KTile4Defs.lean, KTile4Rows.lean,
  KTile4.lean: one tile's share; Proof/KAcc.lean: the blocks after a half's last tile), and the lines after the region add the halves, difference
  adjacent thresholds and finish (Proof/KTail.lean; Proof/KernelValue.lean: the run).  The thresholds are the exact
  fractions the kernel's constants are named as, and the last is 1.
  The reference bins each probability directly, by the word clip (⌈15 p⌉ - 1) 0 14, and sums by a scatter over the
  flattened (row, class) pairs into 1500 segments (Proof/RefStages.lean: the stages at an index;
  Proof/LibScatter1D.lean: a scatter of one index word per update read as a sum; Proof/RefSums.lean: the three segment
  sums; Proof/RefResult.lean: the result).
  The two agree because a probability of real logits is a real number in (0, 1], for which the bin word is b exactly on
  (b/15, (b+1)/15], and differences of cumulative sums of real numbers are sums of differences
  (Proof/EceMathBin.lean, Proof/EceMath.lean); the precondition gives the real logits (Proof/Finite.lean).  Every sum is
  over the same rows, whatever the order (Proof/EceReindex.lean).
-/
import proofs.«403413_j11424613007597_3_alg».proof.Defs
import proofs.«403413_j11424613007597_3_alg».proof.Proof.Gen.Kernel
import proofs.«403413_j11424613007597_3_alg».proof.Proof.Gen.Kernel.Frame
import proofs.«403413_j11424613007597_3_alg».proof.Proof.Gen.KernelIdeal
import proofs.«403413_j11424613007597_3_alg».proof.Proof.Gen.KernelIdeal.Frame
import proofs.«403413_j11424613007597_3_alg».proof.Proof.Gen.ReferenceIdeal
import proofs.«403413_j11424613007597_3_alg».proof.Proof.Gen.Pre_finite_inputs
import proofs.«403413_j11424613007597_3_alg».proof.Proof.RefRunP
import proofs.«403413_j11424613007597_3_alg».proof.Proof.RefReadP
import proofs.«403413_j11424613007597_3_alg».proof.Proof.KernelValue
import proofs.«403413_j11424613007597_3_alg».proof.Proof.RefResult
import proofs.«403413_j11424613007597_3_alg».proof.Proof.EceMath
import proofs.«403413_j11424613007597_3_alg».proof.Proof.Finite
import Idealize.ShloMosaic.Adequacy
import Idealize.ShloMosaic.Init

noncomputable section

namespace Cert.Proof

open Idealize.ShloMosaic Idealize.SL.Sem Cert.Ece

/-- The kernel as printed runs and leaves its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ledger's fourteen entries: each threshold below 1 is named as the fraction (b+1)/15 it rounds from. -/
theorem preserves : Cert.preserves_Kernel_KernelIdeal :=
  ⟨IdealRules.named_const.statement Cert.KernelIdeal.κ "inv_15" .f32 0x3D888889#32 ((1 / 15 : ℝ) : EReal) rfl,
    IdealRules.named_const.statement Cert.KernelIdeal.κ "c_2_15" .f32 0x3E088889#32 ((2 / 15 : ℝ) : EReal) rfl,
    IdealRules.named_const.statement Cert.KernelIdeal.κ "inv_5" .f32 0x3E4CCCCD#32 ((1 / 5 : ℝ) : EReal) rfl,
    IdealRules.named_const.statement Cert.KernelIdeal.κ "c_4_15" .f32 0x3E888889#32 ((4 / 15 : ℝ) : EReal) rfl,
    IdealRules.named_const.statement Cert.KernelIdeal.κ "inv_3" .f32 0x3EAAAAAB#32 ((1 / 3 : ℝ) : EReal) rfl,
    IdealRules.named_const.statement Cert.KernelIdeal.κ "c_2_5" .f32 0x3ECCCCCD#32 ((2 / 5 : ℝ) : EReal) rfl,
    IdealRules.named_const.statement Cert.KernelIdeal.κ "c_7_15" .f32 0x3EEEEEEF#32 ((7 / 15 : ℝ) : EReal) rfl,
    IdealRules.named_const.statement Cert.KernelIdeal.κ "c_8_15" .f32 0x3F088889#32 ((8 / 15 : ℝ) : EReal) rfl,
    IdealRules.named_const.statement Cert.KernelIdeal.κ "c_3_5" .f32 0x3F19999A#32 ((3 / 5 : ℝ) : EReal) rfl,
    IdealRules.named_const.statement Cert.KernelIdeal.κ "c_2_3" .f32 0x3F2AAAAB#32 ((2 / 3 : ℝ) : EReal) rfl,
    IdealRules.named_const.statement Cert.KernelIdeal.κ "c_11_15" .f32 0x3F3BBBBC#32 ((11 / 15 : ℝ) : EReal) rfl,
    IdealRules.named_const.statement Cert.KernelIdeal.κ "c_4_5" .f32 0x3F4CCCCD#32 ((4 / 5 : ℝ) : EReal) rfl,
    IdealRules.named_const.statement Cert.KernelIdeal.κ "c_13_15" .f32 0x3F5DDDDE#32 ((13 / 15 : ℝ) : EReal) rfl,
    IdealRules.named_const.statement Cert.KernelIdeal.κ "c_14_15" .f32 0x3F6EEEEF#32 ((14 / 15 : ℝ) : EReal) rfl⟩

/-- From memories that agree on the two arguments, under the precondition: the kernel's result is the calibration error
    of the differenced cumulative statistics, the reference's that of the statistics by bin, and for real logits the
    two sets of statistics are the same. -/
theorem algebraic : Cert.algebraic_KernelIdeal_ReferenceIdeal := by
  intro m ρ m' ρ' hpre hagree
  refine ⟨fun c => Cert.KernelIdeal.EceValue.result m c, Cert.KernelIdeal.EceValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v59_eq, (hagree c).1, (hagree c).2, Cert.ReferenceIdeal.EceRef.result_eq]
  have hx := Cert.Proof.EceFinite.real_of_pre m hpre c
  funext _
  show ece _ _ _
    = ece (dif (cumCnt (rowsOf (m ((c.tc : Thread Cert.KernelIdeal.nD Cert.KernelIdeal.τ).loc Cert.KernelIdeal.main_arg0)))))
        (dif (cumConf (rowsOf (m ((c.tc : Thread Cert.KernelIdeal.nD Cert.KernelIdeal.τ).loc Cert.KernelIdeal.main_arg0)))))
        (dif (cumAcc (rowsOf (m ((c.tc : Thread Cert.KernelIdeal.nD Cert.KernelIdeal.τ).loc Cert.KernelIdeal.main_arg0)))
          (labsOf (m ((c.tc : Thread Cert.KernelIdeal.nD Cert.KernelIdeal.τ).loc Cert.KernelIdeal.main_arg1)))))
  rw [dif_cumCnt _ hx, dif_cumConf _ hx, dif_cumAcc _ _ hx]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
